-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_arg6)) (v2 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg6) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg6) = v1 c
          ∧ r.2.mem ((c.tc : Thread Cert.ReferenceIdeal.nD Cert.ReferenceIdeal.τ).loc Cert.ReferenceIdeal.main_v218) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S4000000x2 : Shape := ⟨2, ![4000000, 2]⟩
abbrev S4000000 : Shape := ⟨1, ![4000000]⟩
abbrev S1 : Shape := ⟨1, ![1]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S4000000 : S_.BroadcastsInDim S4000000 (![] : Fin 0 → Fin S4000000.rank)
  reducesTo_S4000000_S_d0 : S4000000.ReducesTo [0] S_
  bcast_S_S1 : S_.BroadcastsInDim S1 (![] : Fin 0 → Fin S1.rank)
  reducesTo_S1_S_d0 : S1.ReducesTo [0] S_
  bcast_S_S4000000x2 : S_.BroadcastsInDim S4000000x2 (![] : Fin 0 → Fin S4000000x2.rank)
  reducesTo_S4000000x2_S_d0_1 : S4000000x2.ReducesTo [0, 1] S_

variable [Facts]

def fn_part2 {F : FTy → Type} [FloatOps F] (main_arg1 : IVec S4000000x2 32) (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S4000000x2 32 := broadcastInDim S4000000x2 ![] bcast_S_S4000000x2 main_c_14
  let main_v40 : IVec S4000000x2 1 := cmpi .sge main_arg1 main_v39
  let main_c_15 : IVec S_ 1 := constantI S_ 1 1#1
  let main_v41 : IVec S_ 1 := (fun x v => Host.reduce IntOp.andi x v reducesTo_S4000000x2_S_d0_1 h_S_) main_v40 main_c_15
  let main_v42 : IVec S_ 1 := andi main_v38 main_v41
  let main_c_16 : IVec S_ 32 := constantI S_ 32 1000000#32
  let main_v43 : IVec S4000000x2 32 := broadcastInDim S4000000x2 ![] bcast_S_S4000000x2 main_c_16
  let main_v44 : IVec S4000000x2 1 := cmpi .slt main_arg1 main_v43
  let main_c_17 : IVec S_ 1 := constantI S_ 1 1#1
  let main_v45 : IVec S_ 1 := (fun x v => Host.reduce IntOp.andi x v reducesTo_S4000000x2_S_d0_1 h_S_) main_v44 main_c_17
  let main_v46 : IVec S_ 1 := andi main_v42 main_v45
  main_v46

def fn_part1 {F : FTy → Type} [FloatOps F] (main_arg1 : IVec S4000000x2 32) (main_arg5 : FVec F S4000000 .f32) (main_arg6 : FVec F S1000000x3 .f32) (main_arg7 : FVec F S1 .f32) (main_arg8 : FVec F S1 .f32) (main_v13 : IVec S_ 1) (main_v16 : IVec S4000000 1) : IVec S_ 1 :=
  let main_c_5 : IVec S_ 1 := constantI S_ 1 1#1
  let main_v17 : IVec S_ 1 := (fun x v => Host.reduce IntOp.andi x v reducesTo_S4000000_S_d0 h_S_) main_v16 main_c_5
  let main_v18 : IVec S_ 1 := andi main_v13 main_v17
  let main_v19 : FVec F S4000000 .f32 := Host.absf main_arg5
  let main_cst_6 : FVec F S_ .f32 := constant S_ .f32 0x7F800000#32
  let main_v20 : FVec F S4000000 .f32 := broadcastInDim S4000000 ![] bcast_S_S4000000 main_cst_6
  let main_v21 : IVec S4000000 1 := cmpf .olt main_v19 main_v20
  let main_c_7 : IVec S_ 1 := constantI S_ 1 1#1
  let main_v22 : IVec S_ 1 := (fun x v => Host.reduce IntOp.andi x v reducesTo_S4000000_S_d0 h_S_) main_v21 main_c_7
  let main_v23 : IVec S_ 1 := andi main_v18 main_v22
  let main_v24 : FVec F S1000000x3 .f32 := Host.absf main_arg6
  let main_cst_8 : FVec F S_ .f32 := constant S_ .f32 0x7F800000#32
  let main_v25 : FVec F S1000000x3 .f32 := broadcastInDim S1000000x3 ![] bcast_S_S1000000x3 main_cst_8
  let main_v26 : IVec S1000000x3 1 := cmpf .olt main_v24 main_v25
  let main_c_9 : IVec S_ 1 := constantI S_ 1 1#1
  let main_v27 : IVec S_ 1 := (fun x v => Host.reduce IntOp.andi x v reducesTo_S1000000x3_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg8 main_v33

def fn {F : FTy → Type} [FloatOps F] (main_arg0 : FVec F S1000000x3 .f32) (main_arg1 : IVec S4000000x2 32) (main_arg2 : FVec F S1000000x3 .f32) (main_arg3 : FVec F S4000000 .f32) (main_arg4 : FVec F S4000000 .f32) (main_arg5 : FVec F S4000000 .f32) (main_arg6 : FVec F S1000000x3 .f32) (main_arg7 : FVec F S1 .f32) (main_arg8 : FVec F S1 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S1000000x3 .f32 := Host.absf main_arg2
  let main_cst_0 : FVec F S_ .f32 := constant S_ .f32 0x7F800000#32
  let main_v5 : FVec F S1000000x3 .f32 := broadcastInDim S1000000x3 ![] bcast_S_S1000000x3 main_cst_0
  let main_v6 : IVec S1000000x3 1 := cmpf .olt main_v4 main_v5
  let main_c_1 : IVec S_ 1 := constantI S_ 1 1#1
  let main_v7 : IVec S_ 1 := (fun x v => Host.reduce IntOp.andi x v reducesTo_S1000000x3_S_d0_1 h_S_) main_v6 main_c_1
  let main_v8 : IVec S_ 1 := andi main_v3 main_v7
  let main_v9 : FVec F S4000000 .f32 := Host.absf main_arg3
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S4000000 .f32 := Host.absf main_arg4
  let main_cst_4 : FVec F S_ .f32 := constant S_ .f32 0x7F800000#32
  let main_v15 : FVec F S4000000 .f32 := broadcastInDim S4000000 ![] bcast_S_S4000000 main_cst_4
  let main_v16 : IVec S4000000 1 := cmpf .olt main_v14 main_v15
  fn_part1 (F := F) main_arg1 main_arg5 main_arg6 main_arg7 main_arg8 main_v13 main_v16
-- ==== Kernel.lean ====
abbrev S1000000x3 : Shape := ⟨2, ![1000000, 3]⟩
abbrev S4000000x2 : Shape := ⟨2, ![4000000, 2]⟩
abbrev S4000000 : Shape := ⟨1, ![4000000]⟩
abbrev S1 : Shape := ⟨1, ![1]⟩
abbrev S4000000x1 : Shape := ⟨2, ![4000000, 1]⟩
abbrev S_ : Shape := ⟨0, ![]⟩
abbrev S1x1 : Shape := ⟨2, ![1, 1]⟩
abbrev S4000000x3 : Shape := ⟨2, ![4000000, 3]⟩
abbrev S3x4000000 : Shape := ⟨2, ![3, 4000000]⟩
abbrev S1x4000000 : Shape := ⟨2, ![1, 4000000]⟩
abbrev S3x4063232 : Shape := ⟨2, ![3, 4063232]⟩
abbrev S3x31744x128 : Shape := ⟨3, ![3, 31744, 128]⟩
abbrev S3x512x128 : Shape := ⟨3, ![3, 512, 128]⟩
abbrev S1x512x128 : Shape := ⟨3, ![1, 512, 128]⟩
abbrev S512x128 : Shape := ⟨2, ![512, 128]⟩
abbrev S8000000x3 : Shape := ⟨2, ![8000000, 3]⟩
abbrev S8000000 : Shape := ⟨1, ![8000000]⟩
abbrev S8000000x1 : Shape := ⟨2, ![8000000, 1]⟩
abbrev S1000000x1 : Shape := ⟨2, ![1000000, 1]⟩
abbrev S1000000 : Shape := ⟨1, ![1000000]⟩

abbrev nBuf : Space → Nat
  | .hbm => 166
  | .vmem => 14
  | .smem => 0
  | _ => 0

abbrev hbmTy0_0 (i : Nat) : BufTy := match i % 128 with
  | 0 => ⟨S1000000x3, .f32⟩
  | 1 => ⟨S4000000x2, .i32⟩
  | 2 => ⟨S1000000x3, .f32⟩
  | 3 => ⟨S4000000, .f32⟩
  | 4 => ⟨S4000000, .f32⟩
  | 5 => ⟨S4000000, .f32⟩
  | 6 => ⟨S1000000x3, .f32⟩
  | 7 => ⟨S1, .f32⟩
  | 8 => ⟨S1, .f32⟩
  | 9 => ⟨S4000000x1, .i32⟩
  | 10 => ⟨S4000000, .i32⟩
  | 11 => ⟨S4000000x1, .i32⟩
  | 12 => ⟨S4000000, .i32⟩
  | 13 => ⟨S_, .i32⟩
  | 14 => ⟨S4000000, .i32⟩
  | 15 => ⟨S4000000, .i1⟩
  | 16 => ⟨S_, .i32⟩
  | 17 => ⟨S4000000, .i32⟩
  | 18 => ⟨S4000000, .i32⟩
  | 19 => ⟨S4000000, .i32⟩
  | 20 => ⟨S4000000x1, .i32⟩
  | 21 => ⟨S1, .i32⟩
  | 22 => ⟨S_, .i32⟩
  | 23 => ⟨S4000000x1, .i32⟩
  | 24 => ⟨S4000000x1, .i1⟩
  | 25 => ⟨S1x1, .i32⟩
  | 26 => ⟨S4000000x1, .i32⟩
  | 27 => ⟨S4000000x1, .i1⟩
  | 28 => ⟨S4000000x1, .i1⟩
  | 29 => ⟨S_, .i1⟩
  | 30 => ⟨S4000000, .i1⟩
  | 31 => ⟨S4000000x3, .f32⟩
  | 32 => ⟨S4000000x3, .i1⟩
  | 33 => ⟨S_, .f32⟩
  | 34 => ⟨S4000000x3, .f32⟩
  | 35 => ⟨S4000000x3, .f32⟩
  | 36 => ⟨S_, .i32⟩
  | 37 => ⟨S4000000, .i32⟩
  | 38 => ⟨S4000000, .i1⟩
  | 39 => ⟨S_, .i32⟩
  | 40 => ⟨S4000000, .i32⟩
  | 41 => ⟨S4000000, .i32⟩
  | 42 => ⟨S4000000, .i32⟩
  | 43 => ⟨S4000000x1, .i32⟩
  | 44 => ⟨S1, .i32⟩
  | 45 => ⟨S_, .i32⟩
  | 46 => ⟨S4000000x1, .i32⟩
  | 47 => ⟨S4000000x1, .i1⟩
  | 48 => ⟨S1x1, .i32⟩
  | 49 => ⟨S4000000x1, .i32⟩
  | 50 => ⟨S4000000x1, .i1⟩
  | 51 => ⟨S4000000x1, .i1⟩
  | 52 => ⟨S_, .i1⟩
  | 53 => ⟨S4000000, .i1⟩
  | 54 => ⟨S4000000x3, .f32⟩
  | 55 => ⟨S4000000x3, .i1⟩
  | 56 => ⟨S_, .f32⟩
  | 57 => ⟨S4000000x3, .f32⟩
  | 58 => ⟨S4000000x3, .f32⟩
  | 59 => ⟨S_, .i32⟩
  | 60 => ⟨S4000000, .i32⟩
  | 61 => ⟨S4000000, .i1⟩
  | 62 => ⟨S_, .i32⟩
  | 63 => ⟨S4000000, .i32⟩
  | 64 => ⟨S4000000, .i32⟩
  | 65 => ⟨S4000000, .i32⟩
  | 66 => ⟨S4000000x1, .i32⟩
  | 67 => ⟨S1, .i32⟩
  | 68 => ⟨S_, .i32⟩
  | 69 => ⟨S4000000x1, .i32⟩
  | 70 => ⟨S4000000x1, .i1⟩
  | 71 => ⟨S1x1, .i32⟩
  | 72 => ⟨S4000000x1, .i32⟩
  | 73 => ⟨S4000000x1, .i1⟩
  | 74 => ⟨S4000000x1, .i1⟩
  | 75 => ⟨S_, .i1⟩
  | 76 => ⟨S4000000, .i1⟩
  | 77 => ⟨S4000000x3, .f32⟩
  | 78 => ⟨S4000000x3, .i1⟩
  | 79 => ⟨S_, .f32⟩
  | 80 => ⟨S4000000x3, .f32⟩
  | 81 => ⟨S4000000x3, .f32⟩
  | 82 => ⟨S_, .i32⟩
  | 83 => ⟨S4000000, .i32⟩
  | 84 => ⟨S4000000, .i1⟩
  | 85 => ⟨S_, .i32⟩
  | 86 => ⟨S4000000, .i32⟩
  | 87 => ⟨S4000000, .i32⟩
  | 88 => ⟨S4000000, .i32⟩
  | 89 => ⟨S4000000x1, .i32⟩
  | 90 => ⟨S1, .i32⟩
  | 91 => ⟨S_, .i32⟩
  | 92 => ⟨S4000000x1, .i32⟩
  | 93 => ⟨S4000000x1, .i1⟩
  | 94 => ⟨S1x1, .i32⟩
  | 95 => ⟨S4000000x1, .i32⟩
  | 96 => ⟨S4000000x1, .i1⟩
  | 97 => ⟨S4000000x1, .i1⟩
  | 98 => ⟨S_, .i1⟩
  | 99 => ⟨S4000000, .i1⟩
  | 100 => ⟨S4000000x3, .f32⟩
  | 101 => ⟨S4000000x3, .i1⟩
  | 102 => ⟨S_, .f32⟩
  | 103 => ⟨S4000000x3, .f32⟩
  | 104 => ⟨S4000000x3, .f32⟩
  | 105 => ⟨S3x4000000, .f32⟩
  | 106 => ⟨S3x4000000, .f32⟩
  | 107 => ⟨S3x4000000, .f32⟩
  | 108 => ⟨S3x4000000, .f32⟩
  | 109 => ⟨S1x4000000, .f32⟩
  | 110 => ⟨S1x4000000, .f32⟩
  | 111 => ⟨S1x4000000, .f32⟩
  | 112 => ⟨S3x4000000, .f32⟩
  | 113 => ⟨S_, .i32⟩
  | 114 => ⟨S_, .f32⟩
  | 115 => ⟨S3x4063232, .f32⟩
  | 116 => ⟨S3x31744x128, .f32⟩
  | 117 => ⟨S_, .i32⟩
  | 118 => ⟨S_, .f32⟩
  | 119 => ⟨S3x4063232, .f32⟩
  | 120 => ⟨S3x31744x128, .f32⟩
  | 121 => ⟨S_, .i32⟩
  | 122 => ⟨S_, .f32⟩
  | 123 => ⟨S3x4063232, .f32⟩
  | 124 => ⟨S3x31744x128, .f32⟩
  | 125 => ⟨S_, .i32⟩
  | 126 => ⟨S_, .f32⟩
  | 127 => ⟨S3x4063232, .f32⟩
  | _ => ⟨S1000000x3, .f32⟩

abbrev hbmTy0_1 (i : Nat) : BufTy := match i % 128 with
  | 0 => ⟨S3x31744x128, .f32⟩
  | 1 => ⟨S_, .i32⟩
  | 2 => ⟨S_, .f32⟩
  | 3 => ⟨S3x4063232, .f32⟩
  | 4 => ⟨S3x31744x128, .f32⟩
  | 5 => ⟨S3x31744x128, .f32⟩
  | 6 => ⟨S3x31744x128, .f32⟩
  | 7 => ⟨S3x4063232, .f32⟩
  | 8 => ⟨S3x4000000, .f32⟩
  | 9 => ⟨S4000000x3, .f32⟩
  | 10 => ⟨S3x4063232, .f32⟩
  | 11 => ⟨S3x4000000, .f32⟩
  | 12 => ⟨S4000000x3, .f32⟩
  | 13 => ⟨S8000000x3, .f32⟩
  | 14 => ⟨S8000000, .i32⟩
  | 15 => ⟨S_, .f32⟩
  | 16 => ⟨S1000000x3, .f32⟩
  | 17 => ⟨S8000000x1, .i32⟩
  | 18 => ⟨S1000000x3, .f32⟩
  | 19 => ⟨S1000000x1, .f32⟩
  | 20 => ⟨S1000000, .f32⟩
  | 21 => ⟨S_, .f32⟩
  | 22 => ⟨S1000000, .f32⟩
  | 23 => ⟨S1000000, .f32⟩
  | 24 => ⟨S1000000x1, .f32⟩
  | 25 => ⟨S1000000, .f32⟩
  | 26 => ⟨S_, .f32⟩
  | 27 => ⟨S1000000, .f32⟩
  | 28 => ⟨S1000000, .f32⟩
  | 29 => ⟨S1000000x1, .f32⟩
  | 30 => ⟨S1000000, .f32⟩
  | 31 => ⟨S_, .f32⟩
  | 32 => ⟨S1000000, .f32⟩
  | 33 => ⟨S1000000, .f32⟩
  | 34 => ⟨S1000000x1, .f32⟩
  | 35 => ⟨S1000000x1, .f32⟩
  | 36 => ⟨S1000000x1, .f32⟩
  | 37 => ⟨S1000000x3, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | .local _ .vmem, ⟨0, _⟩ => ⟨S3x512x128, .f32⟩
  | .local _ .vmem, ⟨1, _⟩ => ⟨S3x512x128, .f32⟩
  | .local _ .vmem, ⟨2, _⟩ => ⟨S3x512x128, .f32⟩
  | .local _ .vmem, ⟨3, _⟩ => ⟨S3x512x128, .f32⟩
  | .local _ .vmem, ⟨4, _⟩ => ⟨S3x512x128, .f32⟩
  | .local _ .vmem, ⟨5, _⟩ => ⟨S3x512x128, .f32⟩
  | .local _ .vmem, ⟨6, _⟩ => ⟨S3x512x128, .f32⟩
  | .local _ .vmem, ⟨7, _⟩ => ⟨S3x512x128, .f32⟩
  | .local _ .vmem, ⟨8, _⟩ => ⟨S3x512x128, .f32⟩
  | .local _ .vmem, ⟨9, _⟩ => ⟨S3x512x128, .f32⟩
  | .local _ .vmem, ⟨10, _⟩ => ⟨S3x512x128, .f32⟩
  | .local _ .vmem, ⟨11, _⟩ => ⟨S3x512x128, .f32⟩
  | .local _ .vmem, ⟨12, _⟩ => ⟨S3x512x128, .f32⟩
  | .local _ .vmem, ⟨13, _⟩ => ⟨S3x512x128, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v6 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v7 : Ref sig .tc := ⟨.hbm, 104, rfl⟩
abbrev main_v8 : Ref sig .tc := ⟨.hbm, 105, rfl⟩
abbrev main_v9 : Ref sig .tc := ⟨.hbm, 106, rfl⟩
abbrev main_v10 : Ref sig .tc := ⟨.hbm, 107, rfl⟩
abbrev main_v11 : Ref sig .tc := ⟨.hbm, 108, rfl⟩
abbrev main_v12 : Ref sig .tc := ⟨.hbm, 109, rfl⟩
abbrev main_v13 : Ref sig .tc := ⟨.hbm, 110, rfl⟩
abbrev main_v14 : Ref sig .tc := ⟨.hbm, 111, rfl⟩
abbrev main_v15 : Ref sig .tc := ⟨.hbm, 112, rfl⟩
abbrev main_c : Ref sig .tc := ⟨.hbm, 113, rfl⟩
abbrev main_call4_v0 : Ref sig .tc := ⟨.hbm, 114, rfl⟩
abbrev main_v16 : Ref sig .tc := ⟨.hbm, 115, rfl⟩
abbrev main_v17 : Ref sig .tc := ⟨.hbm, 116, rfl⟩
abbrev main_c_0 : Ref sig .tc := ⟨.hbm, 117, rfl⟩
abbrev main_call5_v0 : Ref sig .tc := ⟨.hbm, 118, rfl⟩
abbrev main_v18 : Ref sig .tc := ⟨.hbm, 119, rfl⟩
abbrev main_v19 : Ref sig .tc := ⟨.hbm, 120, rfl⟩
abbrev main_c_1 : Ref sig .tc := ⟨.hbm, 121, rfl⟩
abbrev main_call6_v0 : Ref sig .tc := ⟨.hbm, 122, rfl⟩
abbrev main_v20 : Ref sig .tc := ⟨.hbm, 123, rfl⟩
abbrev main_v21 : Ref sig .tc := ⟨.hbm, 124, rfl⟩
abbrev main_c_2 : Ref sig .tc := ⟨.hbm, 125, rfl⟩
abbrev main_call7_v0 : Ref sig .tc := ⟨.hbm, 126, rfl⟩
abbrev main_v22 : Ref sig .tc := ⟨.hbm, 127, rfl⟩
abbrev main_v23 : Ref sig .tc := ⟨.hbm, 128, rfl⟩
abbrev main_c_3 : Ref sig .tc := ⟨.hbm, 129, rfl⟩
abbrev main_call8_v0 : Ref sig .tc := ⟨.hbm, 130, rfl⟩
abbrev main_v24 : Ref sig .tc := ⟨.hbm, 131, rfl⟩
abbrev main_v25 : Ref sig .tc := ⟨.hbm, 132, rfl⟩
abbrev main_v26_0 : Ref sig .tc := ⟨.hbm, 133, rfl⟩
abbrev main_v26_1 : Ref sig .tc := ⟨.hbm, 134, rfl⟩
abbrev main_v27 : Ref sig .tc := ⟨.hbm, 135, rfl⟩
abbrev main_v28 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_v32 : Ref sig .tc := ⟨.hbm, 140, rfl⟩
abbrev main_v33 : Ref sig .tc := ⟨.hbm, 141, rfl⟩
abbrev main_v34 : Ref sig .tc := ⟨.hbm, 142, rfl⟩
abbrev main_cst : Ref sig .tc := ⟨.hbm, 143, rfl⟩
abbrev main_v35 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![62], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  reducesTo_S4000000x1_S4000000_d1 : S4000000x1.ReducesTo [1] S4000000
  h_S_ : 0 < S_.numel
  bcast_S4000000_S4000000x3_0 : S4000000.BroadcastsInDim S4000000x3 (![0] : Fin 1 → Fin S4000000x3.rank)
  bcast_S_S4000000x3 : S_.BroadcastsInDim S4000000x3 (![] : Fin 0 → Fin S4000000x3.rank)
  transposes_S4000000x3_S3x4000000_1_0 : S4000000x3.Transposes [1, 0] S3x4000000
  bcast_S4000000_S1x4000000_1 : S4000000.BroadcastsInDim S1x4000000 (![1] : Fin 1 → Fin S1x4000000.rank)
  concatenates_S1x4000000_S1x4000000_S1x4000000_S3x4000000_d0 : Shape.Concatenates [S1x4000000, S1x4000000, S1x4000000] S3x4000000 0
  pads_S3x4000000_S3x4063232_000_0632320 : S3x4000000.Pads (![0, 0] : Fin 2 → Nat) ![0, 63232] ![0, 0] S3x4063232
  shapeCasts_S3x4063232_S3x31744x128 : S3x4063232.ShapeCasts S3x31744x128
  inb_S3x512x128_S3x512x128_0_0_0 : ∀ a, (![0, 0, 0] : Fin 3 → Nat) a + S3x512x128.size a ≤ S3x512x128.size a
  h_S3x512x128 : 0 < S3x512x128.numel
  shapeCasts_S3x512x128_S3x512x128 : S3x512x128.ShapeCasts S3x512x128
  slices_S3x512x128_o0_0_0_S1x512x128 : S3x512x128.Slices ![0, 0, 0] S1x512x128
  shapeCasts_S1x512x128_S512x128 : S1x512x128.ShapeCasts S512x128
  slices_S3x512x128_o2_0_0_S1x512x128 : S3x512x128.Slices ![2, 0, 0] S1x512x128
  slices_S3x512x128_o1_0_0_S1x512x128 : S3x512x128.Slices ![1, 0, 0] S1x512x128
  inb_S3x512x128_S1x512x128_0_0_0 : ∀ a, (![0, 0, 0] : Fin 3 → Nat) a + S1x512x128.size a ≤ S3x512x128.size a
  h_S1x512x128 : 0 < S1x512x128.numel
  shapeCasts_S512x128_S1x512x128 : S512x128.ShapeCasts S1x512x128
  inb_S3x512x128_S1x512x128_1_0_0 : ∀ a, (![1, 0, 0] : Fin 3 → Nat) a + S1x512x128.size a ≤ S3x512x128.size a
  inb_S3x512x128_S1x512x128_2_0_0 : ∀ a, (![2, 0, 0] : Fin 3 → Nat) a + S1x512x128.size a ≤ S3x512x128.size a
  shapeCasts_S3x31744x128_S3x4063232 : S3x31744x128.ShapeCasts S3x4063232
  slices_S3x4063232_S3x4000000_0_0 : S3x4063232.Slices ![0, 0] S3x4000000
  transposes_S3x4000000_S4000000x3_1_0 : S3x4000000.Transposes [1, 0] S4000000x3
  concatenates_S4000000x3_S4000000x3_S8000000x3_d0 : Shape.Concatenates [S4000000x3, S4000000x3] S8000000x3 0
  concatenates_S4000000_S4000000_S8000000_d0 : Shape.Concatenates [S4000000, S4000000] S8000000 0
  bcast_S_S1000000x3 : S_.BroadcastsInDim S1000000x3 (![] : Fin 0 → Fin S1000000x3.rank)
  bcast_S8000000_S8000000x1_0 : S8000000.BroadcastsInDim S8000000x1 (![0] : Fin 1 → Fin S8000000x1.rank)
  slices_S1000000x3_S1000000x1_0_0 : S1000000x3.Slices ![0, 0] S1000000x1
  shapeCasts_S1000000x1_S1000000 : S1000000x1.ShapeCasts S1000000
  shapeCasts_S1_S_ : S1.ShapeCasts S_
  bcast_S_S1000000 : S_.BroadcastsInDim S1000000 (![] : Fin 0 → Fin S1000000.rank)
  slices_S1000000x3_S1000000x1_0_1 : S1000000x3.Slices ![0, 1] S1000000x1
  slices_S1000000x3_S1000000x1_0_2 : S1000000x3.Slices ![0, 2] S1000000x1
  bcast_S1000000_S1000000x1_0 : S1000000.BroadcastsInDim S1000000x1 (![0] : Fin 1 → Fin S1000000x1.rank)
  concatenates_S1000000x1_S1000000x1_S1000000x1_S1000000x3_d1 : Shape.Concatenates [S1000000x1, S1000000x1, S1000000x1] S1000000x3 1
  gather_S1000000x3_S4000000x1_S4000000x3_1_0_n_n_0_1_13_wf : GatherDims.WF S1000000x3 S4000000x1 S4000000x3 [1] [0] [] [0] [] 1 ![1, 3]
  scatter_S1000000x3_S8000000x1_S8000000x3_1_0_0_1_wf : ScatterDims.WF S1000000x3 S8000000x1 S8000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x512x128.size a ≤ S3x31744x128.size a
  hwx0_0 : ∀ i : grid0.Coords, EltTy.bits .f32 = 32 ∨ (Rect.block (s := S3x31744x128) S3x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x512x128.size a ≤ S3x31744x128.size a
  hwx0_1 : ∀ i : grid0.Coords, EltTy.bits .f32 = 32 ∨ (Rect.block (s := S3x31744x128) S3x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x512x128.size a ≤ S3x31744x128.size a
  hwx0_2 : ∀ i : grid0.Coords, EltTy.bits .f32 = 32 ∨ (Rect.block (s := S3x31744x128) S3x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x512x128.size a ≤ S3x31744x128.size a
  hwx0_3 : ∀ i : grid0.Coords, EltTy.bits .f32 = 32 ∨ (Rect.block (s := S3x31744x128) S3x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x512x128.size a ≤ S3x31744x128.size a
  hwx0_4 : ∀ i : grid0.Coords, EltTy.bits .f32 = 32 ∨ (Rect.block (s := S3x31744x128) S3x512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x512x128.size a ≤ S3x31744x128.size a
  hwx0_5 : ∀ i : grid0.Coords, EltTy.bits .f32 = 32 ∨ (Rect.block (s := S3x31744x128) S3x512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3x512x128.size a ≤ S3x31744x128.size a
  hwx0_6 : ∀ i : grid0.Coords, EltTy.bits .f32 = 32 ∨ (Rect.block (s := S3x31744x128) S3x512x128.size (cc0_transform_6 i) (hinb0_6 i)).WholeWords (EltTy.packing .f32)

variable [Facts₀]

def gather_S1000000x3_S4000000x1_S4000000x3_1_0_n_n_0_1_13 : GatherDims S1000000x3 S4000000x1 S4000000x3 where
  offsetDims := [1]
  collapsedSliceDims := [0]
  operandBatchingDims := []
  startIndicesBatchingDims := []
  startIndexMap := [0]
  indexVectorDim := 1
  sliceSizes := ![1, 3]
  wf := gather_S1000000x3_S4000000x1_S4000000x3_1_0_n_n_0_1_13_wf
def scatter_S1000000x3_S8000000x1_S8000000x3_1_0_0_1 : ScatterDims S1000000x3 S8000000x1 S8000000x3 where
  updateWindowDims := [1]
  insertedWindowDims := [0]
  scatterDimsToOperandDims := [0]
  indexVectorDim := 1
  wf := scatter_S1000000x3_S8000000x1_S8000000x3_1_0_0_1_wf

abbrev win0_0 : Pipeline.Window sig grid0 :=
  Pipeline.Window.ofSpec (Memref.whole main_v17) S3x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S3x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S3x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S3x512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S3x512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S3x512x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S3x512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S4000000x2 : Shape := ⟨2, ![4000000, 2]⟩
abbrev S4000000 : Shape := ⟨1, ![4000000]⟩
abbrev S1 : Shape := ⟨1, ![1]⟩
abbrev S4000000x1 : Shape := ⟨2, ![4000000, 1]⟩
abbrev S_ : Shape := ⟨0, ![]⟩
abbrev S4000000x3 : Shape := ⟨2, ![4000000, 3]⟩
abbrev S1000000x1 : Shape := ⟨2, ![1000000, 1]⟩
abbrev S1000000 : Shape := ⟨1, ![1000000]⟩

abbrev nBuf : Space → Nat
  | .hbm => 263
  | .vmem => 0
  | .smem => 0
  | _ => 0

abbrev hbmTy0_0 (i : Nat) : BufTy := match i % 128 with
  | 0 => ⟨S1000000x3, .f32⟩
  | 1 => ⟨S4000000x2, .i32⟩
  | 2 => ⟨S1000000x3, .f32⟩
  | 3 => ⟨S4000000, .f32⟩
  | 4 => ⟨S4000000, .f32⟩
  | 5 => ⟨S4000000, .f32⟩
  | 6 => ⟨S1000000x3, .f32⟩
  | 7 => ⟨S1, .f32⟩
  | 8 => ⟨S1, .f32⟩
  | 9 => ⟨S4000000x1, .i32⟩
  | 10 => ⟨S4000000, .i32⟩
  | 11 => ⟨S4000000x1, .i32⟩
  | 12 => ⟨S4000000, .i32⟩
  | 13 => ⟨S_, .i32⟩
  | 14 => ⟨S4000000, .i32⟩
  | 15 => ⟨S4000000, .i1⟩
  | 16 => ⟨S_, .i32⟩
  | 17 => ⟨S4000000, .i32⟩
  | 18 => ⟨S4000000, .i32⟩
  | 19 => ⟨S4000000, .i32⟩
  | 20 => ⟨S_, .i32⟩
  | 21 => ⟨S4000000, .i32⟩
  | 22 => ⟨S4000000, .i32⟩
  | 23 => ⟨S4000000x1, .i32⟩
  | 24 => ⟨S4000000x1, .i32⟩
  | 25 => ⟨S4000000x2, .i32⟩
  | 26 => ⟨S4000000, .f32⟩
  | 27 => ⟨S_, .i32⟩
  | 28 => ⟨S4000000, .i32⟩
  | 29 => ⟨S4000000, .i1⟩
  | 30 => ⟨S_, .i32⟩
  | 31 => ⟨S4000000, .i32⟩
  | 32 => ⟨S4000000, .i32⟩
  | 33 => ⟨S4000000, .i32⟩
  | 34 => ⟨S_, .i32⟩
  | 35 => ⟨S4000000, .i32⟩
  | 36 => ⟨S4000000, .i32⟩
  | 37 => ⟨S4000000x1, .i32⟩
  | 38 => ⟨S4000000x1, .i32⟩
  | 39 => ⟨S4000000x2, .i32⟩
  | 40 => ⟨S4000000, .f32⟩
  | 41 => ⟨S4000000, .f32⟩
  | 42 => ⟨S_, .i32⟩
  | 43 => ⟨S4000000, .i32⟩
  | 44 => ⟨S4000000, .i1⟩
  | 45 => ⟨S_, .i32⟩
  | 46 => ⟨S4000000, .i32⟩
  | 47 => ⟨S4000000, .i32⟩
  | 48 => ⟨S4000000, .i32⟩
  | 49 => ⟨S_, .i32⟩
  | 50 => ⟨S4000000, .i32⟩
  | 51 => ⟨S4000000, .i32⟩
  | 52 => ⟨S4000000x1, .i32⟩
  | 53 => ⟨S4000000x1, .i32⟩
  | 54 => ⟨S4000000x2, .i32⟩
  | 55 => ⟨S4000000, .f32⟩
  | 56 => ⟨S_, .i32⟩
  | 57 => ⟨S4000000, .i32⟩
  | 58 => ⟨S4000000, .i1⟩
  | 59 => ⟨S_, .i32⟩
  | 60 => ⟨S4000000, .i32⟩
  | 61 => ⟨S4000000, .i32⟩
  | 62 => ⟨S4000000, .i32⟩
  | 63 => ⟨S_, .i32⟩
  | 64 => ⟨S4000000, .i32⟩
  | 65 => ⟨S4000000, .i32⟩
  | 66 => ⟨S4000000x1, .i32⟩
  | 67 => ⟨S4000000x1, .i32⟩
  | 68 => ⟨S4000000x2, .i32⟩
  | 69 => ⟨S4000000, .f32⟩
  | 70 => ⟨S4000000, .f32⟩
  | 71 => ⟨S4000000, .f32⟩
  | 72 => ⟨S4000000, .f32⟩
  | 73 => ⟨S4000000, .f32⟩
  | 74 => ⟨S_, .f32⟩
  | 75 => ⟨S4000000, .f32⟩
  | 76 => ⟨S4000000, .f32⟩
  | 77 => ⟨S4000000, .f32⟩
  | 78 => ⟨S_, .f32⟩
  | 79 => ⟨S4000000, .f32⟩
  | 80 => ⟨S4000000, .f32⟩
  | 81 => ⟨S4000000, .f32⟩
  | 82 => ⟨S_, .f32⟩
  | 83 => ⟨S4000000, .f32⟩
  | 84 => ⟨S4000000, .f32⟩
  | 85 => ⟨S4000000, .f32⟩
  | 86 => ⟨S4000000, .f32⟩
  | 87 => ⟨S4000000, .f32⟩
  | 88 => ⟨S_, .f32⟩
  | 89 => ⟨S4000000, .f32⟩
  | 90 => ⟨S4000000, .f32⟩
  | 91 => ⟨S4000000, .f32⟩
  | 92 => ⟨S_, .f32⟩
  | 93 => ⟨S4000000, .f32⟩
  | 94 => ⟨S4000000, .f32⟩
  | 95 => ⟨S4000000, .f32⟩
  | 96 => ⟨S4000000, .f32⟩
  | 97 => ⟨S_, .f32⟩
  | 98 => ⟨S4000000, .f32⟩
  | 99 => ⟨S4000000, .f32⟩
  | 100 => ⟨S4000000, .f32⟩
  | 101 => ⟨S4000000, .f32⟩
  | 102 => ⟨S4000000, .f32⟩
  | 103 => ⟨S_, .f32⟩
  | 104 => ⟨S4000000, .f32⟩
  | 105 => ⟨S4000000, .f32⟩
  | 106 => ⟨S4000000, .f32⟩
  | 107 => ⟨S_, .i32⟩
  | 108 => ⟨S4000000, .i32⟩
  | 109 => ⟨S4000000, .i1⟩
  | 110 => ⟨S_, .i32⟩
  | 111 => ⟨S4000000, .i32⟩
  | 112 => ⟨S4000000, .i32⟩
  | 113 => ⟨S4000000, .i32⟩
  | 114 => ⟨S4000000x1, .i32⟩
  | 115 => ⟨S4000000x3, .f32⟩
  | 116 => ⟨S_, .i32⟩
  | 117 => ⟨S4000000, .i32⟩
  | 118 => ⟨S4000000, .i1⟩
  | 119 => ⟨S_, .i32⟩
  | 120 => ⟨S4000000, .i32⟩
  | 121 => ⟨S4000000, .i32⟩
  | 122 => ⟨S4000000, .i32⟩
  | 123 => ⟨S4000000x1, .i32⟩
  | 124 => ⟨S4000000x3, .f32⟩
  | 125 => ⟨S4000000x1, .f32⟩
  | 126 => ⟨S4000000, .f32⟩
  | 127 => ⟨S4000000, .f32⟩
  | _ => ⟨S1000000x3, .f32⟩

abbrev hbmTy0_1 (i : Nat) : BufTy := match i % 128 with
  | 0 => ⟨S4000000x1, .f32⟩
  | 1 => ⟨S4000000, .f32⟩
  | 2 => ⟨S4000000, .f32⟩
  | 3 => ⟨S4000000, .f32⟩
  | 4 => ⟨S4000000, .f32⟩
  | 5 => ⟨S4000000x1, .f32⟩
  | 6 => ⟨S4000000, .f32⟩
  | 7 => ⟨S4000000, .f32⟩
  | 8 => ⟨S4000000x1, .f32⟩
  | 9 => ⟨S4000000, .f32⟩
  | 10 => ⟨S4000000, .f32⟩
  | 11 => ⟨S4000000, .f32⟩
  | 12 => ⟨S4000000x1, .f32⟩
  | 13 => ⟨S4000000, .f32⟩
  | 14 => ⟨S4000000, .f32⟩
  | 15 => ⟨S4000000x1, .f32⟩
  | 16 => ⟨S4000000, .f32⟩
  | 17 => ⟨S4000000, .f32⟩
  | 18 => ⟨S4000000x1, .f32⟩
  | 19 => ⟨S4000000, .f32⟩
  | 20 => ⟨S4000000, .f32⟩
  | 21 => ⟨S4000000, .f32⟩
  | 22 => ⟨S4000000, .f32⟩
  | 23 => ⟨S4000000x1, .f32⟩
  | 24 => ⟨S4000000, .f32⟩
  | 25 => ⟨S4000000, .f32⟩
  | 26 => ⟨S4000000x1, .f32⟩
  | 27 => ⟨S4000000, .f32⟩
  | 28 => ⟨S4000000, .f32⟩
  | 29 => ⟨S4000000, .f32⟩
  | 30 => ⟨S4000000x1, .f32⟩
  | 31 => ⟨S4000000, .f32⟩
  | 32 => ⟨S4000000, .f32⟩
  | 33 => ⟨S4000000, .f32⟩
  | 34 => ⟨S4000000, .f32⟩
  | 35 => ⟨S4000000, .f32⟩
  | 36 => ⟨S4000000, .f32⟩
  | 37 => ⟨S_, .f32⟩
  | 38 => ⟨S4000000, .f32⟩
  | 39 => ⟨S4000000, .f32⟩
  | 40 => ⟨S4000000, .f32⟩
  | 41 => ⟨S4000000, .f32⟩
  | 42 => ⟨S_, .f32⟩
  | 43 => ⟨S4000000, .f32⟩
  | 44 => ⟨S4000000, .f32⟩
  | 45 => ⟨S4000000, .f32⟩
  | 46 => ⟨S4000000, .f32⟩
  | 47 => ⟨S4000000, .f32⟩
  | 48 => ⟨S_, .f32⟩
  | 49 => ⟨S4000000, .f32⟩
  | 50 => ⟨S4000000, .f32⟩
  | 51 => ⟨S4000000, .f32⟩
  | 52 => ⟨S4000000, .f32⟩
  | 53 => ⟨S_, .f32⟩
  | 54 => ⟨S4000000, .f32⟩
  | 55 => ⟨S4000000, .f32⟩
  | 56 => ⟨S4000000, .f32⟩
  | 57 => ⟨S4000000, .f32⟩
  | 58 => ⟨S4000000, .f32⟩
  | 59 => ⟨S_, .f32⟩
  | 60 => ⟨S4000000, .f32⟩
  | 61 => ⟨S4000000, .f32⟩
  | 62 => ⟨S4000000, .f32⟩
  | 63 => ⟨S4000000, .f32⟩
  | 64 => ⟨S_, .f32⟩
  | 65 => ⟨S4000000, .f32⟩
  | 66 => ⟨S4000000, .f32⟩
  | 67 => ⟨S_, .f32⟩
  | 68 => ⟨S4000000, .f32⟩
  | 69 => ⟨S4000000, .f32⟩
  | 70 => ⟨S4000000, .f32⟩
  | 71 => ⟨S4000000, .f32⟩
  | 72 => ⟨S4000000, .f32⟩
  | 73 => ⟨S_, .f32⟩
  | 74 => ⟨S4000000, .f32⟩
  | 75 => ⟨S4000000, .f32⟩
  | 76 => ⟨S4000000, .f32⟩
  | 77 => ⟨S4000000, .f32⟩
  | 78 => ⟨S_, .f32⟩
  | 79 => ⟨S4000000, .f32⟩
  | 80 => ⟨S4000000, .f32⟩
  | 81 => ⟨S_, .f32⟩
  | 82 => ⟨S4000000, .f32⟩
  | 83 => ⟨S4000000, .f32⟩
  | 84 => ⟨S4000000, .f32⟩
  | 85 => ⟨S4000000, .f32⟩
  | 86 => ⟨S4000000, .f32⟩
  | 87 => ⟨S4000000, .f32⟩
  | 88 => ⟨S4000000, .f32⟩
  | 89 => ⟨S4000000, .f32⟩
  | 90 => ⟨S4000000, .f32⟩
  | 91 => ⟨S4000000, .f32⟩
  | 92 => ⟨S4000000, .f32⟩
  | 93 => ⟨S4000000x1, .f32⟩
  | 94 => ⟨S4000000x1, .f32⟩
  | 95 => ⟨S4000000x1, .f32⟩
  | 96 => ⟨S4000000x3, .f32⟩
  | 97 => ⟨S4000000, .f32⟩
  | 98 => ⟨S4000000, .f32⟩
  | 99 => ⟨S4000000, .f32⟩
  | 100 => ⟨S4000000, .f32⟩
  | 101 => ⟨S4000000, .f32⟩
  | 102 => ⟨S4000000, .f32⟩
  | 103 => ⟨S4000000x1, .f32⟩
  | 104 => ⟨S4000000x1, .f32⟩
  | 105 => ⟨S4000000x1, .f32⟩
  | 106 => ⟨S4000000x3, .f32⟩
  | 107 => ⟨S_, .f32⟩
  | 108 => ⟨S1000000x3, .f32⟩
  | 109 => ⟨S4000000x1, .i32⟩
  | 110 => ⟨S1000000x3, .f32⟩
  | 111 => ⟨S_, .f32⟩
  | 112 => ⟨S1000000x3, .f32⟩
  | 113 => ⟨S4000000x1, .i32⟩
  | 114 => ⟨S1000000x3, .f32⟩
  | 115 => ⟨S1000000x3, .f32⟩
  | 116 => ⟨S1000000x1, .f32⟩
  | 117 => ⟨S1000000, .f32⟩
  | 118 => ⟨S_, .f32⟩
  | 119 => ⟨S1000000, .f32⟩
  | 120 => ⟨S1000000, .f32⟩
  | 121 => ⟨S1000000x1, .f32⟩
  | 122 => ⟨S1000000, .f32⟩
  | 123 => ⟨S_, .f32⟩
  | 124 => ⟨S1000000, .f32⟩
  | 125 => ⟨S1000000, .f32⟩
  | 126 => ⟨S1000000x1, .f32⟩
  | 127 => ⟨S1000000, .f32⟩
  | _ => ⟨S1000000x3, .f32⟩

abbrev hbmTy0_2 (i : Nat) : BufTy := match i % 128 with
  | 0 => ⟨S_, .f32⟩
  | 1 => ⟨S1000000, .f32⟩
  | 2 => ⟨S1000000, .f32⟩
  | 3 => ⟨S1000000x1, .f32⟩
  | 4 => ⟨S1000000x1, .f32⟩
  | 5 => ⟨S1000000x1, .f32⟩
  | 6 => ⟨S1000000x3, .f32⟩
  | _ => ⟨S1000000x3, .f32⟩

abbrev hbmTy (i : Nat) : BufTy := match i / 128 with
  | 0 => hbmTy0_0 i
  | 1 => hbmTy0_1 i
  | 2 => hbmTy0_2 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_15 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_16 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_c_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_19 : Ref sig .tc := ⟨.hbm, 116, rfl⟩
abbrev main_v86 : Ref sig .tc := ⟨.hbm, 117, rfl⟩
abbrev main_v87 : Ref sig .tc := ⟨.hbm, 118, rfl⟩
abbrev main_c_20 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_21 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_22 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_23 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_24 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_cst_25 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_cst_26 : Ref sig .tc := ⟨.hbm, 192, rfl⟩
abbrev main_v155 : Ref sig .tc := ⟨.hbm, 193, rfl⟩
abbrev main_v156 : Ref sig .tc := ⟨.hbm, 194, rfl⟩
abbrev main_cst_27 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_28 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_cst_29 : Ref sig .tc := ⟨.hbm, 206, rfl⟩
abbrev main_v166 : Ref sig .tc := ⟨.hbm, 207, rfl⟩
abbrev main_v167 : Ref sig .tc := ⟨.hbm, 208, rfl⟩
abbrev main_cst_30 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_cst_31 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_cst_32 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩

abbrev nD : Nat := 1
abbrev τ : Topo := Topo.v7x

variable {F : FTy → Type} [FloatOps F]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  slices_S4000000x3_S4000000x1_0_0 : S4000000x3.Slices ![0, 0] S4000000x1
  slices_S4000000x3_S4000000x1_0_1 : S4000000x3.Slices ![0, 1] S4000000x1
  slices_S4000000x3_S4000000x1_0_2 : S4000000x3.Slices ![0, 2] S4000000x1
  concatenates_S4000000x1_S4000000x1_S4000000x1_S4000000x3_d1 : Shape.Concatenates [S4000000x1, S4000000x1, S4000000x1] S4000000x3 1
  bcast_S_S1000000x3 : S_.BroadcastsInDim S1000000x3 (![] : Fin 0 → Fin S1000000x3.rank)
  slices_S1000000x3_S1000000x1_0_0 : S1000000x3.Slices ![0, 0] S1000000x1
  shapeCasts_S1000000x1_S1000000 : S1000000x1.ShapeCasts S1000000
  shapeCasts_S1_S_ : S1.ShapeCasts S_
  bcast_S_S1000000 : S_.BroadcastsInDim S1000000 (![] : Fin 0 → Fin S1000000.rank)
  slices_S1000000x3_S1000000x1_0_1 : S1000000x3.Slices ![0, 1] S1000000x1
  slices_S1000000x3_S1000000x1_0_2 : S1000000x3.Slices ![0, 2] S1000000x1
  bcast_S1000000_S1000000x1_0 : S1000000.BroadcastsInDim S1000000x1 (![0] : Fin 1 → Fin S1000000x1.rank)
  concatenates_S1000000x1_S1000000x1_S1000000x1_S1000000x3_d1 : Shape.Concatenates [S1000000x1, S1000000x1, S1000000x1] S1000000x3 1
  gather_S1000000x3_S4000000x2_S4000000_n_01_n_n_01_1_11_wf : GatherDims.WF S1000000x3 S4000000x2 S4000000 [] [0, 1] [] [0, 1] [] 1 ![1, 1]
  gather_S1000000x3_S4000000x1_S4000000x3_1_0_n_n_0_1_13_wf : GatherDims.WF S1000000x3 S4000000x1 S4000000x3 [1] [0] [] [0] [] 1 ![1, 3]
  scatter_S1000000x3_S4000000x1_S4000000x3_1_0_0_1_wf : ScatterDims.WF S1000000x3 S4000000x1 S4000000x3 [1] [0] [0] 1

variable [Facts₀]

def gather_S1000000x3_S4000000x2_S4000000_n_01_n_n_01_1_11 : GatherDims S1000000x3 S4000000x2 S4000000 where
  offsetDims := []
  collapsedSliceDims := [0, 1]
  operandBatchingDims := []
  startIndicesBatchingDims := []
  startIndexMap := [0, 1]
  indexVectorDim := 1
  sliceSizes := ![1, 1]
  wf := gather_S1000000x3_S4000000x2_S4000000_n_01_n_n_01_1_11_wf
def gather_S1000000x3_S4000000x1_S4000000x3_1_0_n_n_0_1_13 : GatherDims S1000000x3 S4000000x1 S4000000x3 where
  offsetDims := [1]
  collapsedSliceDims := [0]
  operandBatchingDims := []
  startIndicesBatchingDims := []
  startIndexMap := [0]
  indexVectorDim := 1
  sliceSizes := ![1, 3]
  wf := gather_S1000000x3_S4000000x1_S4000000x3_1_0_n_n_0_1_13_wf
def scatter_S1000000x3_S4000000x1_S4000000x3_1_0_0_1 : ScatterDims S1000000x3 S4000000x1 S4000000x3 where
  updateWindowDims := [1]
  insertedWindowDims := [0]
  scatterDimsToOperandDims := [0]
  indexVectorDim := 1
  wf := scatter_S1000000x3_S4000000x1_S4000000x3_1_0_0_1_wf

class Facts : Prop extends Facts₀ where

variable [Facts]
-- ==== Proof.Spec.lean ====
/-
  The mathematics both programs compute, stated index by index over extended reals.

  An edge e joins node A = conn[e,0] and node B = conn[e,1]. From the x and z coordinates of
  the two nodes (columns 0 and 2 of the coordinate table), the three displacement components of
  the two nodes and the edge's three material numbers it forms the six end forces of a plane
  beam element in the global frame (three at node A, three at node B). The first result adds,
  at every node, the A-forces of the edges whose A-end is that node and the B-forces of the
  edges whose B-end is that node; the third result scales the displacement table column by
  column.
-/
import Idealize.ShloMosaic.PureOps
import Idealize.ShloMosaic.PureOps.Ideal
import Idealize.ShloMosaic.Lib.ValueIdx

noncomputable section

namespace Cert.Beam

open Idealize.ShloMosaic Idealize.ShloMosaic.ValueIdx

/-- node table [1000000, 3] -/
abbrev SN3 : Shape := ⟨2, ![1000000, 3]⟩
/-- per-edge rows [4000000, 3] -/
abbrev SE3 : Shape := ⟨2, ![4000000, 3]⟩
/-- the edge list [4000000, 2] -/
abbrev SE2 : Shape := ⟨2, ![4000000, 2]⟩
/-- one index column [4000000, 1] -/
abbrev SE1 : Shape := ⟨2, ![4000000, 1]⟩
/-- per-edge scalars [4000000] -/
abbrev SE : Shape := ⟨1, ![4000000]⟩
/-- a one-entry vector -/
abbrev SOne : Shape := ⟨1, ![1]⟩
/-- the edge axis padded to 31744 * 128 = 4063232 and folded: [3, 31744, 128] -/
abbrev SP : Shape := ⟨3, ![3, 31744, 128]⟩

/-- the small positive number added under the root and to every denominator -/
def eps : EReal := Ideal.ofBits .f32 0x2EDBE6FF#32
def c12 : EReal := Ideal.ofBits .f32 0x41400000#32
def c6 : EReal := Ideal.ofBits .f32 0x40C00000#32
def c4 : EReal := Ideal.ofBits .f32 0x40800000#32
def c2 : EReal := Ideal.ofBits .f32 0x40000000#32

/-- What one edge reads: x and z of both end nodes, the three displacement components of both
    end nodes, and the edge's three material numbers. -/
structure EdgeIn where
  cA0 : EReal
  cA2 : EReal
  cB0 : EReal
  cB2 : EReal
  dA0 : EReal
  dA1 : EReal
  dA2 : EReal
  dB0 : EReal
  dB1 : EReal
  dB2 : EReal
  eE : EReal
  eA : EReal
  eI : EReal

namespace EdgeIn

variable (x : EdgeIn)

def dx0 : EReal := x.cB0 - x.cA0
def dz0 : EReal := x.cB2 - x.cA2
/-- the undeformed length -/
def l0 : EReal := Ideal.sqrt (x.dx0 * x.dx0 + x.dz0 * x.dz0 + eps)
def den : EReal := x.l0 + eps
/-- direction cosine and sine -/
def c : EReal := Ideal.div x.dx0 x.den
def s : EReal := Ideal.div x.dz0 x.den
def EA : EReal := x.eE * x.eA
def EI : EReal := x.eE * x.eI
def kax : EReal := Ideal.div x.EA x.den
def kbend : EReal := Ideal.div x.EI x.den
def ksw : EReal := Ideal.div x.EI (x.l0 * x.l0 + eps)
def ktr : EReal := Ideal.div x.EI (x.l0 * x.l0 * x.l0 + eps)
/-- the end displacements in the element's own frame (the rotation's sign flipped) -/
def ua : EReal := x.c * x.dA0 + x.s * x.dA1
def wa : EReal := -x.s * x.dA0 + x.c * x.dA1
def ta : EReal := -x.dA2
def ub : EReal := x.c * x.dB0 + x.s * x.dB1
def wb : EReal := -x.s * x.dB0 + x.c * x.dB1
def tb : EReal := -x.dB2
/-- the six local end forces -/
def f0 : EReal := x.kax * (x.ua - x.ub)
def f3 : EReal := x.kax * (x.ub - x.ua)
def f1 : EReal := c12 * x.ktr * (x.wa - x.wb) + c6 * x.ksw * (x.ta + x.tb)
def f4 : EReal := c12 * x.ktr * (x.wb - x.wa) - c6 * x.ksw * (x.ta + x.tb)
def f2 : EReal := c6 * x.ksw * (x.wa - x.wb) + x.kbend * (c4 * x.ta + c2 * x.tb)
def f5 : EReal := c6 * x.ksw * (x.wa - x.wb) + x.kbend * (c2 * x.ta + c4 * x.tb)
/-- rotated back: the force the edge puts on node A, and on node B -/
def fA : Fin 3 → EReal := ![x.c * x.f0 - x.s * x.f1, x.s * x.f0 + x.c * x.f1, x.f2]
def fB : Fin 3 → EReal := ![x.c * x.f3 - x.s * x.f4, x.s * x.f3 + x.c * x.f4, x.f5]

end EdgeIn

/-- Every node index of the edge list is a row of the node table. -/
def InRange (conn : SE2.Idx → BitVec 32) : Prop :=
  ∀ (e : Fin 4000000) (j : Fin 2), 0 ≤ (conn (ix2 e j)).toInt ∧ (conn (ix2 e j)).toInt < 1000000

/-- The row of the node table that end j of edge e names (total; the word itself when in range). -/
def row (conn : SE2.Idx → BitVec 32) (e : Fin 4000000) (j : Fin 2) : Fin 1000000 :=
  ⟨(conn (ix2 e j)).toNat % 1000000, Nat.mod_lt _ (by norm_num)⟩

/-- Row gather of a node table by end j of every edge, transposed: component k of edge e. -/
def gath (T : SN3.Idx → EReal) (conn : SE2.Idx → BitVec 32) (j : Fin 2) : Fin 3 → Fin 4000000 → EReal :=
  fun k e => T (ix2 (row conn e j) k)

/-- The three material vectors stacked. -/
def eai (E A I : SE.Idx → EReal) : Fin 3 → Fin 4000000 → EReal :=
  fun k e => (![E (ix1 e), A (ix1 e), I (ix1 e)] : Fin 3 → EReal) k

/-- What edge e reads. -/
def edgeIn (pred coords : SN3.Idx → EReal) (conn : SE2.Idx → BitVec 32) (E A I : SE.Idx → EReal)
    (e : Fin 4000000) : EdgeIn where
  cA0 := gath coords conn 0 0 e
  cA2 := gath coords conn 0 2 e
  cB0 := gath coords conn 1 0 e
  cB2 := gath coords conn 1 2 e
  dA0 := gath pred conn 0 0 e
  dA1 := gath pred conn 0 1 e
  dA2 := gath pred conn 0 2 e
  dB0 := gath pred conn 1 0 e
  dB1 := gath pred conn 1 1 e
  dB2 := gath pred conn 1 2 e
  eE := eai E A I 0 e
  eA := eai E A I 1 e
  eI := eai E A I 2 e

/-- Per-edge force rows: on node A, on node B. -/
def UA (pred coords : SN3.Idx → EReal) (conn : SE2.Idx → BitVec 32) (E A I : SE.Idx → EReal) : SE3.Idx → EReal :=
  fun j => (edgeIn pred coords conn E A I (j 0)).fA (j 1)
def UB (pred coords : SN3.Idx → EReal) (conn : SE2.Idx → BitVec 32) (E A I : SE.Idx → EReal) : SE3.Idx → EReal :=
  fun j => (edgeIn pred coords conn E A I (j 0)).fB (j 1)

/-- End j's node index of every edge, as a one-column index array. -/
def nodeIdx (conn : SE2.Idx → BitVec 32) (j : Fin 2) : SE1.Idx → BitVec 32 := fun i => conn (ix2 (i 0) j)

/-- Rows scattered by one index column: row e of the updates goes to the row its index names. -/
def dSc : ScatterDims SN3 SE1 SE3 where
  updateWindowDims := [1]
  insertedWindowDims := [0]
  scatterDimsToOperandDims := [0]
  indexVectorDim := 1

def Z : SN3.Idx → EReal := fun _ => 0

/-- THE FIRST RESULT: at every node the sum of the A-forces of the edges that start there plus the sum of
    the B-forces of the edges that end there. -/
def G0 (pred coords : SN3.Idx → EReal) (conn : SE2.Idx → BitVec 32) (E A I : SE.Idx → EReal) : SN3.Idx → EReal :=
  fun i => Ideal.hostScatterAdd dSc Z (nodeIdx conn 0) (UA pred coords conn E A I) i
    + Ideal.hostScatterAdd dSc Z (nodeIdx conn 1) (UB pred coords conn E A I) i

/-- THE THIRD RESULT: the displacement table with columns 0 and 1 times u and column 2 times th. -/
def G2 (pred : SN3.Idx → EReal) (u th : SOne.Idx → EReal) : SN3.Idx → EReal :=
  fun j => pred j * (![u (ix1 0), u (ix1 0), th (ix1 0)] : Fin 3 → EReal) (j 1)

/-- A [3, 4000000] array zero-padded on the edge axis to 4063232 and folded to [3, 31744, 128]. -/
def padRows (X : Fin 3 → Fin 4000000 → EReal) : SP.Idx → EReal :=
  fun j => if h : (j 1).val * 128 + (j 2).val < 4000000 then X (j 0) ⟨(j 1).val * 128 + (j 2).val, h⟩ else 0

/-- What the lane (R, l) of five [3, n, 128] arrays (coordinates at A, at B, displacements at A, at B, material)
    gives one edge. -/
def laneIn {n : Nat} (X0 X1 X2 X3 X4 : (⟨3, ![3, n, 128]⟩ : Shape).Idx → EReal) (R : Fin n) (l : Fin 128) : EdgeIn where
  cA0 := X0 (ix3 0 R l)
  cA2 := X0 (ix3 2 R l)
  cB0 := X1 (ix3 0 R l)
  cB2 := X1 (ix3 2 R l)
  dA0 := X2 (ix3 0 R l)
  dA1 := X2 (ix3 1 R l)
  dA2 := X2 (ix3 2 R l)
  dB0 := X3 (ix3 0 R l)
  dB1 := X3 (ix3 1 R l)
  dB2 := X3 (ix3 2 R l)
  eE := X4 (ix3 0 R l)
  eA := X4 (ix3 1 R l)
  eI := X4 (ix3 2 R l)

/-- The two force arrays in the folded layout, lane by lane. -/
def laneA {n : Nat} (X0 X1 X2 X3 X4 : (⟨3, ![3, n, 128]⟩ : Shape).Idx → EReal) : (⟨3, ![3, n, 128]⟩ : Shape).Idx → EReal :=
  fun j => (laneIn X0 X1 X2 X3 X4 (j 1) (j 2)).fA (j 0)
def laneB {n : Nat} (X0 X1 X2 X3 X4 : (⟨3, ![3, n, 128]⟩ : Shape).Idx → EReal) : (⟨3, ![3, n, 128]⟩ : Shape).Idx → EReal :=
  fun j => (laneIn X0 X1 X2 X3 X4 (j 1) (j 2)).fB (j 0)

end Cert.Beam

end
-- ==== Proof.PreRange.lean ====
/-
  The index range, read out of the stated precondition.

  The precondition is one truth value: the conjunction of ten "for all entries" tests. The last two
  run over the edge list and say that every entry, read as a signed 32-bit word, is at least 0 and
  is below 1000000. A conjunction that is true has every conjunct true, and a "for all" reduction
  by "and" that came out true saw a true test at every entry; the signed comparisons then say what
  the entries are as integers. Nothing here depends on how floating-point numbers are read, so the
  core statements hold for every reading of them.
-/
import proofs.«429318_j42734924595225_2_alg».proof.Defs
import proofs.«429318_j42734924595225_2_alg».proof.Proof.Gen.Pre_finite_inputs
import proofs.«429318_j42734924595225_2_alg».proof.Proof.Spec
import Idealize.ShloMosaic.Lib.ReduceAll
import Idealize.ShloMosaic.Lib.StableHlo.Predicate
import Idealize.ShloMosaic.Lib.ValueIdx

noncomputable section

namespace Cert.Beam

open Idealize.ShloMosaic Idealize.ShloMosaic.ValueIdx Idealize.SL.Sem
open Cert.Pre_finite_inputs (S1000000x3 S4000000x2 S4000000 S1 S_)

/-- A scalar array has exactly one index. -/
instance subsingleton_scalar_idx : Subsingleton S_.Idx := ⟨fun a b => funext fun d => d.elim0⟩

variable [hPre_finite_inputs : Cert.Pre_finite_inputs.Facts]

/-- The two signed comparisons at one entry, as integer inequalities. -/
theorem range_of_cmp (w : BitVec 32) (h0 : IntOp.cmpi .sge w 0#32 = 1#1)
    (h1 : IntOp.cmpi .slt w 1000000#32 = 1#1) : 0 ≤ w.toInt ∧ w.toInt < 1000000 := by
  have z : (0#32 : BitVec 32).toInt = 0 := by decide
  have k : (1000000#32 : BitVec 32).toInt = 1000000 :=
    StableHlo.Predicate.toInt_ofNat_small 1000000 (by norm_num)
  have a := IntOp.cmpi_sge.1 h0
  have b := IntOp.cmpi_slt.1 h1
  rw [z] at a
  rw [k] at b
  exact ⟨a, b⟩

/-- The tail of the conjunction: whatever the earlier conjuncts gave (`v33`), if the whole is true
    then the edge list's entries lie in [0, 1000000). -/
theorem inRange_of_part2 {F : FTy → Type} [FloatOps F] (a1 : IVec S4000000x2 32) (a8 : FVec F S1 .f32)
    (v33 : IVec S_ 1)
    (h : Cert.Pre_finite_inputs.fn_part2 (F := F) a1 a8 v33 = fun _ => 1#1) : InRange a1 := by
  have e := congrFun h ix0
  dsimp only [Cert.Pre_finite_inputs.fn_part2] at e
  obtain ⟨h42, h45⟩ := IntOp.andi_eq_one.1 e
  obtain ⟨-, h41⟩ := IntOp.andi_eq_one.1 h42
  intro ed j
  have g0 := Host.reduce_andi_all _ _ _ _ _ h41 (ix2 ed j)
  have g1 := Host.reduce_andi_all _ _ _ _ _ h45 (ix2 ed j)
  exact range_of_cmp _ g0 g1

/-- THE CORE: if the stated precondition of nine arrays is true, the second array (the edge list) has every
    entry in [0, 1000000). The first eight conjuncts are carried along unread. -/
theorem inRange_of_fn {F : FTy → Type} [FloatOps F] (a0 : FVec F S1000000x3 .f32) (a1 : IVec S4000000x2 32)
    (a2 : FVec F S1000000x3 .f32) (a3 a4 a5 : FVec F S4000000 .f32) (a6 : FVec F S1000000x3 .f32)
    (a7 a8 : FVec F S1 .f32)
    (h : Cert.Pre_finite_inputs.fn (F := F) a0 a1 a2 a3 a4 a5 a6 a7 a8 = fun _ => 1#1) : InRange a1 := by
  unfold Cert.Pre_finite_inputs.fn Cert.Pre_finite_inputs.fn_part1 at h
  exact inRange_of_part2 a1 a8 _ h

/-- On every device, the edge list the idealized kernel starts from is in range. -/
theorem inRange_of_pre_kernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg1)) :=
  inRange_of_fn _ _ _ _ _ _ _ _ _ (h c)

/-- The same for the idealized reference. -/
theorem inRange_of_pre_referenceIdeal
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    InRange (m ((c.tc : Thread Cert.ReferenceIdeal.nD Cert.ReferenceIdeal.τ).loc Cert.ReferenceIdeal.main_arg1)) :=
  inRange_of_fn _ _ _ _ _ _ _ _ _ (h c)

/-- The same for the kernel as printed, floating-point numbers read as their words. -/
theorem inRange_of_pre_kernel
    (m : (ℓ : Loc Cert.Kernel.nD Cert.Kernel.τ Cert.Kernel.sig) → Buf (Elt Bits) ℓ)
    (h : Cert.Pre_Kernel m) (c : Dev Cert.Kernel.nD) :
    InRange (m ((c.tc : Thread Cert.Kernel.nD Cert.Kernel.τ).loc Cert.Kernel.main_arg1)) :=
  inRange_of_fn _ _ _ _ _ _ _ _ _ (h c)

end Cert.Beam

end
-- ==== Proof.StoresK.lean ====
/-
  The six values the kernel body stores, each as a function of the five blocks it loads
  (coordinates at node A, at node B, displacements at node A, at node B, the three material
  rows): the body's intermediate values threaded through in the order the body computes them.
  The A-force rows go to the first output block, the B-force rows to the second.
-/
import proofs.«429318_j42734924595225_2_alg».proof.Proof.Gen.Kernel.Skeleton

noncomputable section

namespace Cert.Kernel.Hand

open Idealize.ShloMosaic Idealize.SL.Sem Cert.Kernel Cert.Kernel.Gen

variable {F : FTy → Type} [FloatOps F]

/-- The body's intermediate values that the stores read, from the five loaded blocks. -/
structure Mid (F : FTy → Type) where
  v28 : FVec F S512x128 .f32
  v29 : FVec F S512x128 .f32
  v39 : FVec F S512x128 .f32
  v43 : FVec F S512x128 .f32
  v48 : FVec F S512x128 .f32
  v64 : FVec F S512x128 .f32
  v68 : FVec F S512x128 .f32
  v84 : FVec F S512x128 .f32
  v88 : FVec F S512x128 .f32
  v90 : FVec F S512x128 .f32
  v92 : FVec F S512x128 .f32
  v94 : FVec F S512x128 .f32

/-- The intermediate values, in the body's order. -/
def mid (x0 x1 x2 x3 x4 : Vec F S3x512x128 .f32) : Mid F :=
  let v5 : FVec F S3x512x128 .f32 := k0_pay8 x2
  let v7 : FVec F S3x512x128 .f32 := k0_pay9 x3
  let v25 : FVec F S512x128 .f32 := k0_pay13 x0 x1
  let v28 : FVec F S512x128 .f32 := k0_pay15 x0 x1
  let v29 : FVec F S512x128 .f32 := k0_pay16 x0 x1
  let v37 : FVec F S512x128 .f32 := k0_pay18 x4
  let v38 : FVec F S512x128 .f32 := k0_pay19 x0 x1 x4
  let v39 : FVec F S512x128 .f32 := k0_pay20 x0 x1 x4
  let v40 : FVec F S512x128 .f32 := k0_pay21 x0 x1
  let cst_15 : F .f32 := Scalar.ofBits .f32 0x2EDBE6FF#32
  { v28 := v28, v29 := v29, v39 := v39
    v43 := k0_pay22 v37 v40 cst_15
    v48 := k0_pay23 v25 v37
    v64 := k0_pay25 v5 v28 v29
    v68 := k0_pay26 v5
    v84 := k0_pay28 v7 v28 v29
    v88 := k0_pay29 v7
    v90 := k0_pay30 v5 v7 v28 v29 v38
    v92 := k0_pay31 v5 v7 v28 v29 v38
    v94 := k0_pay32 v25 v37 }

/-- Row 0, 1, 2 of the first output block (the force on node A). -/
def stA0 (x0 x1 x2 x3 x4 : Vec F S3x512x128 .f32) : FVec F S1x512x128 .f32 :=
  let q := mid x0 x1 x2 x3 x4
  k0_pay37 q.v28 q.v29 q.v43 q.v64 q.v68 q.v84 q.v88 q.v90 q.v94
def stA1 (x0 x1 x2 x3 x4 : Vec F S3x512x128 .f32) : FVec F S1x512x128 .f32 :=
  let q := mid x0 x1 x2 x3 x4
  k0_pay1 (k0_pay38 q.v28 q.v29 q.v43 q.v64 q.v68 q.v84 q.v88 q.v90 q.v94)
def stA2 (x0 x1 x2 x3 x4 : Vec F S3x512x128 .f32) : FVec F S1x512x128 .f32 :=
  let q := mid x0 x1 x2 x3 x4
  k0_pay2 (k0_pay35 q.v39 q.v43 q.v64 q.v68 q.v84 q.v88)
/-- Row 0, 1, 2 of the second output block (the force on node B). -/
def stB0 (x0 x1 x2 x3 x4 : Vec F S3x512x128 .f32) : FVec F S1x512x128 .f32 :=
  let q := mid x0 x1 x2 x3 x4
  k0_pay3 q.v28 q.v29 q.v92 (k0_pay34 q.v43 q.v48 q.v64 q.v68 q.v84 q.v88)
def stB1 (x0 x1 x2 x3 x4 : Vec F S3x512x128 .f32) : FVec F S1x512x128 .f32 :=
  let q := mid x0 x1 x2 x3 x4
  k0_pay4 q.v28 q.v29 q.v92 (k0_pay34 q.v43 q.v48 q.v64 q.v68 q.v84 q.v88)
def stB2 (x0 x1 x2 x3 x4 : Vec F S3x512x128 .f32) : FVec F S1x512x128 .f32 :=
  let q := mid x0 x1 x2 x3 x4
  k0_pay5 (k0_pay36 q.v39 q.v43 q.v64 q.v68 q.v84 q.v88)

end Cert.Kernel.Hand

end
-- ==== Proof.OutBlocksK.lean ====
/-
  What the body leaves in each output block, as the pieces its stores write: three one-row
  rectangles (rows 0, 1, 2), each holding the stored row computed from the five input blocks
  read whole.
-/
import proofs.«429318_j42734924595225_2_alg».proof.Proof.StoresK
import Idealize.ShloMosaic.Lib.Pipeline.FrameBody

noncomputable section

namespace Cert.Kernel.Hand

open Idealize.ShloMosaic Idealize.SL.Sem Cert.Kernel Cert.Kernel.Gen

variable {F : FTy → Type} [FloatOps F]

/-- The whole [3, 512, 128] block. -/
abbrev rI : Rect S3x512x128 := Rect.unit (s := S3x512x128) ![0, 0, 0] S3x512x128.size inb_S3x512x128_S3x512x128_0_0_0
/-- Row 0, 1, 2 of a block. -/
abbrev rO0 : Rect S3x512x128 := Rect.unit (s := S3x512x128) ![0, 0, 0] S1x512x128.size inb_S3x512x128_S1x512x128_0_0_0
abbrev rO1 : Rect S3x512x128 := Rect.unit (s := S3x512x128) ![1, 0, 0] S1x512x128.size inb_S3x512x128_S1x512x128_1_0_0
abbrev rO2 : Rect S3x512x128 := Rect.unit (s := S3x512x128) ![2, 0, 0] S1x512x128.size inb_S3x512x128_S1x512x128_2_0_0

/-- The first output block after the body (the force on node A), last store first. -/
def out0_5 (x0 x1 x2 x3 x4 : Vec F S3x512x128 .f32) : Vec F S3x512x128 .f32 :=
  View.canon [⟨rO2, stA2 (View.ld x0 rI) (View.ld x1 rI) (View.ld x2 rI) (View.ld x3 rI) (View.ld x4 rI)⟩,
    ⟨rO1, stA1 (View.ld x0 rI) (View.ld x1 rI) (View.ld x2 rI) (View.ld x3 rI) (View.ld x4 rI)⟩,
    ⟨rO0, stA0 (View.ld x0 rI) (View.ld x1 rI) (View.ld x2 rI) (View.ld x3 rI) (View.ld x4 rI)⟩]
/-- The second output block after the body (the force on node B), last store first. -/
def out0_6 (x0 x1 x2 x3 x4 : Vec F S3x512x128 .f32) : Vec F S3x512x128 .f32 :=
  View.canon [⟨rO2, stB2 (View.ld x0 rI) (View.ld x1 rI) (View.ld x2 rI) (View.ld x3 rI) (View.ld x4 rI)⟩,
    ⟨rO1, stB1 (View.ld x0 rI) (View.ld x1 rI) (View.ld x2 rI) (View.ld x3 rI) (View.ld x4 rI)⟩,
    ⟨rO0, stB0 (View.ld x0 rI) (View.ld x1 rI) (View.ld x2 rI) (View.ld x3 rI) (View.ld x4 rI)⟩]

end Cert.Kernel.Hand

end
-- ==== Proof.FrameK.lean ====
/-
  The frame of the kernel program.  The program is a line of host operations (slices, gathers by the
  edge list, transposes, pads and reshapes to [3, 31744, 128]), ONE pipelined region over 62 blocks of
  [3, 512, 128], and a last line of host operations (reshapes, slices, a scatter-add).  The region's body
  loads its five input blocks whole and stores three rows into each of its two output blocks, the three rows
  tiling the block.  Stated here: what the buffers hold when the region is entered; that no argument array is
  written before or after it; that the three stored rows of an output block cover it; the body's triple; the pipeline's proof data; the run of the whole program; and the frame claim — the
  program terminates and the nine argument arrays end as launched.  Everything at any float interpretation.
-/
import proofs.«429318_j42734924595225_2_alg».proof.Proof.Gen.Kernel.Launch
import proofs.«429318_j42734924595225_2_alg».proof.Proof.Gen.Kernel.Skeleton
import proofs.«429318_j42734924595225_2_alg».proof.Proof.Gen.Kernel.Points
import proofs.«429318_j42734924595225_2_alg».proof.Proof.OutBlocksK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- What core `c`'s buffers hold when the region is entered, as a valuation: the launch contents carried through
    the lines of host operations that come before the region. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (fun b => m (c, b))
/-- The same, read at a reference of the core. -/
abbrev V (c : Dev nD) (b : Ref sig .tc) : Buf (Elt F) ((c : Thread nD τ).loc b) := V0 m c (Proc.devRef .tc b)

/-- No line before the region allocates a buffer, -/
theorem pre_fresh : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] : List (List (HloOp τ sig (Elt F)))).Forall fun ops => ops.Forall fun op => op.fresh = ∅ := by
  simp only [List.Forall]; repeat' constructor
/-- and every buffer such a line touches is one of the core's references. -/
theorem pre_sub : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩
/-- Nor does the line after it allocate. -/
theorem hostOps1_fresh : (hostOps1 : List (HloOp τ sig (Elt F))).Forall fun op => op.fresh = ∅ := by
  simp only [List.Forall]; repeat' constructor

/-- The program is: the lines before the region, the region, the line after it. Holding the launch contents it
    therefore reduces to the region, entered at `V`, continued by the last line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] [hostOps1] pre_sub pre_fresh main_chain

/-- Each operation of these lines writes exactly one reference, its result, and that reference is not the one in
    question: so the reference in question is written by none of them. -/
local macro "not_written" : tactic => `(tactic| (
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (by decide)))

/-- The line after the region touches the pipeline's arrays and the buffers that bypass the region only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes none of the seven arrays the pipeline stages (it reads the two results and writes fresh values). -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  revert op
  fin_cases w
  all_goals exact List.forall_iff_forall_mem.mp (by not_written)
/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by not_written))
/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by not_written))
/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by not_written))
/-- No line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by not_written))
/-- No line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by not_written))
/-- No line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by not_written))
/-- No line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by not_written))
/-- No line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by not_written))
/-- No line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by not_written))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 is uncut and never idle, and the body leaves its block in place: so at every point its current
    staging buffer holds the point's block, whether it was fetched there or carried over from the point before (the block
    index did not move then). For any proof data with the entry contents `V` and such an `after`. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 is uncut and never idle, and the body leaves its block in place: so at every point its current
    staging buffer holds the point's block, whether it was fetched there or carried over from the point before (the block
    index did not move then). For any proof data with the entry contents `V` and such an `after`. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is uncut and never idle, and the body leaves its block in place: so at every point its current
    staging buffer holds the point's block, whether it was fetched there or carried over from the point before (the block
    index did not move then). For any proof data with the entry contents `V` and such an `after`. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 is uncut and never idle, and the body leaves its block in place: so at every point its current
    staging buffer holds the point's block, whether it was fetched there or carried over from the point before (the block
    index did not move then). For any proof data with the entry contents `V` and such an `after`. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 is uncut and never idle, and the body leaves its block in place: so at every point its current
    staging buffer holds the point's block, whether it was fetched there or carried over from the point before (the block
    index did not move then). For any proof data with the entry contents `V` and such an `after`. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- Argument 0 is no array of the pipeline and the line after the region does not write it: after that line it still
    holds what the region found, which is what was launched. -/
theorem tail_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by not_written)),
    Pipeline.withArrays_of_ne _ _ _ _ main_arg0 (by decide)]
  exact V_main_arg0 m c
/-- Argument 1 is no array of the pipeline and the line after the region does not write it: after that line it still
    holds what the region found, which is what was launched. -/
theorem tail_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by not_written)),
    Pipeline.withArrays_of_ne _ _ _ _ main_arg1 (by decide)]
  exact V_main_arg1 m c
/-- Argument 2 is no array of the pipeline and the line after the region does not write it: after that line it still
    holds what the region found, which is what was launched. -/
theorem tail_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by not_written)),
    Pipeline.withArrays_of_ne _ _ _ _ main_arg2 (by decide)]
  exact V_main_arg2 m c
/-- Argument 3 is no array of the pipeline and the line after the region does not write it: after that line it still
    holds what the region found, which is what was launched. -/
theorem tail_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by not_written)),
    Pipeline.withArrays_of_ne _ _ _ _ main_arg3 (by decide)]
  exact V_main_arg3 m c
/-- Argument 4 is no array of the pipeline and the line after the region does not write it: after that line it still
    holds what the region found, which is what was launched. -/
theorem tail_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by not_written)),
    Pipeline.withArrays_of_ne _ _ _ _ main_arg4 (by decide)]
  exact V_main_arg4 m c
/-- Argument 5 is no array of the pipeline and the line after the region does not write it: after that line it still
    holds what the region found, which is what was launched. -/
theorem tail_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by not_written)),
    Pipeline.withArrays_of_ne _ _ _ _ main_arg5 (by decide)]
  exact V_main_arg5 m c
/-- Argument 6 is no array of the pipeline and the line after the region does not write it: after that line it still
    holds what the region found, which is what was launched. -/
theorem tail_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by not_written)),
    Pipeline.withArrays_of_ne _ _ _ _ main_arg6 (by decide)]
  exact V_main_arg6 m c
/-- Argument 7 is no array of the pipeline and the line after the region does not write it: after that line it still
    holds what the region found, which is what was launched. -/
theorem tail_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by not_written)),
    Pipeline.withArrays_of_ne _ _ _ _ main_arg7 (by decide)]
  exact V_main_arg7 m c
/-- Argument 8 is no array of the pipeline and the line after the region does not write it: after that line it still
    holds what the region found, which is what was launched. -/
theorem tail_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by not_written)),
    Pipeline.withArrays_of_ne _ _ _ _ main_arg8 (by decide)]
  exact V_main_arg8 m c

/-- The frame claim from a frame run: none of the nine arguments is staged by a window, so each is among the buffers
    that bypass the region, which the run's post gives at what the last line leaves — the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (tail_main_arg0 m dats c),
      ((h c).2 main_arg1 (Pipeline.mem_restRefs_of main_arg1 (by decide) (by decide))).trans (tail_main_arg1 m dats c),
      ((h c).2 main_arg2 (Pipeline.mem_restRefs_of main_arg2 (by decide) (by decide))).trans (tail_main_arg2 m dats c),
      ((h c).2 main_arg3 (Pipeline.mem_restRefs_of main_arg3 (by decide) (by decide))).trans (tail_main_arg3 m dats c),
      ((h c).2 main_arg4 (Pipeline.mem_restRefs_of main_arg4 (by decide) (by decide))).trans (tail_main_arg4 m dats c),
      ((h c).2 main_arg5 (Pipeline.mem_restRefs_of main_arg5 (by decide) (by decide))).trans (tail_main_arg5 m dats c),
      ((h c).2 main_arg6 (Pipeline.mem_restRefs_of main_arg6 (by decide) (by decide))).trans (tail_main_arg6 m dats c),
      ((h c).2 main_arg7 (Pipeline.mem_restRefs_of main_arg7 (by decide) (by decide))).trans (tail_main_arg7 m dats c),
      ((h c).2 main_arg8 (Pipeline.mem_restRefs_of main_arg8 (by decide) (by decide))).trans (tail_main_arg8 m dats c)⟩) h

/-! ## The body's accesses and what it leaves in the outputs -/

/-- The three rows tile the block, so every index of the block lies in one of them, whatever is stored. -/
theorem cover_rows (p2 : rO2.shape.Idx → Elt F .f32) (p1 : rO1.shape.Idx → Elt F .f32) (p0 : rO0.shape.Idx → Elt F .f32) (y : S3x512x128.Idx) :
    ∃ pc ∈ ([⟨rO2, p2⟩, ⟨rO1, p1⟩, ⟨rO0, p0⟩] : List (View.Piece (Elt F) S3x512x128 .f32)), y ∈ pc.1.set :=
  View.cover_of_tiled [⟨rO2, p2⟩, ⟨rO1, p1⟩, ⟨rO0, p0⟩] S1x512x128.size (by rfl) y

/-! ## The body's triple -/

set_option maxHeartbeats 1000000 in
/-- The body on whole staging memrefs, the five inputs' at read contents `x0 … x4` and the two outputs' at anything,
    runs to the continuation holding the inputs' as they were and each output's at the overlay of its three stored rows
    (`out0_5`, `out0_6` of the inputs): the rows cover the block, so what was there before, and what the body's
    loads of the output rows read, does not matter. -/
theorem sound_kernel (c : Dev nD) (E : Set ℕ) (i : grid0.Coords)
    (arg1 : Memref sig .tc .vmem S3x512x128 .f32) (harg1 : arg1.IsWhole) (arg2 : Memref sig .tc .vmem S3x512x128 .f32) (harg2 : arg2.IsWhole)
    (arg3 : Memref sig .tc .vmem S3x512x128 .f32) (harg3 : arg3.IsWhole) (arg4 : Memref sig .tc .vmem S3x512x128 .f32) (harg4 : arg4.IsWhole)
    (arg5 : Memref sig .tc .vmem S3x512x128 .f32) (harg5 : arg5.IsWhole) (arg6 : Memref sig .tc .vmem S3x512x128 .f32) (harg6 : arg6.IsWhole)
    (arg7 : Memref sig .tc .vmem S3x512x128 .f32) (harg7 : arg7.IsWhole)
    (x0 x1 x2 x3 x4 : Vec F S3x512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__edge_force_kernel i arg1 harg1 arg2 harg2 arg3 harg3 arg4 harg4 arg5 harg5 arg6 harg6 arg7 harg7) K := by
  simp only [cc0__edge_force_kernel_eq_skeleton]; unfold cc0__edge_force_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_rows _ _ _)
  iexists _; isplitr
  swap; · iexact H6
  ipureintro
  exact View.read_writes_eq_canon _ _ _ (cover_rows _ _ _)

/-! ## The pipeline's proof data -/

/-- The proof data of the pipeline on core `c`: the arrays as the region finds them; after the body at point `t` each
    of the five inputs' buffers still at its block and the two outputs' at the three stored rows computed from the
    five input blocks; the invariant is the untouched rest; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`: the invariant, the core's debt, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the same with each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the cores terminates, and at the
    end each of the seven arrays holds what the proof data compute for it and every other unscoped buffer what the last
    line leaves in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The frame: the program runs to the end and its nine argument arrays hold at the end what they held at the launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.StoresKI.lean ====
/-
  The six values the kernel body stores, each as a function of the five blocks it loads
  (coordinates at node A, at node B, displacements at node A, at node B, the three material
  rows): the body's intermediate values threaded through in the order the body computes them.
  The A-force rows go to the first output block, the B-force rows to the second.
-/
import proofs.«429318_j42734924595225_2_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The body's intermediate values that the stores read, from the five loaded blocks. -/
structure Mid (F : FTy → Type) where
  v28 : FVec F S512x128 .f32
  v29 : FVec F S512x128 .f32
  v39 : FVec F S512x128 .f32
  v43 : FVec F S512x128 .f32
  v48 : FVec F S512x128 .f32
  v64 : FVec F S512x128 .f32
  v68 : FVec F S512x128 .f32
  v84 : FVec F S512x128 .f32
  v88 : FVec F S512x128 .f32
  v90 : FVec F S512x128 .f32
  v92 : FVec F S512x128 .f32
  v94 : FVec F S512x128 .f32

/-- The intermediate values, in the body's order. -/
def mid (x0 x1 x2 x3 x4 : Vec F S3x512x128 .f32) : Mid F :=
  let v5 : FVec F S3x512x128 .f32 := k0_pay8 x2
  let v7 : FVec F S3x512x128 .f32 := k0_pay9 x3
  let v25 : FVec F S512x128 .f32 := k0_pay13 x0 x1
  let v28 : FVec F S512x128 .f32 := k0_pay15 x0 x1
  let v29 : FVec F S512x128 .f32 := k0_pay16 x0 x1
  let v37 : FVec F S512x128 .f32 := k0_pay18 x4
  let v38 : FVec F S512x128 .f32 := k0_pay19 x0 x1 x4
  let v39 : FVec F S512x128 .f32 := k0_pay20 x0 x1 x4
  let v40 : FVec F S512x128 .f32 := k0_pay21 x0 x1
  let cst_15 : F .f32 := Scalar.ofBits .f32 0x2EDBE6FF#32
  { v28 := v28, v29 := v29, v39 := v39
    v43 := k0_pay22 v37 v40 cst_15
    v48 := k0_pay23 v25 v37
    v64 := k0_pay25 v5 v28 v29
    v68 := k0_pay26 v5
    v84 := k0_pay28 v7 v28 v29
    v88 := k0_pay29 v7
    v90 := k0_pay30 v5 v7 v28 v29 v38
    v92 := k0_pay31 v5 v7 v28 v29 v38
    v94 := k0_pay32 v25 v37 }

/-- Row 0, 1, 2 of the first output block (the force on node A). -/
def stA0 (x0 x1 x2 x3 x4 : Vec F S3x512x128 .f32) : FVec F S1x512x128 .f32 :=
  let q := mid x0 x1 x2 x3 x4
  k0_pay37 q.v28 q.v29 q.v43 q.v64 q.v68 q.v84 q.v88 q.v90 q.v94
def stA1 (x0 x1 x2 x3 x4 : Vec F S3x512x128 .f32) : FVec F S1x512x128 .f32 :=
  let q := mid x0 x1 x2 x3 x4
  k0_pay1 (k0_pay38 q.v28 q.v29 q.v43 q.v64 q.v68 q.v84 q.v88 q.v90 q.v94)
def stA2 (x0 x1 x2 x3 x4 : Vec F S3x512x128 .f32) : FVec F S1x512x128 .f32 :=
  let q := mid x0 x1 x2 x3 x4
  k0_pay2 (k0_pay35 q.v39 q.v43 q.v64 q.v68 q.v84 q.v88)
/-- Row 0, 1, 2 of the second output block (the force on node B). -/
def stB0 (x0 x1 x2 x3 x4 : Vec F S3x512x128 .f32) : FVec F S1x512x128 .f32 :=
  let q := mid x0 x1 x2 x3 x4
  k0_pay3 q.v28 q.v29 q.v92 (k0_pay34 q.v43 q.v48 q.v64 q.v68 q.v84 q.v88)
def stB1 (x0 x1 x2 x3 x4 : Vec F S3x512x128 .f32) : FVec F S1x512x128 .f32 :=
  let q := mid x0 x1 x2 x3 x4
  k0_pay4 q.v28 q.v29 q.v92 (k0_pay34 q.v43 q.v48 q.v64 q.v68 q.v84 q.v88)
def stB2 (x0 x1 x2 x3 x4 : Vec F S3x512x128 .f32) : FVec F S1x512x128 .f32 :=
  let q := mid x0 x1 x2 x3 x4
  k0_pay5 (k0_pay36 q.v39 q.v43 q.v64 q.v68 q.v84 q.v88)

end Cert.KernelIdeal.Hand

end
-- ==== Proof.OutBlocksKI.lean ====
/-
  What the body leaves in each output block, as the pieces its stores write: three one-row
  rectangles (rows 0, 1, 2), each holding the stored row computed from the five input blocks
  read whole.
-/
import proofs.«429318_j42734924595225_2_alg».proof.Proof.StoresKI
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]

/-- The whole [3, 512, 128] block. -/
abbrev rI : Rect S3x512x128 := Rect.unit (s := S3x512x128) ![0, 0, 0] S3x512x128.size inb_S3x512x128_S3x512x128_0_0_0
/-- Row 0, 1, 2 of a block. -/
abbrev rO0 : Rect S3x512x128 := Rect.unit (s := S3x512x128) ![0, 0, 0] S1x512x128.size inb_S3x512x128_S1x512x128_0_0_0
abbrev rO1 : Rect S3x512x128 := Rect.unit (s := S3x512x128) ![1, 0, 0] S1x512x128.size inb_S3x512x128_S1x512x128_1_0_0
abbrev rO2 : Rect S3x512x128 := Rect.unit (s := S3x512x128) ![2, 0, 0] S1x512x128.size inb_S3x512x128_S1x512x128_2_0_0

/-- The first output block after the body (the force on node A), last store first. -/
def out0_5 (x0 x1 x2 x3 x4 : Vec F S3x512x128 .f32) : Vec F S3x512x128 .f32 :=
  View.canon [⟨rO2, stA2 (View.ld x0 rI) (View.ld x1 rI) (View.ld x2 rI) (View.ld x3 rI) (View.ld x4 rI)⟩,
    ⟨rO1, stA1 (View.ld x0 rI) (View.ld x1 rI) (View.ld x2 rI) (View.ld x3 rI) (View.ld x4 rI)⟩,
    ⟨rO0, stA0 (View.ld x0 rI) (View.ld x1 rI) (View.ld x2 rI) (View.ld x3 rI) (View.ld x4 rI)⟩]
/-- The second output block after the body (the force on node B), last store first. -/
def out0_6 (x0 x1 x2 x3 x4 : Vec F S3x512x128 .f32) : Vec F S3x512x128 .f32 :=
  View.canon [⟨rO2, stB2 (View.ld x0 rI) (View.ld x1 rI) (View.ld x2 rI) (View.ld x3 rI) (View.ld x4 rI)⟩,
    ⟨rO1, stB1 (View.ld x0 rI) (View.ld x1 rI) (View.ld x2 rI) (View.ld x3 rI) (View.ld x4 rI)⟩,
    ⟨rO0, stB0 (View.ld x0 rI) (View.ld x1 rI) (View.ld x2 rI) (View.ld x3 rI) (View.ld x4 rI)⟩]

end Cert.KernelIdeal.Hand

end
-- ==== Proof.FrameKI.lean ====
/-
  The frame of the kernel program.  The program is a line of host operations (slices, gathers by the
  edge list, transposes, pads and reshapes to [3, 31744, 128]), ONE pipelined region over 62 blocks of
  [3, 512, 128], and a last line of host operations (reshapes, slices, a scatter-add).  The region's body
  loads its five input blocks whole and stores three rows into each of its two output blocks, the three rows
  tiling the block.  Stated here: what the buffers hold when the region is entered; that no argument array is
  written before or after it; that the three stored rows of an output block cover it; the body's triple; the pipeline's proof data; the run of the whole program; and the frame claim — the
  program terminates and the nine argument arrays end as launched.  Everything at any float interpretation.
-/
import proofs.«429318_j42734924595225_2_alg».proof.Proof.Gen.KernelIdeal.Launch
import proofs.«429318_j42734924595225_2_alg».proof.Proof.Gen.KernelIdeal.Skeleton
import proofs.«429318_j42734924595225_2_alg».proof.Proof.Gen.KernelIdeal.Points
import proofs.«429318_j42734924595225_2_alg».proof.Proof.OutBlocksKI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- What core `c`'s buffers hold when the region is entered, as a valuation: the launch contents carried through
    the lines of host operations that come before the region. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (fun b => m (c, b))
/-- The same, read at a reference of the core. -/
abbrev V (c : Dev nD) (b : Ref sig .tc) : Buf (Elt F) ((c : Thread nD τ).loc b) := V0 m c (Proc.devRef .tc b)

/-- No line before the region allocates a buffer, -/
theorem pre_fresh : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] : List (List (HloOp τ sig (Elt F)))).Forall fun ops => ops.Forall fun op => op.fresh = ∅ := by
  simp only [List.Forall]; repeat' constructor
/-- and every buffer such a line touches is one of the core's references. -/
theorem pre_sub : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩
/-- Nor does the line after it allocate. -/
theorem hostOps1_fresh : (hostOps1 : List (HloOp τ sig (Elt F))).Forall fun op => op.fresh = ∅ := by
  simp only [List.Forall]; repeat' constructor

/-- The program is: the lines before the region, the region, the line after it. Holding the launch contents it
    therefore reduces to the region, entered at `V`, continued by the last line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] [hostOps1] pre_sub pre_fresh main_chain

/-- Each operation of these lines writes exactly one reference, its result, and that reference is not the one in
    question: so the reference in question is written by none of them. -/
local macro "not_written" : tactic => `(tactic| (
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (by decide)))

/-- The line after the region touches the pipeline's arrays and the buffers that bypass the region only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes none of the seven arrays the pipeline stages (it reads the two results and writes fresh values). -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  revert op
  fin_cases w
  all_goals exact List.forall_iff_forall_mem.mp (by not_written)
/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by not_written))
/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by not_written))
/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by not_written))
/-- No line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by not_written))
/-- No line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by not_written))
/-- No line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by not_written))
/-- No line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by not_written))
/-- No line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by not_written))
/-- No line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by not_written))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 is uncut and never idle, and the body leaves its block in place: so at every point its current
    staging buffer holds the point's block, whether it was fetched there or carried over from the point before (the block
    index did not move then). For any proof data with the entry contents `V` and such an `after`. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 is uncut and never idle, and the body leaves its block in place: so at every point its current
    staging buffer holds the point's block, whether it was fetched there or carried over from the point before (the block
    index did not move then). For any proof data with the entry contents `V` and such an `after`. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is uncut and never idle, and the body leaves its block in place: so at every point its current
    staging buffer holds the point's block, whether it was fetched there or carried over from the point before (the block
    index did not move then). For any proof data with the entry contents `V` and such an `after`. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 is uncut and never idle, and the body leaves its block in place: so at every point its current
    staging buffer holds the point's block, whether it was fetched there or carried over from the point before (the block
    index did not move then). For any proof data with the entry contents `V` and such an `after`. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 is uncut and never idle, and the body leaves its block in place: so at every point its current
    staging buffer holds the point's block, whether it was fetched there or carried over from the point before (the block
    index did not move then). For any proof data with the entry contents `V` and such an `after`. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- Argument 0 is no array of the pipeline and the line after the region does not write it: after that line it still
    holds what the region found, which is what was launched. -/
theorem tail_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by not_written)),
    Pipeline.withArrays_of_ne _ _ _ _ main_arg0 (by decide)]
  exact V_main_arg0 m c
/-- Argument 1 is no array of the pipeline and the line after the region does not write it: after that line it still
    holds what the region found, which is what was launched. -/
theorem tail_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by not_written)),
    Pipeline.withArrays_of_ne _ _ _ _ main_arg1 (by decide)]
  exact V_main_arg1 m c
/-- Argument 2 is no array of the pipeline and the line after the region does not write it: after that line it still
    holds what the region found, which is what was launched. -/
theorem tail_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by not_written)),
    Pipeline.withArrays_of_ne _ _ _ _ main_arg2 (by decide)]
  exact V_main_arg2 m c
/-- Argument 3 is no array of the pipeline and the line after the region does not write it: after that line it still
    holds what the region found, which is what was launched. -/
theorem tail_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by not_written)),
    Pipeline.withArrays_of_ne _ _ _ _ main_arg3 (by decide)]
  exact V_main_arg3 m c
/-- Argument 4 is no array of the pipeline and the line after the region does not write it: after that line it still
    holds what the region found, which is what was launched. -/
theorem tail_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by not_written)),
    Pipeline.withArrays_of_ne _ _ _ _ main_arg4 (by decide)]
  exact V_main_arg4 m c
/-- Argument 5 is no array of the pipeline and the line after the region does not write it: after that line it still
    holds what the region found, which is what was launched. -/
theorem tail_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by not_written)),
    Pipeline.withArrays_of_ne _ _ _ _ main_arg5 (by decide)]
  exact V_main_arg5 m c
/-- Argument 6 is no array of the pipeline and the line after the region does not write it: after that line it still
    holds what the region found, which is what was launched. -/
theorem tail_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by not_written)),
    Pipeline.withArrays_of_ne _ _ _ _ main_arg6 (by decide)]
  exact V_main_arg6 m c
/-- Argument 7 is no array of the pipeline and the line after the region does not write it: after that line it still
    holds what the region found, which is what was launched. -/
theorem tail_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by not_written)),
    Pipeline.withArrays_of_ne _ _ _ _ main_arg7 (by decide)]
  exact V_main_arg7 m c
/-- Argument 8 is no array of the pipeline and the line after the region does not write it: after that line it still
    holds what the region found, which is what was launched. -/
theorem tail_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by not_written)),
    Pipeline.withArrays_of_ne _ _ _ _ main_arg8 (by decide)]
  exact V_main_arg8 m c

/-- The frame claim from a frame run: none of the nine arguments is staged by a window, so each is among the buffers
    that bypass the region, which the run's post gives at what the last line leaves — the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (tail_main_arg0 m dats c),
      ((h c).2 main_arg1 (Pipeline.mem_restRefs_of main_arg1 (by decide) (by decide))).trans (tail_main_arg1 m dats c),
      ((h c).2 main_arg2 (Pipeline.mem_restRefs_of main_arg2 (by decide) (by decide))).trans (tail_main_arg2 m dats c),
      ((h c).2 main_arg3 (Pipeline.mem_restRefs_of main_arg3 (by decide) (by decide))).trans (tail_main_arg3 m dats c),
      ((h c).2 main_arg4 (Pipeline.mem_restRefs_of main_arg4 (by decide) (by decide))).trans (tail_main_arg4 m dats c),
      ((h c).2 main_arg5 (Pipeline.mem_restRefs_of main_arg5 (by decide) (by decide))).trans (tail_main_arg5 m dats c),
      ((h c).2 main_arg6 (Pipeline.mem_restRefs_of main_arg6 (by decide) (by decide))).trans (tail_main_arg6 m dats c),
      ((h c).2 main_arg7 (Pipeline.mem_restRefs_of main_arg7 (by decide) (by decide))).trans (tail_main_arg7 m dats c),
      ((h c).2 main_arg8 (Pipeline.mem_restRefs_of main_arg8 (by decide) (by decide))).trans (tail_main_arg8 m dats c)⟩) h

/-! ## The body's accesses and what it leaves in the outputs -/

/-- The three rows tile the block, so every index of the block lies in one of them, whatever is stored. -/
theorem cover_rows (p2 : rO2.shape.Idx → Elt F .f32) (p1 : rO1.shape.Idx → Elt F .f32) (p0 : rO0.shape.Idx → Elt F .f32) (y : S3x512x128.Idx) :
    ∃ pc ∈ ([⟨rO2, p2⟩, ⟨rO1, p1⟩, ⟨rO0, p0⟩] : List (View.Piece (Elt F) S3x512x128 .f32)), y ∈ pc.1.set :=
  View.cover_of_tiled [⟨rO2, p2⟩, ⟨rO1, p1⟩, ⟨rO0, p0⟩] S1x512x128.size (by rfl) y

/-! ## The body's triple -/

set_option maxHeartbeats 1000000 in
/-- The body on whole staging memrefs, the five inputs' at read contents `x0 … x4` and the two outputs' at anything,
    runs to the continuation holding the inputs' as they were and each output's at the overlay of its three stored rows
    (`out0_5`, `out0_6` of the inputs): the rows cover the block, so what was there before, and what the body's
    loads of the output rows read, does not matter. -/
theorem sound_kernel (c : Dev nD) (E : Set ℕ) (i : grid0.Coords)
    (arg1 : Memref sig .tc .vmem S3x512x128 .f32) (harg1 : arg1.IsWhole) (arg2 : Memref sig .tc .vmem S3x512x128 .f32) (harg2 : arg2.IsWhole)
    (arg3 : Memref sig .tc .vmem S3x512x128 .f32) (harg3 : arg3.IsWhole) (arg4 : Memref sig .tc .vmem S3x512x128 .f32) (harg4 : arg4.IsWhole)
    (arg5 : Memref sig .tc .vmem S3x512x128 .f32) (harg5 : arg5.IsWhole) (arg6 : Memref sig .tc .vmem S3x512x128 .f32) (harg6 : arg6.IsWhole)
    (arg7 : Memref sig .tc .vmem S3x512x128 .f32) (harg7 : arg7.IsWhole)
    (x0 x1 x2 x3 x4 : Vec F S3x512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__edge_force_kernel i arg1 harg1 arg2 harg2 arg3 harg3 arg4 harg4 arg5 harg5 arg6 harg6 arg7 harg7) K := by
  simp only [cc0__edge_force_kernel_eq_skeleton]; unfold cc0__edge_force_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_rows _ _ _)
  iexists _; isplitr
  swap; · iexact H6
  ipureintro
  exact View.read_writes_eq_canon _ _ _ (cover_rows _ _ _)

/-! ## The pipeline's proof data -/

/-- The proof data of the pipeline on core `c`: the arrays as the region finds them; after the body at point `t` each
    of the five inputs' buffers still at its block and the two outputs' at the three stored rows computed from the
    five input blocks; the invariant is the untouched rest; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`: the invariant, the core's debt, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the same with each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the cores terminates, and at the
    end each of the seven arrays holds what the proof data compute for it and every other unscoped buffer what the last
    line leaves in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The frame: the program runs to the end and its nine argument arrays hold at the end what they held at the launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.PayloadValue.lean ====
/-
  The six rows the kernel body stores, read at one lane (r, l) of the block.

  Each lane holds one edge: from the x and z coordinates of its two end nodes it forms the offsets,
  the undeformed length, the direction cosine and sine; from the three material rows the axial,
  bending, squared-length and cubed-length stiffnesses; from the two displacement rows the end
  displacements turned into the element's own frame (a negation is written as zero minus the
  value); then the six local end forces, turned back into the global frame. Every intermediate
  value of the body, read at (r, l), is the like-named quantity of the edge whose thirteen inputs
  are the lane's entries of the five loaded blocks, and the six stored rows are the three
  components of the force on node A and on node B. Both sides are the same expression tree, so no
  algebra is used beyond 0 - v = -v.
-/
import proofs.«429318_j42734924595225_2_alg».proof.Proof.StoresKI
import proofs.«429318_j42734924595225_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadValue

open Idealize.ShloMosaic Idealize.ShloMosaic.ValueIdx Cert.KernelIdeal Cert.KernelIdeal.Gen Cert.KernelIdeal.Hand Cert.Beam

/-! ## Layout: row k of a three-row block, and the identity cast -/

/-- A rank-3 array cut along axis 0 from `o` reads, at `(j, b, e)`, the source at `(k, b, e)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Row `k` of a [3, 512, 128] block, taken as a one-row slice and flattened to [512, 128], reads at
    `(r, l)` the block at `(k, r, l)`. -/
theorem row_apply {α : Type} (o : Nat) (k : Fin 3) (hk : k.val = o) (X : S3x512x128.Idx → α)
    (hs : S3x512x128.Slices ![o, 0, 0] S1x512x128) (hc : S1x512x128.ShapeCasts S512x128)
    (r : Fin 512) (l : Fin 128) :
    shapeCast S512x128 (extractStridedSlice S1x512x128 ![o, 0, 0] X hs) hc (ix2 r l) = X (ix3 k r l) :=
  (shapeCast_1ab_ab_apply _ hc r l).trans
    (slice3_axis0_apply o X hs (0 : Fin 1) r l k (by rw [hk]; rfl))

/-- A [512, 128] value stored as a one-row block reads at `(0, r, l)` the value at `(r, l)`. -/
theorem store_apply {α : Type} (v : S512x128.Idx → α) (hc : S512x128.ShapeCasts S1x512x128)
    (r : Fin 512) (l : Fin 128) :
    shapeCast S1x512x128 v hc (ix3 (0 : Fin 1) r l) = v (ix2 r l) :=
  shapeCast_ab_1ab_apply v hc 0 r l

/-- The square root of a vector, at an index. -/
theorem sqrt_apply {s : Shape} {φ : FTy} (a : FVec Ideal s φ) (i : s.Idx) : sqrt a i = Ideal.sqrt (a i) := rfl

theorem pay6_eq (x : Vec Ideal S3x512x128 .f32) : k0_pay6 (F := Ideal) x = x := shapeCast_self x _
theorem pay7_eq (x : Vec Ideal S3x512x128 .f32) : k0_pay7 (F := Ideal) x = x := shapeCast_self x _
theorem pay8_eq (x : Vec Ideal S3x512x128 .f32) : k0_pay8 (F := Ideal) x = x := shapeCast_self x _
theorem pay9_eq (x : Vec Ideal S3x512x128 .f32) : k0_pay9 (F := Ideal) x = x := shapeCast_self x _
theorem pay10_eq (x : Vec Ideal S3x512x128 .f32) : k0_pay10 (F := Ideal) x = x := shapeCast_self x _

variable (x0 x1 x2 x3 x4 : Vec Ideal S3x512x128 .f32) (r : Fin 512) (l : Fin 128)

local notation "L" => laneIn x0 x1 x2 x3 x4 r l

/-- The kernel spells a negation as zero minus the value. -/
theorem zero_sub_lit (x : Ideal .f32) : Scalar.ofBits (F := Ideal) .f32 0x00000000#32 - x = -x := by
  show Ideal.ofBits .f32 0x00000000#32 - (x : EReal) = -(x : EReal)
  rw [Ideal.ofBits_zero_f32, zero_sub]

/-! ## The values formed from the coordinates and the material rows -/

/-- the x-offset between the two end nodes -/
theorem pay11_apply : k0_pay11 (F := Ideal) x0 x1 (ix2 r l) = (L).dx0 := by
  unfold k0_pay11
  simp only [subf_apply, pay6_eq, pay7_eq, row_apply 0 0 rfl]
  rfl

/-- the z-offset between the two end nodes -/
theorem pay12_apply : k0_pay12 (F := Ideal) x0 x1 (ix2 r l) = (L).dz0 := by
  unfold k0_pay12
  simp only [subf_apply, pay6_eq, pay7_eq, row_apply 2 2 rfl]
  rfl

/-- the undeformed length -/
theorem pay13_apply : k0_pay13 (F := Ideal) x0 x1 (ix2 r l) = (L).l0 := by
  unfold k0_pay13
  simp only [sqrt_apply, addf_apply, mulf_apply, broadcast_apply, pay11_apply x0 x1 x2 x3 x4, pay12_apply x0 x1 x2 x3 x4]
  rfl

/-- the common denominator: the length plus the small number -/
theorem pay14_apply : k0_pay14 (F := Ideal) x0 x1 (ix2 r l) = (L).den := by
  unfold k0_pay14
  simp only [addf_apply, broadcast_apply, pay13_apply x0 x1 x2 x3 x4]
  rfl

/-- the direction cosine -/
theorem pay15_apply : k0_pay15 (F := Ideal) x0 x1 (ix2 r l) = (L).c := by
  unfold k0_pay15
  simp only [divf_apply, pay11_apply x0 x1 x2 x3 x4, pay14_apply x0 x1 x2 x3 x4]
  rfl

/-- the direction sine -/
theorem pay16_apply : k0_pay16 (F := Ideal) x0 x1 (ix2 r l) = (L).s := by
  unfold k0_pay16
  simp only [divf_apply, pay12_apply x0 x1 x2 x3 x4, pay14_apply x0 x1 x2 x3 x4]
  rfl

/-- the modulus row -/
theorem pay17_apply : k0_pay17 (F := Ideal) x4 (ix2 r l) = (L).eE := by
  unfold k0_pay17
  simp only [pay10_eq, row_apply 0 0 rfl]
  rfl

/-- modulus times second moment -/
theorem pay18_apply : k0_pay18 (F := Ideal) x4 (ix2 r l) = (L).EI := by
  unfold k0_pay18
  simp only [mulf_apply, pay10_eq, row_apply 2 2 rfl, pay17_apply x0 x1 x2 x3 x4]
  rfl

/-- the axial stiffness -/
theorem pay19_apply : k0_pay19 (F := Ideal) x0 x1 x4 (ix2 r l) = (L).kax := by
  unfold k0_pay19
  simp only [divf_apply, mulf_apply, pay10_eq, row_apply 1 1 rfl, pay17_apply x0 x1 x2 x3 x4, pay14_apply x0 x1 x2 x3 x4]
  rfl

/-- the bending stiffness -/
theorem pay20_apply : k0_pay20 (F := Ideal) x0 x1 x4 (ix2 r l) = (L).kbend := by
  unfold k0_pay20
  simp only [divf_apply, pay18_apply x0 x1 x2 x3 x4, pay14_apply x0 x1 x2 x3 x4]
  rfl

/-- the squared length -/
theorem pay21_apply : k0_pay21 (F := Ideal) x0 x1 (ix2 r l) = (L).l0 * (L).l0 := by
  unfold k0_pay21
  simp only [mulf_apply, pay13_apply x0 x1 x2 x3 x4]

/-- the stiffness over the squared length -/
theorem pay22_apply :
    k0_pay22 (F := Ideal) (k0_pay18 x4) (k0_pay21 x0 x1) (Scalar.ofBits .f32 0x2EDBE6FF#32) (ix2 r l) = (L).ksw := by
  unfold k0_pay22
  simp only [divf_apply, addf_apply, broadcast_apply, pay18_apply x0 x1 x2 x3 x4, pay21_apply x0 x1 x2 x3 x4]
  rfl

/-- the stiffness over the cubed length -/
theorem pay23_apply : k0_pay23 (F := Ideal) (k0_pay13 x0 x1) (k0_pay18 x4) (ix2 r l) = (L).ktr := by
  unfold k0_pay23
  simp only [divf_apply, addf_apply, mulf_apply, broadcast_apply, pay13_apply x0 x1 x2 x3 x4, pay18_apply x0 x1 x2 x3 x4]
  rfl

/-- twelve times the stiffness over the cubed length -/
theorem pay32_apply : k0_pay32 (F := Ideal) (k0_pay13 x0 x1) (k0_pay18 x4) (ix2 r l) = c12 * (L).ktr := by
  unfold k0_pay32
  simp only [mulf_apply, broadcast_apply, pay23_apply x0 x1 x2 x3 x4]
  rfl

/-! ## The end displacements in the element's own frame -/

/-- along the element, at node A -/
theorem pay24_apply :
    k0_pay24 (F := Ideal) (k0_pay8 x2) (k0_pay15 x0 x1) (k0_pay16 x0 x1) (ix2 r l) = (L).ua := by
  unfold k0_pay24
  simp only [addf_apply, mulf_apply, pay8_eq, row_apply 0 0 rfl, row_apply 1 1 rfl,
    pay15_apply x0 x1 x2 x3 x4, pay16_apply x0 x1 x2 x3 x4]
  rfl

/-- across the element, at node A -/
theorem pay25_apply :
    k0_pay25 (F := Ideal) (k0_pay8 x2) (k0_pay15 x0 x1) (k0_pay16 x0 x1) (ix2 r l) = (L).wa := by
  unfold k0_pay25
  simp only [addf_apply, mulf_apply, subf_apply, broadcast_apply, zero_sub_lit, pay8_eq,
    row_apply 0 0 rfl, row_apply 1 1 rfl, pay15_apply x0 x1 x2 x3 x4, pay16_apply x0 x1 x2 x3 x4]
  rfl

/-- the rotation at node A, sign flipped -/
theorem pay26_apply : k0_pay26 (F := Ideal) (k0_pay8 x2) (ix2 r l) = (L).ta := by
  unfold k0_pay26
  simp only [subf_apply, broadcast_apply, zero_sub_lit, pay8_eq, row_apply 2 2 rfl]
  rfl

/-- along the element, at node B -/
theorem pay27_apply :
    k0_pay27 (F := Ideal) (k0_pay9 x3) (k0_pay15 x0 x1) (k0_pay16 x0 x1) (ix2 r l) = (L).ub := by
  unfold k0_pay27
  simp only [addf_apply, mulf_apply, pay9_eq, row_apply 0 0 rfl, row_apply 1 1 rfl,
    pay15_apply x0 x1 x2 x3 x4, pay16_apply x0 x1 x2 x3 x4]
  rfl

/-- across the element, at node B -/
theorem pay28_apply :
    k0_pay28 (F := Ideal) (k0_pay9 x3) (k0_pay15 x0 x1) (k0_pay16 x0 x1) (ix2 r l) = (L).wb := by
  unfold k0_pay28
  simp only [addf_apply, mulf_apply, subf_apply, broadcast_apply, zero_sub_lit, pay9_eq,
    row_apply 0 0 rfl, row_apply 1 1 rfl, pay15_apply x0 x1 x2 x3 x4, pay16_apply x0 x1 x2 x3 x4]
  rfl

/-- the rotation at node B, sign flipped -/
theorem pay29_apply : k0_pay29 (F := Ideal) (k0_pay9 x3) (ix2 r l) = (L).tb := by
  unfold k0_pay29
  simp only [subf_apply, broadcast_apply, zero_sub_lit, pay9_eq, row_apply 2 2 rfl]
  rfl

/-- the axial force at node A -/
theorem pay30_apply :
    k0_pay30 (F := Ideal) (k0_pay8 x2) (k0_pay9 x3) (k0_pay15 x0 x1) (k0_pay16 x0 x1) (k0_pay19 x0 x1 x4) (ix2 r l)
      = (L).f0 := by
  unfold k0_pay30
  simp only [mulf_apply, subf_apply, pay24_apply x0 x1 x2 x3 x4, pay27_apply x0 x1 x2 x3 x4, pay19_apply x0 x1 x2 x3 x4]
  rfl

/-- the axial force at node B -/
theorem pay31_apply :
    k0_pay31 (F := Ideal) (k0_pay8 x2) (k0_pay9 x3) (k0_pay15 x0 x1) (k0_pay16 x0 x1) (k0_pay19 x0 x1 x4) (ix2 r l)
      = (L).f3 := by
  unfold k0_pay31
  simp only [mulf_apply, subf_apply, pay24_apply x0 x1 x2 x3 x4, pay27_apply x0 x1 x2 x3 x4, pay19_apply x0 x1 x2 x3 x4]
  rfl

/-! ## The intermediate values the stores read -/

theorem v28_apply : (mid (F := Ideal) x0 x1 x2 x3 x4).v28 (ix2 r l) = (L).c := pay15_apply x0 x1 x2 x3 x4 r l
theorem v29_apply : (mid (F := Ideal) x0 x1 x2 x3 x4).v29 (ix2 r l) = (L).s := pay16_apply x0 x1 x2 x3 x4 r l
theorem v39_apply : (mid (F := Ideal) x0 x1 x2 x3 x4).v39 (ix2 r l) = (L).kbend := pay20_apply x0 x1 x2 x3 x4 r l
theorem v43_apply : (mid (F := Ideal) x0 x1 x2 x3 x4).v43 (ix2 r l) = (L).ksw := pay22_apply x0 x1 x2 x3 x4 r l
theorem v48_apply : (mid (F := Ideal) x0 x1 x2 x3 x4).v48 (ix2 r l) = (L).ktr := pay23_apply x0 x1 x2 x3 x4 r l
theorem v64_apply : (mid (F := Ideal) x0 x1 x2 x3 x4).v64 (ix2 r l) = (L).wa := pay25_apply x0 x1 x2 x3 x4 r l
theorem v68_apply : (mid (F := Ideal) x0 x1 x2 x3 x4).v68 (ix2 r l) = (L).ta := pay26_apply x0 x1 x2 x3 x4 r l
theorem v84_apply : (mid (F := Ideal) x0 x1 x2 x3 x4).v84 (ix2 r l) = (L).wb := pay28_apply x0 x1 x2 x3 x4 r l
theorem v88_apply : (mid (F := Ideal) x0 x1 x2 x3 x4).v88 (ix2 r l) = (L).tb := pay29_apply x0 x1 x2 x3 x4 r l
theorem v90_apply : (mid (F := Ideal) x0 x1 x2 x3 x4).v90 (ix2 r l) = (L).f0 := pay30_apply x0 x1 x2 x3 x4 r l
theorem v92_apply : (mid (F := Ideal) x0 x1 x2 x3 x4).v92 (ix2 r l) = (L).f3 := pay31_apply x0 x1 x2 x3 x4 r l
theorem v94_apply : (mid (F := Ideal) x0 x1 x2 x3 x4).v94 (ix2 r l) = c12 * (L).ktr := pay32_apply x0 x1 x2 x3 x4 r l

/-! ## The local shear forces and moments, from any six vectors at an index -/

theorem pay33_apply (v43 v64 v68 v84 v88 v94 : FVec Ideal S512x128 .f32) (i : S512x128.Idx) :
    k0_pay33 v43 v64 v68 v84 v88 v94 i = v94 i * (v64 i - v84 i) + c6 * v43 i * (v68 i + v88 i) := rfl

theorem pay34_apply (v43 v48 v64 v68 v84 v88 : FVec Ideal S512x128 .f32) (i : S512x128.Idx) :
    k0_pay34 v43 v48 v64 v68 v84 v88 i = c12 * v48 i * (v84 i - v64 i) - c6 * v43 i * (v68 i + v88 i) := rfl

theorem pay35_apply (v39 v43 v64 v68 v84 v88 : FVec Ideal S512x128 .f32) (i : S512x128.Idx) :
    k0_pay35 v39 v43 v64 v68 v84 v88 i
      = c6 * v43 i * (v64 i - v84 i) + v39 i * (c4 * v68 i + c2 * v88 i) := rfl

theorem pay36_apply (v39 v43 v64 v68 v84 v88 : FVec Ideal S512x128 .f32) (i : S512x128.Idx) :
    k0_pay36 v39 v43 v64 v68 v84 v88 i
      = c6 * v43 i * (v64 i - v84 i) + v39 i * (c2 * v68 i + c4 * v88 i) := rfl

/-! ## The six stored rows -/

theorem stA0_apply : stA0 (F := Ideal) x0 x1 x2 x3 x4 (ix3 0 r l) = (L).fA 0 := by
  unfold stA0 k0_pay37
  simp only [store_apply, subf_apply, mulf_apply, pay33_apply, v28_apply x0 x1 x2 x3 x4, v29_apply x0 x1 x2 x3 x4,
    v43_apply x0 x1 x2 x3 x4, v64_apply x0 x1 x2 x3 x4, v68_apply x0 x1 x2 x3 x4, v84_apply x0 x1 x2 x3 x4, v88_apply x0 x1 x2 x3 x4, v90_apply x0 x1 x2 x3 x4,
    v94_apply x0 x1 x2 x3 x4]
  rfl

theorem stA1_apply : stA1 (F := Ideal) x0 x1 x2 x3 x4 (ix3 0 r l) = (L).fA 1 := by
  unfold stA1 k0_pay1 k0_pay38
  simp only [store_apply, addf_apply, mulf_apply, pay33_apply, v28_apply x0 x1 x2 x3 x4, v29_apply x0 x1 x2 x3 x4,
    v43_apply x0 x1 x2 x3 x4, v64_apply x0 x1 x2 x3 x4, v68_apply x0 x1 x2 x3 x4, v84_apply x0 x1 x2 x3 x4, v88_apply x0 x1 x2 x3 x4, v90_apply x0 x1 x2 x3 x4,
    v94_apply x0 x1 x2 x3 x4]
  rfl

theorem stA2_apply : stA2 (F := Ideal) x0 x1 x2 x3 x4 (ix3 0 r l) = (L).fA 2 := by
  unfold stA2 k0_pay2
  simp only [store_apply, pay35_apply, v39_apply x0 x1 x2 x3 x4, v43_apply x0 x1 x2 x3 x4, v64_apply x0 x1 x2 x3 x4, v68_apply x0 x1 x2 x3 x4,
    v84_apply x0 x1 x2 x3 x4, v88_apply x0 x1 x2 x3 x4]
  rfl

theorem stB0_apply : stB0 (F := Ideal) x0 x1 x2 x3 x4 (ix3 0 r l) = (L).fB 0 := by
  unfold stB0 k0_pay3
  simp only [store_apply, subf_apply, mulf_apply, pay34_apply, v28_apply x0 x1 x2 x3 x4, v29_apply x0 x1 x2 x3 x4,
    v43_apply x0 x1 x2 x3 x4, v48_apply x0 x1 x2 x3 x4, v64_apply x0 x1 x2 x3 x4, v68_apply x0 x1 x2 x3 x4, v84_apply x0 x1 x2 x3 x4, v88_apply x0 x1 x2 x3 x4,
    v92_apply x0 x1 x2 x3 x4]
  rfl

theorem stB1_apply : stB1 (F := Ideal) x0 x1 x2 x3 x4 (ix3 0 r l) = (L).fB 1 := by
  unfold stB1 k0_pay4
  simp only [store_apply, addf_apply, mulf_apply, pay34_apply, v28_apply x0 x1 x2 x3 x4, v29_apply x0 x1 x2 x3 x4,
    v43_apply x0 x1 x2 x3 x4, v48_apply x0 x1 x2 x3 x4, v64_apply x0 x1 x2 x3 x4, v68_apply x0 x1 x2 x3 x4, v84_apply x0 x1 x2 x3 x4, v88_apply x0 x1 x2 x3 x4,
    v92_apply x0 x1 x2 x3 x4]
  rfl

theorem stB2_apply : stB2 (F := Ideal) x0 x1 x2 x3 x4 (ix3 0 r l) = (L).fB 2 := by
  unfold stB2 k0_pay5
  simp only [store_apply, pay36_apply, v39_apply x0 x1 x2 x3 x4, v43_apply x0 x1 x2 x3 x4, v64_apply x0 x1 x2 x3 x4, v68_apply x0 x1 x2 x3 x4,
    v84_apply x0 x1 x2 x3 x4, v88_apply x0 x1 x2 x3 x4]
  rfl

end Cert.KernelIdeal.PayloadValue

end
-- ==== Proof.KernelArrays.lean ====
/-
  The two arrays the region writes, as whole-array functions of the five arrays it reads.
  Point t of the 62-point grid reads block t (rows 512 t … 512 t + 511 of the folded edge axis)
  of each input and writes block t of each output; the three row stores of a block together
  hold, lane by lane, the beam force of the edge that sits in that lane; the 62 blocks tile the
  array. Hence each output array is, everywhere, the lane function of the input arrays.
-/
import proofs.«429318_j42734924595225_2_alg».proof.Proof.Gen.KernelIdeal.Launch
import proofs.«429318_j42734924595225_2_alg».proof.Proof.Gen.KernelIdeal.Points
import proofs.«429318_j42734924595225_2_alg».proof.Proof.OutBlocksKI
import proofs.«429318_j42734924595225_2_alg».proof.Proof.PayloadValue
import proofs.«429318_j42734924595225_2_alg».proof.Proof.Spec
import Idealize.ShloMosaic.Lib.Pipeline.FrameBody
import Idealize.ShloMosaic.Lib.Pipeline.Value
import Idealize.ShloMosaic.Lib.ValueIdx

set_option maxRecDepth 16384

noncomputable section

namespace Cert.KernelIdeal.Arrays
open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Cert.KernelIdeal.PayloadValue Cert.Beam

theorem hz3 : (![0, 0, 0] : Fin 3 → Nat) = fun _ => 0 := funext fun a => by fin_cases a <;> rfl

/-- Row k of a block, as a one-row rectangle, sends its local index (0, r, l) to (k, r, l). -/
theorem emb_rO0 (r : Fin 512) (l : Fin 128) : (rO0).emb (ix3 (0 : Fin 1) r l) = ix3 (0 : Fin 3) r l := by
  funext a; apply Fin.ext
  match a with
  | ⟨0, _⟩ => rfl
  | ⟨1, _⟩ => show 0 + 1 * r.val = r.val; omega
  | ⟨2, _⟩ => show 0 + 1 * l.val = l.val; omega
theorem emb_rO1 (r : Fin 512) (l : Fin 128) : (rO1).emb (ix3 (0 : Fin 1) r l) = ix3 (1 : Fin 3) r l := by
  funext a; apply Fin.ext
  match a with
  | ⟨0, _⟩ => rfl
  | ⟨1, _⟩ => show 0 + 1 * r.val = r.val; omega
  | ⟨2, _⟩ => show 0 + 1 * l.val = l.val; omega
theorem emb_rO2 (r : Fin 512) (l : Fin 128) : (rO2).emb (ix3 (0 : Fin 1) r l) = ix3 (2 : Fin 3) r l := by
  funext a; apply Fin.ext
  match a with
  | ⟨0, _⟩ => rfl
  | ⟨1, _⟩ => show 0 + 1 * r.val = r.val; omega
  | ⟨2, _⟩ => show 0 + 1 * l.val = l.val; omega

theorem split1 (x : (⟨3, ![1, 512, 128]⟩ : Shape).Idx) : ∃ (r : Fin 512) (l : Fin 128), x = ix3 (0 : Fin 1) r l :=
  ⟨x 1, x 2, by
    have h0 : (x 0).val < 1 := (x 0).isLt
    rw [eq_ix3 x]; congr 1; exact Fin.ext (by show (x 0).val = 0; omega)⟩

/-- The first output block is, lane by lane, the force on node A computed from the five input blocks. -/
theorem out5_blk (x0 x1 x2 x3 x4 : Vec Ideal S3x512x128 .f32) :
    out0_5 (F := Ideal) x0 x1 x2 x3 x4 = laneA x0 x1 x2 x3 x4 := by
  funext y
  unfold out0_5
  simp only [View.ld_unit_zero (S := S3x512x128) hz3]
  refine View.canon_apply_of_pieces (Val := Elt Ideal) (show Vec Ideal S3x512x128 .f32 from laneA x0 x1 x2 x3 x4) _ ?_ y ?_
  · intro p hp x
    simp only [List.mem_cons, List.mem_nil_iff, or_false] at hp
    rcases hp with rfl | rfl | rfl
    · obtain ⟨r, l, rfl⟩ := split1 x
      refine (stA2_apply x0 x1 x2 x3 x4 r l).trans ?_
      show _ = laneA x0 x1 x2 x3 x4 ((rO2).emb (ix3 (0 : Fin 1) r l))
      rw [emb_rO2]; rfl
    · obtain ⟨r, l, rfl⟩ := split1 x
      refine (stA1_apply x0 x1 x2 x3 x4 r l).trans ?_
      show _ = laneA x0 x1 x2 x3 x4 ((rO1).emb (ix3 (0 : Fin 1) r l))
      rw [emb_rO1]; rfl
    · obtain ⟨r, l, rfl⟩ := split1 x
      refine (stA0_apply x0 x1 x2 x3 x4 r l).trans ?_
      show _ = laneA x0 x1 x2 x3 x4 ((rO0).emb (ix3 (0 : Fin 1) r l))
      rw [emb_rO0]; rfl
  · exact View.cover_of_tiled (s := S3x512x128) _ ![1, 512, 128] (by rfl) y

/-- Every window's block index at point t is (0, t, 0): block t holds rows 512 t … 512 t + 511 of the folded edge axis. -/
theorem idx_facts : ∀ t : Fin cfg0.N,
    (win0_0.index t = ![0, t.val, 0]) ∧ (win0_1.index t = ![0, t.val, 0]) ∧ (win0_2.index t = ![0, t.val, 0])
    ∧ (win0_3.index t = ![0, t.val, 0]) ∧ (win0_4.index t = ![0, t.val, 0]) ∧ (win0_5.index t = ![0, t.val, 0])
    ∧ (win0_6.index t = ![0, t.val, 0]) :=
  (by decide +kernel : ∀ t : Fin grid0.N, _)

theorem t_lt (t : Fin cfg0.N) : t.val < 62 := by
  have h := t.isLt
  have hN : cfg0.N = 62 := N_0
  omega

theorem emb0 (t : Fin cfg0.N) (k : Fin 3) (r : Fin 512) (l : Fin 128) :
    ((cfg0.win 0).blk t).view.emb (ix3 k r l) = ix3 k ⟨t.val * 512 + r.val, by have := t_lt t; omega⟩ l := by
  obtain ⟨e0, e1, e2, e3, e4, e5, e6⟩ := idx_facts t
  funext a; apply Fin.ext
  match a with
  | ⟨0, _⟩ => show win0_0.index t (0 : Fin 3) * 3 + 1 * k.val = k.val; rw [e0]; show 0 * 3 + 1 * k.val = k.val; omega
  | ⟨1, _⟩ => show win0_0.index t (1 : Fin 3) * 512 + 1 * r.val = t.val * 512 + r.val; rw [e0]; show t.val * 512 + 1 * r.val = _; omega
  | ⟨2, _⟩ => show win0_0.index t (2 : Fin 3) * 128 + 1 * l.val = l.val; rw [e0]; show 0 * 128 + 1 * l.val = l.val; omega

theorem emb1 (t : Fin cfg0.N) (k : Fin 3) (r : Fin 512) (l : Fin 128) :
    ((cfg0.win 1).blk t).view.emb (ix3 k r l) = ix3 k ⟨t.val * 512 + r.val, by have := t_lt t; omega⟩ l := by
  obtain ⟨e0, e1, e2, e3, e4, e5, e6⟩ := idx_facts t
  funext a; apply Fin.ext
  match a with
  | ⟨0, _⟩ => show win0_1.index t (0 : Fin 3) * 3 + 1 * k.val = k.val; rw [e1]; show 0 * 3 + 1 * k.val = k.val; omega
  | ⟨1, _⟩ => show win0_1.index t (1 : Fin 3) * 512 + 1 * r.val = t.val * 512 + r.val; rw [e1]; show t.val * 512 + 1 * r.val = _; omega
  | ⟨2, _⟩ => show win0_1.index t (2 : Fin 3) * 128 + 1 * l.val = l.val; rw [e1]; show 0 * 128 + 1 * l.val = l.val; omega

theorem emb2 (t : Fin cfg0.N) (k : Fin 3) (r : Fin 512) (l : Fin 128) :
    ((cfg0.win 2).blk t).view.emb (ix3 k r l) = ix3 k ⟨t.val * 512 + r.val, by have := t_lt t; omega⟩ l := by
  obtain ⟨e0, e1, e2, e3, e4, e5, e6⟩ := idx_facts t
  funext a; apply Fin.ext
  match a with
  | ⟨0, _⟩ => show win0_2.index t (0 : Fin 3) * 3 + 1 * k.val = k.val; rw [e2]; show 0 * 3 + 1 * k.val = k.val; omega
  | ⟨1, _⟩ => show win0_2.index t (1 : Fin 3) * 512 + 1 * r.val = t.val * 512 + r.val; rw [e2]; show t.val * 512 + 1 * r.val = _; omega
  | ⟨2, _⟩ => show win0_2.index t (2 : Fin 3) * 128 + 1 * l.val = l.val; rw [e2]; show 0 * 128 + 1 * l.val = l.val; omega

theorem emb3 (t : Fin cfg0.N) (k : Fin 3) (r : Fin 512) (l : Fin 128) :
    ((cfg0.win 3).blk t).view.emb (ix3 k r l) = ix3 k ⟨t.val * 512 + r.val, by have := t_lt t; omega⟩ l := by
  obtain ⟨e0, e1, e2, e3, e4, e5, e6⟩ := idx_facts t
  funext a; apply Fin.ext
  match a with
  | ⟨0, _⟩ => show win0_3.index t (0 : Fin 3) * 3 + 1 * k.val = k.val; rw [e3]; show 0 * 3 + 1 * k.val = k.val; omega
  | ⟨1, _⟩ => show win0_3.index t (1 : Fin 3) * 512 + 1 * r.val = t.val * 512 + r.val; rw [e3]; show t.val * 512 + 1 * r.val = _; omega
  | ⟨2, _⟩ => show win0_3.index t (2 : Fin 3) * 128 + 1 * l.val = l.val; rw [e3]; show 0 * 128 + 1 * l.val = l.val; omega

theorem emb4 (t : Fin cfg0.N) (k : Fin 3) (r : Fin 512) (l : Fin 128) :
    ((cfg0.win 4).blk t).view.emb (ix3 k r l) = ix3 k ⟨t.val * 512 + r.val, by have := t_lt t; omega⟩ l := by
  obtain ⟨e0, e1, e2, e3, e4, e5, e6⟩ := idx_facts t
  funext a; apply Fin.ext
  match a with
  | ⟨0, _⟩ => show win0_4.index t (0 : Fin 3) * 3 + 1 * k.val = k.val; rw [e4]; show 0 * 3 + 1 * k.val = k.val; omega
  | ⟨1, _⟩ => show win0_4.index t (1 : Fin 3) * 512 + 1 * r.val = t.val * 512 + r.val; rw [e4]; show t.val * 512 + 1 * r.val = _; omega
  | ⟨2, _⟩ => show win0_4.index t (2 : Fin 3) * 128 + 1 * l.val = l.val; rw [e4]; show 0 * 128 + 1 * l.val = l.val; omega

theorem emb5 (t : Fin cfg0.N) (k : Fin 3) (r : Fin 512) (l : Fin 128) :
    ((cfg0.win 5).blk t).view.emb (ix3 k r l) = ix3 k ⟨t.val * 512 + r.val, by have := t_lt t; omega⟩ l := by
  obtain ⟨e0, e1, e2, e3, e4, e5, e6⟩ := idx_facts t
  funext a; apply Fin.ext
  match a with
  | ⟨0, _⟩ => show win0_5.index t (0 : Fin 3) * 3 + 1 * k.val = k.val; rw [e5]; show 0 * 3 + 1 * k.val = k.val; omega
  | ⟨1, _⟩ => show win0_5.index t (1 : Fin 3) * 512 + 1 * r.val = t.val * 512 + r.val; rw [e5]; show t.val * 512 + 1 * r.val = _; omega
  | ⟨2, _⟩ => show win0_5.index t (2 : Fin 3) * 128 + 1 * l.val = l.val; rw [e5]; show 0 * 128 + 1 * l.val = l.val; omega

theorem emb6 (t : Fin cfg0.N) (k : Fin 3) (r : Fin 512) (l : Fin 128) :
    ((cfg0.win 6).blk t).view.emb (ix3 k r l) = ix3 k ⟨t.val * 512 + r.val, by have := t_lt t; omega⟩ l := by
  obtain ⟨e0, e1, e2, e3, e4, e5, e6⟩ := idx_facts t
  funext a; apply Fin.ext
  match a with
  | ⟨0, _⟩ => show win0_6.index t (0 : Fin 3) * 3 + 1 * k.val = k.val; rw [e6]; show 0 * 3 + 1 * k.val = k.val; omega
  | ⟨1, _⟩ => show win0_6.index t (1 : Fin 3) * 512 + 1 * r.val = t.val * 512 + r.val; rw [e6]; show t.val * 512 + 1 * r.val = _; omega
  | ⟨2, _⟩ => show win0_6.index t (2 : Fin 3) * 128 + 1 * l.val = l.val; rw [e6]; show 0 * 128 + 1 * l.val = l.val; omega

/-- Entry (k, r, l) of block t of window 0, read off ANY contents of its array, is entry (k, 512 t + r, l). -/
theorem rd0 (c : Dev nD) (A : Buf (Elt Ideal) ((c : Thread nD τ).loc main_v17)) (t : Fin cfg0.N) (k : Fin 3) (r : Fin 512) (l : Fin 128) :
    ((cfg0.win 0).blk t).view.read (Elt Ideal) A (ix3 k r l) = A (ix3 k ⟨t.val * 512 + r.val, by have := t_lt t; omega⟩ l) := by
  show A (((cfg0.win 0).blk t).view.emb (ix3 k r l)) = _
  rw [emb0]

/-- Entry (k, r, l) of block t of window 1, read off ANY contents of its array, is entry (k, 512 t + r, l). -/
theorem rd1 (c : Dev nD) (A : Buf (Elt Ideal) ((c : Thread nD τ).loc main_v19)) (t : Fin cfg0.N) (k : Fin 3) (r : Fin 512) (l : Fin 128) :
    ((cfg0.win 1).blk t).view.read (Elt Ideal) A (ix3 k r l) = A (ix3 k ⟨t.val * 512 + r.val, by have := t_lt t; omega⟩ l) := by
  show A (((cfg0.win 1).blk t).view.emb (ix3 k r l)) = _
  rw [emb1]

/-- Entry (k, r, l) of block t of window 2, read off ANY contents of its array, is entry (k, 512 t + r, l). -/
theorem rd2 (c : Dev nD) (A : Buf (Elt Ideal) ((c : Thread nD τ).loc main_v21)) (t : Fin cfg0.N) (k : Fin 3) (r : Fin 512) (l : Fin 128) :
    ((cfg0.win 2).blk t).view.read (Elt Ideal) A (ix3 k r l) = A (ix3 k ⟨t.val * 512 + r.val, by have := t_lt t; omega⟩ l) := by
  show A (((cfg0.win 2).blk t).view.emb (ix3 k r l)) = _
  rw [emb2]

/-- Entry (k, r, l) of block t of window 3, read off ANY contents of its array, is entry (k, 512 t + r, l). -/
theorem rd3 (c : Dev nD) (A : Buf (Elt Ideal) ((c : Thread nD τ).loc main_v23)) (t : Fin cfg0.N) (k : Fin 3) (r : Fin 512) (l : Fin 128) :
    ((cfg0.win 3).blk t).view.read (Elt Ideal) A (ix3 k r l) = A (ix3 k ⟨t.val * 512 + r.val, by have := t_lt t; omega⟩ l) := by
  show A (((cfg0.win 3).blk t).view.emb (ix3 k r l)) = _
  rw [emb3]

/-- Entry (k, r, l) of block t of window 4, read off ANY contents of its array, is entry (k, 512 t + r, l). -/
theorem rd4 (c : Dev nD) (A : Buf (Elt Ideal) ((c : Thread nD τ).loc main_v25)) (t : Fin cfg0.N) (k : Fin 3) (r : Fin 512) (l : Fin 128) :
    ((cfg0.win 4).blk t).view.read (Elt Ideal) A (ix3 k r l) = A (ix3 k ⟨t.val * 512 + r.val, by have := t_lt t; omega⟩ l) := by
  show A (((cfg0.win 4).blk t).view.emb (ix3 k r l)) = _
  rw [emb4]

/-- The second output block is, lane by lane, the force on node B computed from the five input blocks. -/
theorem out6_blk (x0 x1 x2 x3 x4 : Vec Ideal S3x512x128 .f32) :
    out0_6 (F := Ideal) x0 x1 x2 x3 x4 = laneB x0 x1 x2 x3 x4 := by
  funext y
  unfold out0_6
  simp only [View.ld_unit_zero (S := S3x512x128) hz3]
  refine View.canon_apply_of_pieces (Val := Elt Ideal) (show Vec Ideal S3x512x128 .f32 from laneB x0 x1 x2 x3 x4) _ ?_ y ?_
  · intro p hp x
    simp only [List.mem_cons, List.mem_nil_iff, or_false] at hp
    rcases hp with rfl | rfl | rfl
    · obtain ⟨r, l, rfl⟩ := split1 x
      refine (stB2_apply x0 x1 x2 x3 x4 r l).trans ?_
      show _ = laneB x0 x1 x2 x3 x4 ((rO2).emb (ix3 (0 : Fin 1) r l))
      rw [emb_rO2]; rfl
    · obtain ⟨r, l, rfl⟩ := split1 x
      refine (stB1_apply x0 x1 x2 x3 x4 r l).trans ?_
      show _ = laneB x0 x1 x2 x3 x4 ((rO1).emb (ix3 (0 : Fin 1) r l))
      rw [emb_rO1]; rfl
    · obtain ⟨r, l, rfl⟩ := split1 x
      refine (stB0_apply x0 x1 x2 x3 x4 r l).trans ?_
      show _ = laneB x0 x1 x2 x3 x4 ((rO0).emb (ix3 (0 : Fin 1) r l))
      rw [emb_rO0]; rfl
  · exact View.cover_of_tiled (s := S3x512x128) _ ![1, 512, 128] (by rfl) y

/-- For ANY proof data whose window-5 buffer after the body at point t is the lane function of the five input blocks
    read off arrays A0 … A4: what point t writes back is block t of the lane function of A0 … A4. -/
theorem flushed5_of (c : Dev nD) (dat : Dat τ (Elt Ideal) Unit ℕ (UR sig nD τ) ℕ cfg0 c)
    (A0 : Buf (Elt Ideal) ((c : Thread nD τ).loc main_v17)) (A1 : Buf (Elt Ideal) ((c : Thread nD τ).loc main_v19))
    (A2 : Buf (Elt Ideal) ((c : Thread nD τ).loc main_v21)) (A3 : Buf (Elt Ideal) ((c : Thread nD τ).loc main_v23))
    (A4 : Buf (Elt Ideal) ((c : Thread nD τ).loc main_v25))
    (hafter : ∀ t, dat.after 5 t = laneA (((cfg0.win 0).blk t).view.read (Elt Ideal) A0) (((cfg0.win 1).blk t).view.read (Elt Ideal) A1)
      (((cfg0.win 2).blk t).view.read (Elt Ideal) A2) (((cfg0.win 3).blk t).view.read (Elt Ideal) A3) (((cfg0.win 4).blk t).view.read (Elt Ideal) A4))
    (t : Fin cfg0.N) :
    dat.flushed 5 t = ((cfg0.win 5).blk t).view.read (Elt Ideal) (show Buf (Elt Ideal) ((c : Thread nD τ).loc main_v26_0) from laneA A0 A1 A2 A3 A4) := by
  show (cfg0.win 5).cut (grid0.coords t) (dat.after 5 t) = _
  rw [hafter]
  funext j
  obtain ⟨k, r, l, rfl⟩ : ∃ (k : Fin 3) (r : Fin 512) (l : Fin 128), j = ix3 k r l := ⟨j 0, j 1, j 2, eq_ix3 j⟩
  show laneA (((cfg0.win 0).blk t).view.read (Elt Ideal) A0) (((cfg0.win 1).blk t).view.read (Elt Ideal) A1)
      (((cfg0.win 2).blk t).view.read (Elt Ideal) A2) (((cfg0.win 3).blk t).view.read (Elt Ideal) A3) (((cfg0.win 4).blk t).view.read (Elt Ideal) A4) (ix3 k r l)
    = laneA A0 A1 A2 A3 A4 (((cfg0.win 5).blk t).view.emb (ix3 k r l))
  rw [emb5]
  show (laneIn (((cfg0.win 0).blk t).view.read (Elt Ideal) A0) (((cfg0.win 1).blk t).view.read (Elt Ideal) A1)
      (((cfg0.win 2).blk t).view.read (Elt Ideal) A2) (((cfg0.win 3).blk t).view.read (Elt Ideal) A3) (((cfg0.win 4).blk t).view.read (Elt Ideal) A4) r l).fA k
    = (laneIn A0 A1 A2 A3 A4 ⟨t.val * 512 + r.val, by have := t_lt t; omega⟩ l).fA k
  congr 1
  unfold laneIn
  rw [rd0, rd0, rd1, rd1, rd2, rd2, rd2, rd3, rd3, rd3, rd4, rd4, rd4]

theorem mem_blk5 (t : Fin cfg0.N) (i : S3x31744x128.Idx) :
    i ∈ ((cfg0.win 5).blk t).view.set ↔ ∀ a : Fin 3, win0_5.index t a * S3x512x128.size a ≤ (i a).val ∧ (i a).val < win0_5.index t a * S3x512x128.size a + S3x512x128.size a := by
  show i ∈ ((View.whole main_v26_0).slice (win0_5.rect t)).set ↔ _
  rw [View.set_slice_whole, Rect.mem_set_unit]
  exact Iff.rfl

/-- Every entry of the array lies in the block of the point its row falls in. -/
theorem cover5 (i : S3x31744x128.Idx) :
    ∃ t : Fin cfg0.N, (cfg0.win 5).flush t = true ∧ i ∈ ((cfg0.win 5).blk t).view.set := by
  have h0 : (i 0).val < 3 := (i 0).isLt
  have h1 : (i 1).val < 31744 := (i 1).isLt
  have h2 : (i 2).val < 128 := (i 2).isLt
  have hN : cfg0.N = 62 := N_0
  refine ⟨⟨(i 1).val / 512, by omega⟩, flush0_5 _, ?_⟩
  rw [mem_blk5]
  obtain ⟨e0, e1, e2, e3, e4, e5, e6⟩ := idx_facts ⟨(i 1).val / 512, by omega⟩
  intro a
  rw [e5]
  match a with
  | ⟨0, _⟩ => show 0 * 3 ≤ (i 0).val ∧ (i 0).val < 0 * 3 + 3; omega
  | ⟨1, _⟩ => show (i 1).val / 512 * 512 ≤ (i 1).val ∧ (i 1).val < (i 1).val / 512 * 512 + 512; omega
  | ⟨2, _⟩ => show 0 * 128 ≤ (i 2).val ∧ (i 2).val < 0 * 128 + 128; omega

/-- THE ARRAY after the region, for any such proof data: the lane function of A0 … A4, everywhere. -/
theorem final5_of (c : Dev nD) (dat : Dat τ (Elt Ideal) Unit ℕ (UR sig nD τ) ℕ cfg0 c)
    (A0 : Buf (Elt Ideal) ((c : Thread nD τ).loc main_v17)) (A1 : Buf (Elt Ideal) ((c : Thread nD τ).loc main_v19))
    (A2 : Buf (Elt Ideal) ((c : Thread nD τ).loc main_v21)) (A3 : Buf (Elt Ideal) ((c : Thread nD τ).loc main_v23))
    (A4 : Buf (Elt Ideal) ((c : Thread nD τ).loc main_v25))
    (hafter : ∀ t, dat.after 5 t = laneA (((cfg0.win 0).blk t).view.read (Elt Ideal) A0) (((cfg0.win 1).blk t).view.read (Elt Ideal) A1)
      (((cfg0.win 2).blk t).view.read (Elt Ideal) A2) (((cfg0.win 3).blk t).view.read (Elt Ideal) A3) (((cfg0.win 4).blk t).view.read (Elt Ideal) A4)) :
    dat.arrAt 5 cfg0.N = (show Buf (Elt Ideal) ((c : Thread nD τ).loc main_v26_0) from laneA A0 A1 A2 A3 A4) :=
  dat.arrAt_eq_of_cover 5 _ (fun t _ => flushed5_of c dat A0 A1 A2 A3 A4 hafter t) (cover5)

/-- For ANY proof data whose window-6 buffer after the body at point t is the lane function of the five input blocks
    read off arrays A0 … A4: what point t writes back is block t of the lane function of A0 … A4. -/
theorem flushed6_of (c : Dev nD) (dat : Dat τ (Elt Ideal) Unit ℕ (UR sig nD τ) ℕ cfg0 c)
    (A0 : Buf (Elt Ideal) ((c : Thread nD τ).loc main_v17)) (A1 : Buf (Elt Ideal) ((c : Thread nD τ).loc main_v19))
    (A2 : Buf (Elt Ideal) ((c : Thread nD τ).loc main_v21)) (A3 : Buf (Elt Ideal) ((c : Thread nD τ).loc main_v23))
    (A4 : Buf (Elt Ideal) ((c : Thread nD τ).loc main_v25))
    (hafter : ∀ t, dat.after 6 t = laneB (((cfg0.win 0).blk t).view.read (Elt Ideal) A0) (((cfg0.win 1).blk t).view.read (Elt Ideal) A1)
      (((cfg0.win 2).blk t).view.read (Elt Ideal) A2) (((cfg0.win 3).blk t).view.read (Elt Ideal) A3) (((cfg0.win 4).blk t).view.read (Elt Ideal) A4))
    (t : Fin cfg0.N) :
    dat.flushed 6 t = ((cfg0.win 6).blk t).view.read (Elt Ideal) (show Buf (Elt Ideal) ((c : Thread nD τ).loc main_v26_1) from laneB A0 A1 A2 A3 A4) := by
  show (cfg0.win 6).cut (grid0.coords t) (dat.after 6 t) = _
  rw [hafter]
  funext j
  obtain ⟨k, r, l, rfl⟩ : ∃ (k : Fin 3) (r : Fin 512) (l : Fin 128), j = ix3 k r l := ⟨j 0, j 1, j 2, eq_ix3 j⟩
  show laneB (((cfg0.win 0).blk t).view.read (Elt Ideal) A0) (((cfg0.win 1).blk t).view.read (Elt Ideal) A1)
      (((cfg0.win 2).blk t).view.read (Elt Ideal) A2) (((cfg0.win 3).blk t).view.read (Elt Ideal) A3) (((cfg0.win 4).blk t).view.read (Elt Ideal) A4) (ix3 k r l)
    = laneB A0 A1 A2 A3 A4 (((cfg0.win 6).blk t).view.emb (ix3 k r l))
  rw [emb6]
  show (laneIn (((cfg0.win 0).blk t).view.read (Elt Ideal) A0) (((cfg0.win 1).blk t).view.read (Elt Ideal) A1)
      (((cfg0.win 2).blk t).view.read (Elt Ideal) A2) (((cfg0.win 3).blk t).view.read (Elt Ideal) A3) (((cfg0.win 4).blk t).view.read (Elt Ideal) A4) r l).fB k
    = (laneIn A0 A1 A2 A3 A4 ⟨t.val * 512 + r.val, by have := t_lt t; omega⟩ l).fB k
  congr 1
  unfold laneIn
  rw [rd0, rd0, rd1, rd1, rd2, rd2, rd2, rd3, rd3, rd3, rd4, rd4, rd4]

theorem mem_blk6 (t : Fin cfg0.N) (i : S3x31744x128.Idx) :
    i ∈ ((cfg0.win 6).blk t).view.set ↔ ∀ a : Fin 3, win0_6.index t a * S3x512x128.size a ≤ (i a).val ∧ (i a).val < win0_6.index t a * S3x512x128.size a + S3x512x128.size a := by
  show i ∈ ((View.whole main_v26_1).slice (win0_6.rect t)).set ↔ _
  rw [View.set_slice_whole, Rect.mem_set_unit]
  exact Iff.rfl

/-- Every entry of the array lies in the block of the point its row falls in. -/
theorem cover6 (i : S3x31744x128.Idx) :
    ∃ t : Fin cfg0.N, (cfg0.win 6).flush t = true ∧ i ∈ ((cfg0.win 6).blk t).view.set := by
  have h0 : (i 0).val < 3 := (i 0).isLt
  have h1 : (i 1).val < 31744 := (i 1).isLt
  have h2 : (i 2).val < 128 := (i 2).isLt
  have hN : cfg0.N = 62 := N_0
  refine ⟨⟨(i 1).val / 512, by omega⟩, flush0_6 _, ?_⟩
  rw [mem_blk6]
  obtain ⟨e0, e1, e2, e3, e4, e5, e6⟩ := idx_facts ⟨(i 1).val / 512, by omega⟩
  intro a
  rw [e6]
  match a with
  | ⟨0, _⟩ => show 0 * 3 ≤ (i 0).val ∧ (i 0).val < 0 * 3 + 3; omega
  | ⟨1, _⟩ => show (i 1).val / 512 * 512 ≤ (i 1).val ∧ (i 1).val < (i 1).val / 512 * 512 + 512; omega
  | ⟨2, _⟩ => show 0 * 128 ≤ (i 2).val ∧ (i 2).val < 0 * 128 + 128; omega

/-- THE ARRAY after the region, for any such proof data: the lane function of A0 … A4, everywhere. -/
theorem final6_of (c : Dev nD) (dat : Dat τ (Elt Ideal) Unit ℕ (UR sig nD τ) ℕ cfg0 c)
    (A0 : Buf (Elt Ideal) ((c : Thread nD τ).loc main_v17)) (A1 : Buf (Elt Ideal) ((c : Thread nD τ).loc main_v19))
    (A2 : Buf (Elt Ideal) ((c : Thread nD τ).loc main_v21)) (A3 : Buf (Elt Ideal) ((c : Thread nD τ).loc main_v23))
    (A4 : Buf (Elt Ideal) ((c : Thread nD τ).loc main_v25))
    (hafter : ∀ t, dat.after 6 t = laneB (((cfg0.win 0).blk t).view.read (Elt Ideal) A0) (((cfg0.win 1).blk t).view.read (Elt Ideal) A1)
      (((cfg0.win 2).blk t).view.read (Elt Ideal) A2) (((cfg0.win 3).blk t).view.read (Elt Ideal) A3) (((cfg0.win 4).blk t).view.read (Elt Ideal) A4)) :
    dat.arrAt 6 cfg0.N = (show Buf (Elt Ideal) ((c : Thread nD τ).loc main_v26_1) from laneB A0 A1 A2 A3 A4) :=
  dat.arrAt_eq_of_cover 6 _ (fun t _ => flushed6_of c dat A0 A1 A2 A3 A4 hafter t) (cover6)

end Cert.KernelIdeal.Arrays

end
-- ==== Proof.LibNary3.lean ====
/-
  A general fact about host operations: the result of an operation over a literal family of THREE operand references
  (what a three-operand concatenation is), stated in the shape of the four-operand fact.
-/
import Idealize.ShloMosaic.Lib.StableHlo.Run

noncomputable section

namespace Cert.LibNary3

open Idealize.ShloMosaic Idealize.ShloMosaic.StableHlo

variable {τ : Topo} {sig : RefSig} {Val : EltTy → Type}
variable {x a b y : Ref sig .tc}

/-- An operation over the literal family `![x, a, b]` of three references leaves, at its result reference, its
    function applied to the three operands' contents, each read at its own reference: the family
    `fun k => F ↑(![x, a, b] k)` is the explicit triple `(F ↑x, F ↑a, F ↑b)`, because an index below three is 0, 1
    or 2. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same fact with the result reference left out of term indexing. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.PrefixTerms.lean ====
/-
  The terms the host operations before the kernel region compose, as functions of the argument arrays: the two index
  columns of the edge list, one call of the row take, the pad-and-fold of a [3, 4000000] array, and the stack of the
  three material vectors. Definitions only.
-/
import proofs.«429318_j42734924595225_2_alg».proof.Proof.Gen.KernelIdeal.Launch

noncomputable section

namespace Cert.KernelIdeal.PrefixValue

open Idealize.ShloMosaic Cert.KernelIdeal Cert.KernelIdeal.Gen

variable {F : FTy → Type} [FloatOps F]

/-- Column 0 of the edge list as a vector: cut out as one column, then flattened. -/
def colTerm0 (conn : IVec S4000000x2 32) : IVec S4000000 32 :=
  shapeCast S4000000 (extractStridedSlice S4000000x1 ![0, 0] conn slices_S4000000x2_S4000000x1_0_0) shapeCasts_S4000000x1_S4000000

/-- Column 1 of the edge list as a vector. -/
def colTerm1 (conn : IVec S4000000x2 32) : IVec S4000000 32 :=
  shapeCast S4000000 (extractStridedSlice S4000000x1 ![0, 1] conn slices_S4000000x2_S4000000x1_0_1) shapeCasts_S4000000x1_S4000000

/-- The start indices a take call forms from an index vector: an index below zero moved up by the row count, then laid
    out as one column. -/
def takeIdx (idx : IVec S4000000 32) : IVec S4000000x1 32 :=
  broadcastInDim S4000000x1 ![0] bcast_S4000000_S4000000x1_0
    (select (cmpi .slt idx (broadcastInDim S4000000 ![] bcast_S_S4000000 (constantI S_ 32 0#32)))
      (addi idx (broadcastInDim S4000000 ![] bcast_S_S4000000 (constantI S_ 32 1000000#32))) idx)

/-- The take call's mask: per edge, whether its start index lies in [0, 999999]. -/
def takeMask (v5 : IVec S4000000x1 32) : IVec S4000000 1 :=
  Host.reduce IntOp.andi
    (andi (cmpi .sge v5 (broadcastInDim S4000000x1 ![] bcast_S_S4000000x1 (constantI S_ 32 0#32)))
      (cmpi .sle v5 (broadcastInDim S4000000x1 ![0, 1] bcast_S1x1_S4000000x1_0_1
        (broadcastInDim S1x1 ![1] bcast_S1_S1x1_1 (constantI S1 32 999999#32)))))
    (constantI S_ 1 1#1) reducesTo_S4000000x1_S4000000_d1 h_S_

/-- What a take call returns for a node table and an index vector: the gathered rows where the mask holds, the
    not-a-number constant elsewhere. -/
def takeTerm (T : FVec F S1000000x3 .f32) (idx : IVec S4000000 32) : FVec F S4000000x3 .f32 :=
  select (broadcastInDim S4000000x3 ![0] bcast_S4000000_S4000000x3_0 (takeMask (takeIdx idx)))
    (Host.gather gather_S1000000x3_S4000000x1_S4000000x3_1_0_n_n_0_1_13 T (takeIdx idx))
    (broadcastInDim S4000000x3 ![] bcast_S_S4000000x3 (constant (F := F) S_ .f32 0x7FC00000#32))

/-- A per-edge array of rows turned into rows of edges. -/
def transTerm (X : FVec F S4000000x3 .f32) : FVec F S3x4000000 .f32 :=
  transpose S3x4000000 [1, 0] X transposes_S4000000x3_S3x4000000_1_0

/-- The pad value every pad call computes: the integer zero converted to a float. -/
def padV : FVec F S_ .f32 := sitofp .f32 (constantI S_ 32 0#32)

/-- A [3, 4000000] array padded with `v`'s element to 4063232 columns and folded to [3, 31744, 128]. -/
def foldTerm (X : FVec F S3x4000000 .f32) (v : FVec F S_ .f32) : FVec F S3x31744x128 .f32 :=
  shapeCast S3x31744x128 (pad S3x4063232 ![0, 0] ![0, 63232] ![0, 0] X v pads_S3x4000000_S3x4063232_000_0632320 h_S_)
    shapeCasts_S3x4063232_S3x31744x128

/-- The three material vectors, each laid out as one row, stacked. -/
def stackTerm (E A I : FVec F S4000000 .f32) : FVec F S3x4000000 .f32 :=
  concatenate S3x4000000 0
    [⟨S1x4000000, broadcastInDim S1x4000000 ![1] bcast_S4000000_S1x4000000_1 E⟩,
     ⟨S1x4000000, broadcastInDim S1x4000000 ![1] bcast_S4000000_S1x4000000_1 A⟩,
     ⟨S1x4000000, broadcastInDim S1x4000000 ![1] bcast_S4000000_S1x4000000_1 I⟩]
    concatenates_S1x4000000_S1x4000000_S1x4000000_S3x4000000_d0

end Cert.KernelIdeal.PrefixValue

end
-- ==== Proof.PrefixIndex.lean ====
/-
  The terms the host operations before the kernel region compose, read index by index over extended reals.

  Column j of the edge list at edge e is the list's entry (e, j). With every node index in [0, 1000000) a row take
  returns, at (e, k), the table's row named by the index itself (its remainder modulo 1000000) at column k: the
  index is not below zero, so it is not moved; the mask (a reduction by "and" over a one-entry axis of two
  comparisons) holds; and the clamp of the gather leaves it alone. The pad-and-fold of a [3, 4000000] array holds,
  at (a, R, l), the array's entry (a, R * 128 + l) when R * 128 + l < 4000000 and the pad value, zero, beyond. The
  stack of the three material vectors holds the k-th vector in row k.
-/
import proofs.«429318_j42734924595225_2_alg».proof.Proof.PrefixTerms
import proofs.«429318_j42734924595225_2_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.ReduceAll

noncomputable section

namespace Cert.KernelIdeal.PrefixValue

open Idealize.ShloMosaic Idealize.ShloMosaic.ValueIdx Cert.KernelIdeal Cert.KernelIdeal.Gen Cert.Beam

/-! ## The operations' terms read index by index -/

section Pure
variable {α : Type}

/-- Column `k` of a two-column table, cut out as a one-column table and then flattened to a vector: its entry `e`
    is the table's entry `(e, k)` (the flat position of `(e, 0)` in a one-column table is `e`). -/
theorem col_apply (o : Nat) (k : Fin 2) (hk : k.val = o) (A : S4000000x2.Idx → α) (hs : S4000000x2.Slices ![0, o] S4000000x1)
    (hc : S4000000x1.ShapeCasts S4000000) (e : Fin 4000000) :
    shapeCast S4000000 (extractStridedSlice S4000000x1 ![0, o] A hs) hc (ix1 e) = A (ix2 e k) := by
  rw [shapeCast_apply _ hc (ix1 e) (ix2 e (0 : Fin 1)) (by
    rw [Shape.rowMajor_val_two, Shape.rowMajor_val_one]; show e.val * 1 + 0 = e.val; omega)]
  exact slice2_axis1_apply o A hs e 0 k (by rw [hk]; rfl)

/-- A left fold by `and` from the bit 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e1 : IntOp.andi 1#1 1#1 = 1#1 := by decide
    rw [List.foldl_cons, h a List.mem_cons_self, e1]
    exact foldl_andi_one f l (fun n hn => h n (List.mem_cons_of_mem _ hn))

/-- A reduction by `and`, started at 1, of an array of bits that are all 1 is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hall : ∀ i, x i = 1#1)
    (j : t.Idx) : Host.reduce IntOp.andi x init h hu j = 1#1 := by
  rw [Host.reduce_eq_foldl, hinit]
  exact foldl_andi_one x _ (fun n _ => hall n)

/-- A word whose signed value lies in [0, 1000000): its signed value as a natural number, clamped to 999999, is its
    unsigned value, and that is its own remainder modulo 1000000. -/
theorem clamp_eq_mod (x : BitVec 32) (h0 : 0 ≤ x.toInt) (h1 : x.toInt < 1000000) :
    min x.toInt.toNat 999999 = x.toNat % 1000000 := by
  have hc := BitVec.toInt_eq_toNat_cond x
  have hlt := x.isLt
  split at hc <;> omega

/-- The row gather read at `(e, k)`: the table's row named by the start index `idx[e, 0]`, read signed and clamped to
    the last row, at column `k`. -/
theorem gather_row_apply (x : S1000000x3.Idx → α) (idx : IVec S4000000x1 32) (e : Fin 4000000) (k : Fin 3) :
    Host.gather gather_S1000000x3_S4000000x1_S4000000x3_1_0_n_n_0_1_13 x idx (ix2 e k)
      = x (ix2 (⟨min (idx (ix2 e (0 : Fin 1))).toInt.toNat 999999, by omega⟩ : Fin 1000000) k) := by
  unfold Host.gather
  congr 1
  funext a
  refine Fin.ext ?_
  match a with
  | ⟨0, _⟩ =>
    show gather_S1000000x3_S4000000x1_S4000000x3_1_0_n_n_0_1_13.start (ix2 e k) idx 0
      + gather_S1000000x3_S4000000x1_S4000000x3_1_0_n_n_0_1_13.batchCoord (ix2 e k) 0
      + gather_S1000000x3_S4000000x1_S4000000x3_1_0_n_n_0_1_13.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x3_S4000000x1_S4000000x3_1_0_n_n_0_1_13.startIndexMap from List.mem_singleton.mpr rfl)]
    have hsi : gather_S1000000x3_S4000000x1_S4000000x3_1_0_n_n_0_1_13.siIdx (ix2 e k)
        ⟨List.idxOf (0 : Fin 2) gather_S1000000x3_S4000000x1_S4000000x3_1_0_n_n_0_1_13.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S1000000x3_S4000000x1_S4000000x3_1_0_n_n_0_1_13.start (ix2 e k) idx 1
      + gather_S1000000x3_S4000000x1_S4000000x3_1_0_n_n_0_1_13.batchCoord (ix2 e k) 1
      + gather_S1000000x3_S4000000x1_S4000000x3_1_0_n_n_0_1_13.offCoord (ix2 e k) 1 = k.val
    rw [GatherDims.batchCoord_eq_zero _ _ _ List.not_mem_nil]
    unfold GatherDims.start
    rw [dif_neg (by decide)]
    simp only [Nat.add_zero, Nat.zero_add]
    unfold GatherDims.offCoord
    rw [dif_pos (by decide)]
    rfl

end Pure

/-! ## The two index columns -/

/-- The first index vector is column 0 of the edge list. -/
theorem colTerm0_eq (conn : IVec S4000000x2 32) : colTerm0 conn = fun i : S4000000.Idx => conn (ix2 (i 0) (0 : Fin 2)) := by
  funext i
  obtain ⟨e, rfl⟩ : ∃ e : Fin 4000000, i = ix1 e := ⟨i 0, eq_ix1 i⟩
  exact col_apply 0 0 rfl _ _ _ e

/-- The second index vector is column 1 of the edge list. -/
theorem colTerm1_eq (conn : IVec S4000000x2 32) : colTerm1 conn = fun i : S4000000.Idx => conn (ix2 (i 0) (1 : Fin 2)) := by
  funext i
  obtain ⟨e, rfl⟩ : ∃ e : Fin 4000000, i = ix1 e := ⟨i 0, eq_ix1 i⟩
  exact col_apply 1 1 rfl _ _ _ e

/-! ## One call of the row-take function -/

/-- A non-negative index is left as it is: the start index of edge `e` is the index itself. -/
theorem takeIdx_apply (idx : IVec S4000000 32) (e : Fin 4000000) (p : Fin 1) (h0 : 0 ≤ (idx (ix1 e)).toInt) :
    takeIdx idx (ix2 e p) = idx (ix1 e) := by
  unfold takeIdx
  rw [broadcastInDim_apply _ _ _ (ix2 e p) (ix1 e) (fun a => match a with | ⟨0, _⟩ => rfl), select_apply]
  have hc : cmpi .slt idx (broadcastInDim S4000000 ![] bcast_S_S4000000 (constantI S_ 32 0#32)) (ix1 e) = 0#1 := by
    apply eq_zero_of_ne_one
    intro h1
    have h2 : (idx (ix1 e)).toInt < (0#32 : BitVec 32).toInt := IntOp.cmpi_slt.mp h1
    have h3 : (0#32 : BitVec 32).toInt = 0 := by decide
    omega
  rw [hc, select_zero]

/-- With every index in [0, 1000000) the mask holds at every edge. -/
theorem takeMask_apply (idx : IVec S4000000 32)
    (hr : ∀ e : Fin 4000000, 0 ≤ (idx (ix1 e)).toInt ∧ (idx (ix1 e)).toInt < 1000000) (e : Fin 4000000) :
    takeMask (takeIdx idx) (ix1 e) = 1#1 := by
  unfold takeMask
  refine reduce_andi_one _ _ _ _ rfl (fun i => ?_) _
  obtain ⟨e', p, rfl⟩ : ∃ (e' : Fin 4000000) (p : Fin 1), i = ix2 e' p := ⟨i 0, i 1, eq_ix2 i⟩
  have hv := takeIdx_apply idx e' p (hr e').1
  have h999 : (999999#32 : BitVec 32).toInt = 999999 := by decide
  have h000 : (0#32 : BitVec 32).toInt = 0 := by decide
  have c1 : IntOp.cmpi .sge (takeIdx idx (ix2 e' p)) 0#32 = 1#1 :=
    IntOp.cmpi_sge.mpr (by rw [hv, h000]; exact (hr e').1)
  have c2 : IntOp.cmpi .sle (takeIdx idx (ix2 e' p)) 999999#32 = 1#1 :=
    IntOp.cmpi_sle.mpr (by rw [hv, h999]; have := (hr e').2; omega)
  show IntOp.andi (IntOp.cmpi .sge (takeIdx idx (ix2 e' p)) 0#32) (IntOp.cmpi .sle (takeIdx idx (ix2 e' p)) 999999#32) = 1#1
  rw [c1, c2]; decide

/-- With every index in [0, 1000000) the take call returns, at `(e, k)`, the table's row `idx[e]` (the word itself, which
    is its remainder modulo 1000000) at column `k`. -/
theorem takeTerm_apply (T : FVec Ideal S1000000x3 .f32) (idx : IVec S4000000 32)
    (hr : ∀ e : Fin 4000000, 0 ≤ (idx (ix1 e)).toInt ∧ (idx (ix1 e)).toInt < 1000000) (e : Fin 4000000) (k : Fin 3) :
    takeTerm T idx (ix2 e k)
      = T (ix2 (⟨(idx (ix1 e)).toNat % 1000000, Nat.mod_lt _ (by norm_num)⟩ : Fin 1000000) k) := by
  unfold takeTerm
  rw [select_apply, broadcastInDim_apply _ _ _ (ix2 e k) (ix1 e) (fun a => match a with | ⟨0, _⟩ => rfl),
    takeMask_apply idx hr e, select_one, gather_row_apply]
  congr 1
  have hv := takeIdx_apply idx e 0 (hr e).1
  have := clamp_eq_mod (idx (ix1 e)) (hr e).1 (hr e).2
  funext a
  match a with
  | ⟨0, _⟩ => exact Fin.ext (by show min (takeIdx idx (ix2 e 0)).toInt.toNat 999999 = _; rw [hv]; exact this)
  | ⟨1, _⟩ => rfl

/-! ## Padding the edge axis and folding it into rows of 128 -/

/-- The pad value of every pad call: the integer zero converted to a float, which is zero. -/
theorem padValue_eq : (padV : FVec Ideal S_ .f32) (Shape.Idx.first h_S_) = 0 := by
  show ((((0#32 : BitVec 32).toInt : ℤ) : ℝ) : EReal) = 0
  simp

/-- The folded array at `(a, R, l)` is the unfolded one at column `R * 128 + l` of row `a` when that column is below
    4000000, and the pad value beyond. -/
theorem foldTerm_apply (X : FVec Ideal S3x4000000 .f32) (v : FVec Ideal S_ .f32) (a : Fin 3) (R : Fin 31744) (l : Fin 128) :
    foldTerm X v (ix3 a R l)
      = if h : R.val * 128 + l.val < 4000000 then X (ix2 a (⟨R.val * 128 + l.val, h⟩ : Fin 4000000))
        else v (Shape.Idx.first h_S_) := by
  have hm : R.val * 128 + l.val < 4063232 := by have := R.isLt; have := l.isLt; omega
  unfold foldTerm
  rw [shapeCast_apply _ _ (ix3 a R l) (ix2 a (⟨R.val * 128 + l.val, hm⟩ : Fin 4063232)) (by
    rw [Shape.rowMajor_val_two, Shape.rowMajor_val_three]
    show a.val * 4063232 + (R.val * 128 + l.val) = (a.val * 31744 + R.val) * 128 + l.val
    omega)]
  by_cases h : R.val * 128 + l.val < 4000000
  · rw [dif_pos h]
    exact pad_apply_of_inside _ _ _ X v _ _ _ (ix2 a (⟨R.val * 128 + l.val, h⟩ : Fin 4000000)) (fun ax =>
      match ax with
      | ⟨0, _⟩ => by show a.val = 0 + a.val * (0 + 1); omega
      | ⟨1, _⟩ => by show R.val * 128 + l.val = 0 + (R.val * 128 + l.val) * (0 + 1); omega)
  · rw [dif_neg h]
    exact pad_apply_of_not_inside _ _ _ X v _ _ _ (1 : Fin 2) (by
      show ¬(0 ≤ R.val * 128 + l.val ∧ (R.val * 128 + l.val - 0) % (0 + 1) = 0 ∧ (R.val * 128 + l.val - 0) / (0 + 1) < 4000000)
      omega)

/-- Row `k` of the stack is the `k`-th of the three vectors. -/
theorem stackTerm_apply (E A I : FVec Ideal S4000000 .f32) (k : Fin 3) (e : Fin 4000000) :
    stackTerm E A I (ix2 k e) = (![E (ix1 e), A (ix1 e), I (ix1 e)] : Fin 3 → EReal) k := by
  unfold stackTerm
  have hb : ∀ (Y : FVec Ideal S4000000 .f32),
      broadcastInDim S1x4000000 ![1] bcast_S4000000_S1x4000000_1 Y (ix2 (0 : Fin 1) e) = Y (ix1 e) := fun Y =>
    broadcastInDim_apply _ _ _ (ix2 (0 : Fin 1) e) (ix1 e) (fun a => match a with | ⟨0, _⟩ => rfl)
  match k with
  | ⟨0, _⟩ =>
    rw [concatenate_apply_piece (0 : Fin 2) _ _ (ix2 (⟨0, by omega⟩ : Fin 3) e) 0 (by show (0 : Nat) < 3; omega) S1x4000000 _ rfl rfl 0 rfl
      (ix2 (0 : Fin 1) e) (fun b hb' => match b with | ⟨0, _⟩ => absurd rfl hb' | ⟨1, _⟩ => rfl) rfl]
    exact hb E
  | ⟨1, _⟩ =>
    rw [concatenate_apply_piece (0 : Fin 2) _ _ (ix2 (⟨1, by omega⟩ : Fin 3) e) 1 (by show (1 : Nat) < 3; omega) S1x4000000 _ rfl rfl 1 rfl
      (ix2 (0 : Fin 1) e) (fun b hb' => match b with | ⟨0, _⟩ => absurd rfl hb' | ⟨1, _⟩ => rfl) rfl]
    exact hb A
  | ⟨2, _⟩ =>
    rw [concatenate_apply_piece (0 : Fin 2) _ _ (ix2 (⟨2, by omega⟩ : Fin 3) e) 2 (by show (2 : Nat) < 3; omega) S1x4000000 _ rfl rfl 2 rfl
      (ix2 (0 : Fin 1) e) (fun b hb' => match b with | ⟨0, _⟩ => absurd rfl hb' | ⟨1, _⟩ => rfl) rfl]
    exact hb I

/-! ## The folded arrays against the index-level specification -/

/-- The folded transpose of a take by column `jj` of the edge list is the padded row gather of the specification:
    inside the 4000000 edges the take returns the row the edge's end names, beyond them both are zero. -/
theorem gathFold_eq (T : FVec Ideal S1000000x3 .f32) (conn : IVec S4000000x2 32) (h : InRange conn) (jj : Fin 2) :
    foldTerm (transTerm (takeTerm T (fun i : S4000000.Idx => conn (ix2 (i 0) jj)))) padV = padRows (gath T conn jj) := by
  funext j
  obtain ⟨a, R, l, rfl⟩ : ∃ (a : Fin 3) (R : Fin 31744) (l : Fin 128), j = ix3 a R l := ⟨j 0, j 1, j 2, eq_ix3 j⟩
  rw [foldTerm_apply, padValue_eq]
  show _ = if h : R.val * 128 + l.val < 4000000 then gath T conn jj a ⟨R.val * 128 + l.val, h⟩ else 0
  by_cases hlt : R.val * 128 + l.val < 4000000
  · rw [dif_pos hlt, dif_pos hlt]
    unfold transTerm
    rw [transpose_ix2_apply, takeTerm_apply T _ (fun e => h e jj) ⟨R.val * 128 + l.val, hlt⟩ a]
    rfl
  · rw [dif_neg hlt, dif_neg hlt]

/-- The region's first and third inputs: a take by column 0. -/
theorem gathFold0_eq (T : FVec Ideal S1000000x3 .f32) (conn : IVec S4000000x2 32) (h : InRange conn) :
    foldTerm (transTerm (takeTerm T (colTerm0 conn))) padV = padRows (gath T conn 0) := by
  rw [colTerm0_eq]; exact gathFold_eq T conn h 0

/-- The region's second and fourth inputs: a take by column 1. -/
theorem gathFold1_eq (T : FVec Ideal S1000000x3 .f32) (conn : IVec S4000000x2 32) (h : InRange conn) :
    foldTerm (transTerm (takeTerm T (colTerm1 conn))) padV = padRows (gath T conn 1) := by
  rw [colTerm1_eq]; exact gathFold_eq T conn h 1

/-- The folded stack of the material vectors is the padded stack of the specification. -/
theorem stackFold_eq (E A I : FVec Ideal S4000000 .f32) : foldTerm (stackTerm E A I) padV = padRows (eai E A I) := by
  funext j
  obtain ⟨a, R, l, rfl⟩ : ∃ (a : Fin 3) (R : Fin 31744) (l : Fin 128), j = ix3 a R l := ⟨j 0, j 1, j 2, eq_ix3 j⟩
  rw [foldTerm_apply, padValue_eq]
  show _ = if h : R.val * 128 + l.val < 4000000 then eai E A I a ⟨R.val * 128 + l.val, h⟩ else 0
  by_cases hlt : R.val * 128 + l.val < 4000000
  · rw [dif_pos hlt, dif_pos hlt, stackTerm_apply]
    rfl
  · rw [dif_neg hlt, dif_neg hlt]

end Cert.KernelIdeal.PrefixValue

end
-- ==== Proof.PrefixValue.lean ====
/-
  What the host operations before the kernel region leave in the region's five input arrays and in the two index
  vectors, as functions of the program's argument arrays.

  The prefix is sixteen stretches of operations. The first cuts the edge list into its two columns. Four calls of
  the row take follow, each reading one node table and one column and writing one per-edge array; then the
  transposes, the stack of the three material vectors, and five calls of the pad function, each followed by the fold
  of the padded edge axis into rows of 128. Each stretch is read by itself, for any contents before it: what it
  writes as a term of what it reads, and what it leaves alone. The stretches compose to the terms of the argument
  arrays; over extended reals, with every node index in range, those terms are the padded gathers and the padded
  stack of the index-level specification.
-/
import proofs.«429318_j42734924595225_2_alg».proof.Proof.Gen.KernelIdeal.Launch
import proofs.«429318_j42734924595225_2_alg».proof.Proof.Spec
import proofs.«429318_j42734924595225_2_alg».proof.Proof.LibNary3
import proofs.«429318_j42734924595225_2_alg».proof.Proof.PrefixTerms
import proofs.«429318_j42734924595225_2_alg».proof.Proof.PrefixIndex
import Idealize.ShloMosaic.Lib.StableHlo.Run
import Idealize.ShloMosaic.Lib.ValueIdx

noncomputable section

namespace Cert.KernelIdeal.PrefixValue

open Idealize.ShloMosaic Idealize.ShloMosaic.ValueIdx Cert.KernelIdeal Cert.KernelIdeal.Gen Cert.Beam StableHlo

/-! ## The host operations before the kernel region, stretch by stretch -/

variable {F : FTy → Type} [FloatOps F]

/-- The host operations before the kernel region, at any float instance. -/
abbrev preF : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- The operations after the four take calls: the transposes, the stack of the material vectors, the five pad calls
    and the folds. -/
abbrev tail : List (HloOp τ sig (Elt F)) := List.flatten [hostOps0_5, hostOps0_6, hostOps0_7, hostOps0_8, hostOps0_9, hostOps0_10, hostOps0_11, hostOps0_12, hostOps0_13, hostOps0_14, hostOps0_15]

/-- Each operation's result at its own result reference is its function of its operands' contents, and at any other
    reference what was there; the three-operand stack among them. -/
macro "after_simp3" : tactic =>
  `(tactic| (simp (disch := decide) only [after_cons, after_nil,
      nullary_result', unary_result', binary_result', ternary_result', reshape_result', Cert.LibNary3.nary3_result',
      nullary_result_ne', unary_result_ne', binary_result_ne', ternary_result_ne', reshape_result_ne', nary_result_ne']))

/-- Running two lists of operations one after the other is running their concatenation. -/
theorem after_app {Val : EltTy → Type} : ∀ (l₁ l₂ : List (HloOp τ sig Val)) (V : Valuation τ sig Val),
    StableHlo.after (l₁ ++ l₂) V = StableHlo.after l₂ (StableHlo.after l₁ V)
  | [], _, _ => rfl
  | op :: l₁, l₂, V => by rw [List.cons_append, after_cons, after_cons, after_app l₁ l₂]

/-- The prefix is its first five stretches, then the rest. -/
theorem pre_eq (W : Valuation τ sig (Elt F)) :
    StableHlo.after preF W
      = StableHlo.after tail (StableHlo.after hostOps0_4 (StableHlo.after hostOps0_3 (StableHlo.after hostOps0_2
          (StableHlo.after hostOps0_1 (StableHlo.after hostOps0 W))))) := by
  simp only [preF, tail, List.flatten_cons, List.flatten_nil, List.append_nil, after_app]

section Casts
variable {sig : RefSig} {Val : EltTy → Type} {T : BufTy}
/-- Contents moved to a reference's own type and back are the contents. -/
theorem ofBuf_toBuf (x : StableHlo.TRef sig T) (v : T.Contents Val) : x.ofBuf (x.toBuf v) = v := by
  obtain ⟨r, rfl, _, _⟩ := x
  rfl
end Casts

/-! At a literal reference the move between the value's type and the reference's own type is the identity. -/
theorem toBuf_v4 (v : (⟨S4000000x3, .f32⟩ : BufTy).Contents (Elt F)) :
    (TRef.of main_v4 : TRef sig ⟨S4000000x3, .f32⟩).toBuf v = v := rfl
theorem toBuf_v5 (v : (⟨S4000000x3, .f32⟩ : BufTy).Contents (Elt F)) :
    (TRef.of main_v5 : TRef sig ⟨S4000000x3, .f32⟩).toBuf v = v := rfl
theorem toBuf_v6 (v : (⟨S4000000x3, .f32⟩ : BufTy).Contents (Elt F)) :
    (TRef.of main_v6 : TRef sig ⟨S4000000x3, .f32⟩).toBuf v = v := rfl
theorem toBuf_v7 (v : (⟨S4000000x3, .f32⟩ : BufTy).Contents (Elt F)) :
    (TRef.of main_v7 : TRef sig ⟨S4000000x3, .f32⟩).toBuf v = v := rfl
theorem ofBuf_v1 (v : (⟨S4000000, .i32⟩ : BufTy).Contents (Elt F)) :
    (TRef.of main_v1 : TRef sig ⟨S4000000, .i32⟩).ofBuf v = v := rfl
theorem ofBuf_v3 (v : (⟨S4000000, .i32⟩ : BufTy).Contents (Elt F)) :
    (TRef.of main_v3 : TRef sig ⟨S4000000, .i32⟩).ofBuf v = v := rfl
theorem ofBuf_arg0 (v : (⟨S1000000x3, .f32⟩ : BufTy).Contents (Elt F)) :
    (TRef.of main_arg0 : TRef sig ⟨S1000000x3, .f32⟩).ofBuf v = v := rfl
theorem ofBuf_arg2 (v : (⟨S1000000x3, .f32⟩ : BufTy).Contents (Elt F)) :
    (TRef.of main_arg2 : TRef sig ⟨S1000000x3, .f32⟩).ofBuf v = v := rfl
theorem ofBuf_c (v : (⟨S_, .i32⟩ : BufTy).Contents (Elt F)) :
    (TRef.of main_c : TRef sig ⟨S_, .i32⟩).ofBuf v = v := rfl
theorem ofBuf_c_0 (v : (⟨S_, .i32⟩ : BufTy).Contents (Elt F)) :
    (TRef.of main_c_0 : TRef sig ⟨S_, .i32⟩).ofBuf v = v := rfl
theorem ofBuf_c_1 (v : (⟨S_, .i32⟩ : BufTy).Contents (Elt F)) :
    (TRef.of main_c_1 : TRef sig ⟨S_, .i32⟩).ofBuf v = v := rfl
theorem ofBuf_c_2 (v : (⟨S_, .i32⟩ : BufTy).Contents (Elt F)) :
    (TRef.of main_c_2 : TRef sig ⟨S_, .i32⟩).ofBuf v = v := rfl
theorem ofBuf_c_3 (v : (⟨S_, .i32⟩ : BufTy).Contents (Elt F)) :
    (TRef.of main_c_3 : TRef sig ⟨S_, .i32⟩).ofBuf v = v := rfl
theorem ofBuf_v8 (v : (⟨S3x4000000, .f32⟩ : BufTy).Contents (Elt F)) :
    (TRef.of main_v8 : TRef sig ⟨S3x4000000, .f32⟩).ofBuf v = v := rfl
theorem ofBuf_v9 (v : (⟨S3x4000000, .f32⟩ : BufTy).Contents (Elt F)) :
    (TRef.of main_v9 : TRef sig ⟨S3x4000000, .f32⟩).ofBuf v = v := rfl
theorem ofBuf_v10 (v : (⟨S3x4000000, .f32⟩ : BufTy).Contents (Elt F)) :
    (TRef.of main_v10 : TRef sig ⟨S3x4000000, .f32⟩).ofBuf v = v := rfl
theorem ofBuf_v11 (v : (⟨S3x4000000, .f32⟩ : BufTy).Contents (Elt F)) :
    (TRef.of main_v11 : TRef sig ⟨S3x4000000, .f32⟩).ofBuf v = v := rfl
theorem ofBuf_v15 (v : (⟨S3x4000000, .f32⟩ : BufTy).Contents (Elt F)) :
    (TRef.of main_v15 : TRef sig ⟨S3x4000000, .f32⟩).ofBuf v = v := rfl
theorem toBuf_v16 (v : (⟨S3x4063232, .f32⟩ : BufTy).Contents (Elt F)) :
    (TRef.of main_v16 : TRef sig ⟨S3x4063232, .f32⟩).toBuf v = v := rfl
theorem toBuf_v18 (v : (⟨S3x4063232, .f32⟩ : BufTy).Contents (Elt F)) :
    (TRef.of main_v18 : TRef sig ⟨S3x4063232, .f32⟩).toBuf v = v := rfl
theorem toBuf_v20 (v : (⟨S3x4063232, .f32⟩ : BufTy).Contents (Elt F)) :
    (TRef.of main_v20 : TRef sig ⟨S3x4063232, .f32⟩).toBuf v = v := rfl
theorem toBuf_v22 (v : (⟨S3x4063232, .f32⟩ : BufTy).Contents (Elt F)) :
    (TRef.of main_v22 : TRef sig ⟨S3x4063232, .f32⟩).toBuf v = v := rfl
theorem toBuf_v24 (v : (⟨S3x4063232, .f32⟩ : BufTy).Contents (Elt F)) :
    (TRef.of main_v24 : TRef sig ⟨S3x4063232, .f32⟩).toBuf v = v := rfl

section Stages
variable (V : Valuation τ sig (Elt F))

/-- The first stretch leaves in the two index vectors the two columns of the edge list. -/
theorem A_v1 : StableHlo.after (hostOps0 (F := F)) V (Proc.devRef .tc main_v1) = colTerm0 (V (Proc.devRef .tc main_arg1)) := by
  after_simp3
  unfold colTerm0
  rfl
theorem A_v3 : StableHlo.after (hostOps0 (F := F)) V (Proc.devRef .tc main_v3) = colTerm1 (V (Proc.devRef .tc main_arg1)) := by
  after_simp3
  unfold colTerm1
  rfl

/-! Each take call leaves its term of its table and its index vector in its result. -/
theorem T1_v4 : StableHlo.after (hostOps0_1 (F := F)) V (Proc.devRef .tc main_v4)
    = takeTerm (V (Proc.devRef .tc main_arg2)) (V (Proc.devRef .tc main_v1)) := by
  after_simp3
  simp only [ofBuf_toBuf]
  rw [toBuf_v4]
  simp only [ofBuf_arg2, ofBuf_v1]
  unfold takeTerm takeMask takeIdx
  rfl
theorem T2_v5 : StableHlo.after (hostOps0_2 (F := F)) V (Proc.devRef .tc main_v5)
    = takeTerm (V (Proc.devRef .tc main_arg2)) (V (Proc.devRef .tc main_v3)) := by
  after_simp3
  simp only [ofBuf_toBuf]
  rw [toBuf_v5]
  simp only [ofBuf_arg2, ofBuf_v3]
  unfold takeTerm takeMask takeIdx
  rfl
theorem T3_v6 : StableHlo.after (hostOps0_3 (F := F)) V (Proc.devRef .tc main_v6)
    = takeTerm (V (Proc.devRef .tc main_arg0)) (V (Proc.devRef .tc main_v1)) := by
  after_simp3
  simp only [ofBuf_toBuf]
  rw [toBuf_v6]
  simp only [ofBuf_arg0, ofBuf_v1]
  unfold takeTerm takeMask takeIdx
  rfl
theorem T4_v7 : StableHlo.after (hostOps0_4 (F := F)) V (Proc.devRef .tc main_v7)
    = takeTerm (V (Proc.devRef .tc main_arg0)) (V (Proc.devRef .tc main_v3)) := by
  after_simp3
  simp only [ofBuf_toBuf]
  rw [toBuf_v7]
  simp only [ofBuf_arg0, ofBuf_v3]
  unfold takeTerm takeMask takeIdx
  rfl

/-! What each stretch leaves untouched. -/
theorem A_arg0 : StableHlo.after (hostOps0 (F := F)) V (Proc.devRef .tc main_arg0) = V (Proc.devRef .tc main_arg0) := by
  after_simp3
theorem A_arg2 : StableHlo.after (hostOps0 (F := F)) V (Proc.devRef .tc main_arg2) = V (Proc.devRef .tc main_arg2) := by
  after_simp3
theorem A_arg3 : StableHlo.after (hostOps0 (F := F)) V (Proc.devRef .tc main_arg3) = V (Proc.devRef .tc main_arg3) := by
  after_simp3
theorem A_arg4 : StableHlo.after (hostOps0 (F := F)) V (Proc.devRef .tc main_arg4) = V (Proc.devRef .tc main_arg4) := by
  after_simp3
theorem A_arg5 : StableHlo.after (hostOps0 (F := F)) V (Proc.devRef .tc main_arg5) = V (Proc.devRef .tc main_arg5) := by
  after_simp3
theorem T1_v1 : StableHlo.after (hostOps0_1 (F := F)) V (Proc.devRef .tc main_v1) = V (Proc.devRef .tc main_v1) := by
  after_simp3
theorem T1_v3 : StableHlo.after (hostOps0_1 (F := F)) V (Proc.devRef .tc main_v3) = V (Proc.devRef .tc main_v3) := by
  after_simp3
theorem T1_arg0 : StableHlo.after (hostOps0_1 (F := F)) V (Proc.devRef .tc main_arg0) = V (Proc.devRef .tc main_arg0) := by
  after_simp3
theorem T1_arg2 : StableHlo.after (hostOps0_1 (F := F)) V (Proc.devRef .tc main_arg2) = V (Proc.devRef .tc main_arg2) := by
  after_simp3
theorem T1_arg3 : StableHlo.after (hostOps0_1 (F := F)) V (Proc.devRef .tc main_arg3) = V (Proc.devRef .tc main_arg3) := by
  after_simp3
theorem T1_arg4 : StableHlo.after (hostOps0_1 (F := F)) V (Proc.devRef .tc main_arg4) = V (Proc.devRef .tc main_arg4) := by
  after_simp3
theorem T1_arg5 : StableHlo.after (hostOps0_1 (F := F)) V (Proc.devRef .tc main_arg5) = V (Proc.devRef .tc main_arg5) := by
  after_simp3
theorem T2_v4 : StableHlo.after (hostOps0_2 (F := F)) V (Proc.devRef .tc main_v4) = V (Proc.devRef .tc main_v4) := by
  after_simp3
theorem T2_v1 : StableHlo.after (hostOps0_2 (F := F)) V (Proc.devRef .tc main_v1) = V (Proc.devRef .tc main_v1) := by
  after_simp3
theorem T2_v3 : StableHlo.after (hostOps0_2 (F := F)) V (Proc.devRef .tc main_v3) = V (Proc.devRef .tc main_v3) := by
  after_simp3
theorem T2_arg0 : StableHlo.after (hostOps0_2 (F := F)) V (Proc.devRef .tc main_arg0) = V (Proc.devRef .tc main_arg0) := by
  after_simp3
theorem T2_arg3 : StableHlo.after (hostOps0_2 (F := F)) V (Proc.devRef .tc main_arg3) = V (Proc.devRef .tc main_arg3) := by
  after_simp3
theorem T2_arg4 : StableHlo.after (hostOps0_2 (F := F)) V (Proc.devRef .tc main_arg4) = V (Proc.devRef .tc main_arg4) := by
  after_simp3
theorem T2_arg5 : StableHlo.after (hostOps0_2 (F := F)) V (Proc.devRef .tc main_arg5) = V (Proc.devRef .tc main_arg5) := by
  after_simp3
theorem T3_v4 : StableHlo.after (hostOps0_3 (F := F)) V (Proc.devRef .tc main_v4) = V (Proc.devRef .tc main_v4) := by
  after_simp3
theorem T3_v5 : StableHlo.after (hostOps0_3 (F := F)) V (Proc.devRef .tc main_v5) = V (Proc.devRef .tc main_v5) := by
  after_simp3
theorem T3_v1 : StableHlo.after (hostOps0_3 (F := F)) V (Proc.devRef .tc main_v1) = V (Proc.devRef .tc main_v1) := by
  after_simp3
theorem T3_v3 : StableHlo.after (hostOps0_3 (F := F)) V (Proc.devRef .tc main_v3) = V (Proc.devRef .tc main_v3) := by
  after_simp3
theorem T3_arg0 : StableHlo.after (hostOps0_3 (F := F)) V (Proc.devRef .tc main_arg0) = V (Proc.devRef .tc main_arg0) := by
  after_simp3
theorem T3_arg3 : StableHlo.after (hostOps0_3 (F := F)) V (Proc.devRef .tc main_arg3) = V (Proc.devRef .tc main_arg3) := by
  after_simp3
theorem T3_arg4 : StableHlo.after (hostOps0_3 (F := F)) V (Proc.devRef .tc main_arg4) = V (Proc.devRef .tc main_arg4) := by
  after_simp3
theorem T3_arg5 : StableHlo.after (hostOps0_3 (F := F)) V (Proc.devRef .tc main_arg5) = V (Proc.devRef .tc main_arg5) := by
  after_simp3
theorem T4_v4 : StableHlo.after (hostOps0_4 (F := F)) V (Proc.devRef .tc main_v4) = V (Proc.devRef .tc main_v4) := by
  after_simp3
theorem T4_v5 : StableHlo.after (hostOps0_4 (F := F)) V (Proc.devRef .tc main_v5) = V (Proc.devRef .tc main_v5) := by
  after_simp3
theorem T4_v6 : StableHlo.after (hostOps0_4 (F := F)) V (Proc.devRef .tc main_v6) = V (Proc.devRef .tc main_v6) := by
  after_simp3
theorem T4_v1 : StableHlo.after (hostOps0_4 (F := F)) V (Proc.devRef .tc main_v1) = V (Proc.devRef .tc main_v1) := by
  after_simp3
theorem T4_v3 : StableHlo.after (hostOps0_4 (F := F)) V (Proc.devRef .tc main_v3) = V (Proc.devRef .tc main_v3) := by
  after_simp3
theorem T4_arg3 : StableHlo.after (hostOps0_4 (F := F)) V (Proc.devRef .tc main_arg3) = V (Proc.devRef .tc main_arg3) := by
  after_simp3
theorem T4_arg4 : StableHlo.after (hostOps0_4 (F := F)) V (Proc.devRef .tc main_arg4) = V (Proc.devRef .tc main_arg4) := by
  after_simp3
theorem T4_arg5 : StableHlo.after (hostOps0_4 (F := F)) V (Proc.devRef .tc main_arg5) = V (Proc.devRef .tc main_arg5) := by
  after_simp3

/-! The rest leaves in the region's five inputs the folded transposes of the four gathered arrays and the folded
    stack, and leaves the two index vectors alone. -/
theorem tail_v17 : StableHlo.after (tail (F := F)) V (Proc.devRef .tc main_v17)
    = foldTerm (transTerm (V (Proc.devRef .tc main_v4))) padV := by
  simp only [tail, List.flatten_cons, List.flatten_nil, List.append_nil, List.cons_append, List.nil_append]
  after_simp3
  simp only [ofBuf_toBuf]
  simp only [toBuf_v16, ofBuf_v8, ofBuf_c]
  unfold foldTerm transTerm padV
  rfl
theorem tail_v19 : StableHlo.after (tail (F := F)) V (Proc.devRef .tc main_v19)
    = foldTerm (transTerm (V (Proc.devRef .tc main_v5))) padV := by
  simp only [tail, List.flatten_cons, List.flatten_nil, List.append_nil, List.cons_append, List.nil_append]
  after_simp3
  simp only [ofBuf_toBuf]
  simp only [toBuf_v18, ofBuf_v9, ofBuf_c_0]
  unfold foldTerm transTerm padV
  rfl
theorem tail_v21 : StableHlo.after (tail (F := F)) V (Proc.devRef .tc main_v21)
    = foldTerm (transTerm (V (Proc.devRef .tc main_v6))) padV := by
  simp only [tail, List.flatten_cons, List.flatten_nil, List.append_nil, List.cons_append, List.nil_append]
  after_simp3
  simp only [ofBuf_toBuf]
  simp only [toBuf_v20, ofBuf_v10, ofBuf_c_1]
  unfold foldTerm transTerm padV
  rfl
theorem tail_v23 : StableHlo.after (tail (F := F)) V (Proc.devRef .tc main_v23)
    = foldTerm (transTerm (V (Proc.devRef .tc main_v7))) padV := by
  simp only [tail, List.flatten_cons, List.flatten_nil, List.append_nil, List.cons_append, List.nil_append]
  after_simp3
  simp only [ofBuf_toBuf]
  simp only [toBuf_v22, ofBuf_v11, ofBuf_c_2]
  unfold foldTerm transTerm padV
  rfl
theorem tail_v25 : StableHlo.after (tail (F := F)) V (Proc.devRef .tc main_v25)
    = foldTerm (stackTerm (V (Proc.devRef .tc main_arg3)) (V (Proc.devRef .tc main_arg4)) (V (Proc.devRef .tc main_arg5))) padV := by
  simp only [tail, List.flatten_cons, List.flatten_nil, List.append_nil, List.cons_append, List.nil_append]
  after_simp3
  simp only [ofBuf_toBuf]
  simp only [toBuf_v24, ofBuf_v15, ofBuf_c_3]
  unfold foldTerm stackTerm padV
  rfl
theorem tail_v1 : StableHlo.after (tail (F := F)) V (Proc.devRef .tc main_v1) = V (Proc.devRef .tc main_v1) := by
  simp only [tail, List.flatten_cons, List.flatten_nil, List.append_nil, List.cons_append, List.nil_append]
  after_simp3
theorem tail_v3 : StableHlo.after (tail (F := F)) V (Proc.devRef .tc main_v3) = V (Proc.devRef .tc main_v3) := by
  simp only [tail, List.flatten_cons, List.flatten_nil, List.append_nil, List.cons_append, List.nil_append]
  after_simp3

end Stages

/-! ## What the prefix leaves in the region's inputs, as terms of the argument arrays -/

section Terms
variable (W : Valuation τ sig (Elt F))

theorem v1_term : StableHlo.after (preF (F := F)) W (Proc.devRef .tc main_v1) = colTerm0 (W (Proc.devRef .tc main_arg1)) := by
  rw [pre_eq, tail_v1, T4_v1, T3_v1, T2_v1, T1_v1, A_v1]

theorem v3_term : StableHlo.after (preF (F := F)) W (Proc.devRef .tc main_v3) = colTerm1 (W (Proc.devRef .tc main_arg1)) := by
  rw [pre_eq, tail_v3, T4_v3, T3_v3, T2_v3, T1_v3, A_v3]

theorem v17_term : StableHlo.after (preF (F := F)) W (Proc.devRef .tc main_v17)
    = foldTerm (transTerm (takeTerm (W (Proc.devRef .tc main_arg2)) (colTerm0 (W (Proc.devRef .tc main_arg1))))) padV := by
  rw [pre_eq, tail_v17, T4_v4, T3_v4, T2_v4, T1_v4, A_arg2, A_v1]

theorem v19_term : StableHlo.after (preF (F := F)) W (Proc.devRef .tc main_v19)
    = foldTerm (transTerm (takeTerm (W (Proc.devRef .tc main_arg2)) (colTerm1 (W (Proc.devRef .tc main_arg1))))) padV := by
  rw [pre_eq, tail_v19, T4_v5, T3_v5, T2_v5, T1_arg2, T1_v3, A_arg2, A_v3]

theorem v21_term : StableHlo.after (preF (F := F)) W (Proc.devRef .tc main_v21)
    = foldTerm (transTerm (takeTerm (W (Proc.devRef .tc main_arg0)) (colTerm0 (W (Proc.devRef .tc main_arg1))))) padV := by
  rw [pre_eq, tail_v21, T4_v6, T3_v6, T2_arg0, T2_v1, T1_arg0, T1_v1, A_arg0, A_v1]

theorem v23_term : StableHlo.after (preF (F := F)) W (Proc.devRef .tc main_v23)
    = foldTerm (transTerm (takeTerm (W (Proc.devRef .tc main_arg0)) (colTerm1 (W (Proc.devRef .tc main_arg1))))) padV := by
  rw [pre_eq, tail_v23, T4_v7, T3_arg0, T3_v3, T2_arg0, T2_v3, T1_arg0, T1_v3, A_arg0, A_v3]

theorem v25_term : StableHlo.after (preF (F := F)) W (Proc.devRef .tc main_v25)
    = foldTerm (stackTerm (W (Proc.devRef .tc main_arg3)) (W (Proc.devRef .tc main_arg4)) (W (Proc.devRef .tc main_arg5))) padV := by
  rw [pre_eq, tail_v25, T4_arg3, T4_arg4, T4_arg5, T3_arg3, T3_arg4, T3_arg5, T2_arg3, T2_arg4, T2_arg5,
    T1_arg3, T1_arg4, T1_arg5, A_arg3, A_arg4, A_arg5]

end Terms

/-! ## The same over extended reals, against the index-level specification -/

/-- The host operations before the kernel region, over extended reals. -/
abbrev pre : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

section Final
variable (W : Valuation τ sig (Elt Ideal))

/-- The first index vector is column 0 of the edge list. -/
theorem v1_eq : StableHlo.after pre W (Proc.devRef .tc main_v1) = (fun i => W (Proc.devRef .tc main_arg1) (ix2 (i 0) 0)) := by
  exact (v1_term W).trans (colTerm0_eq _)

/-- The second index vector is column 1 of the edge list. -/
theorem v3_eq : StableHlo.after pre W (Proc.devRef .tc main_v3) = (fun i => W (Proc.devRef .tc main_arg1) (ix2 (i 0) 1)) := by
  exact (v3_term W).trans (colTerm1_eq _)

/-- The region's first input: the coordinates at node A, padded and folded. -/
theorem v17_eq (h : InRange (W (Proc.devRef .tc main_arg1))) :
    StableHlo.after pre W (Proc.devRef .tc main_v17)
      = padRows (gath (W (Proc.devRef .tc main_arg2)) (W (Proc.devRef .tc main_arg1)) 0) := by
  exact (v17_term W).trans (gathFold0_eq _ _ h)

/-- The second: the coordinates at node B. -/
theorem v19_eq (h : InRange (W (Proc.devRef .tc main_arg1))) :
    StableHlo.after pre W (Proc.devRef .tc main_v19)
      = padRows (gath (W (Proc.devRef .tc main_arg2)) (W (Proc.devRef .tc main_arg1)) 1) := by
  exact (v19_term W).trans (gathFold1_eq _ _ h)

/-- The third: the displacements at node A. -/
theorem v21_eq (h : InRange (W (Proc.devRef .tc main_arg1))) :
    StableHlo.after pre W (Proc.devRef .tc main_v21)
      = padRows (gath (W (Proc.devRef .tc main_arg0)) (W (Proc.devRef .tc main_arg1)) 0) := by
  exact (v21_term W).trans (gathFold0_eq _ _ h)

/-- The fourth: the displacements at node B. -/
theorem v23_eq (h : InRange (W (Proc.devRef .tc main_arg1))) :
    StableHlo.after pre W (Proc.devRef .tc main_v23)
      = padRows (gath (W (Proc.devRef .tc main_arg0)) (W (Proc.devRef .tc main_arg1)) 1) := by
  exact (v23_term W).trans (gathFold1_eq _ _ h)

/-- The fifth: the three material vectors, stacked, padded and folded. -/
theorem v25_eq :
    StableHlo.after pre W (Proc.devRef .tc main_v25)
      = padRows (eai (W (Proc.devRef .tc main_arg3)) (W (Proc.devRef .tc main_arg4)) (W (Proc.devRef .tc main_arg5))) := by
  exact (v25_term W).trans (stackFold_eq _ _ _)

end Final

end Cert.KernelIdeal.PrefixValue

end
-- ==== Proof.TailValue.lean ====
/-
  What the host operations after the region compute, as functions of the buffers they read, over extended reals.

  The region leaves two folded arrays of shape [3, 31744, 128]: component k of edge e sits at (k, e / 128, e % 128).
  Each is flattened to [3, 4063232], cut to the first 4000000 columns and transposed to one row per edge; the two
  row blocks are stacked into 8000000 update rows, the A-end and B-end node indices are stacked into one index
  column of 8000000 entries, and the rows are scatter-added into a zero table: the first result. The third result
  puts side by side the three columns of the displacement table, each multiplied by a one-entry array broadcast to
  every node. No operation of this stretch writes one of the program's arguments.
-/
import proofs.«429318_j42734924595225_2_alg».proof.Proof.Gen.KernelIdeal.Launch
import proofs.«429318_j42734924595225_2_alg».proof.Proof.Spec
import proofs.«429318_j42734924595225_2_alg».proof.Proof.LibNary3
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TailValue

open Idealize.ShloMosaic Idealize.ShloMosaic.ValueIdx Cert.KernelIdeal Cert.KernelIdeal.Gen Cert.Beam StableHlo

section Snoc
variable {nD : Nat} {τ : Topo} {sig : RefSig} {Val : EltTy → Type}

/-- Running two lists of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {x a b y : Ref sig .tc}

/-- When the last operation of a list takes three operands, none of them its own result, the result after the whole
    list is the operation's function of the three operands' contents after the whole list. -/
theorem after_last_nary3 (l ops : List (HloOp τ sig Val)) (V : Valuation τ sig Val)
    (f : ((k : Fin 3) → ((![x, a, b] : Fin 3 → Ref sig .tc) k).ty.Contents Val) → y.ty.Contents Val) (hxs hy)
    (hl : l = ops ++ [nary (τ := τ) ![x, a, b] y f hxs hy]) (hx : x ≠ y) (ha : a ≠ y) (hb : b ≠ y) :
    after l V (Proc.devRef .tc y)
      = f (Fin.cons (after l V (Proc.devRef .tc x)) (Fin.cons (after l V (Proc.devRef .tc a))
          (Fin.cons (after l V (Proc.devRef .tc b)) (fun i => i.elim0)))) := by
  subst hl
  simp only [after_append, after_cons, after_nil]
  refine (Cert.LibNary3.nary3_result f hxs hy _).trans (congrArg f ?_)
  funext k
  match k with
  | ⟨0, _⟩ => exact (nary_result_ne (xs := ![x, a, b]) (y := y) (f := f) (hxs := hxs) (hy := hy) (F := after ops V) hx).symm
  | ⟨1, _⟩ => exact (nary_result_ne (xs := ![x, a, b]) (y := y) (f := f) (hxs := hxs) (hy := hy) (F := after ops V) ha).symm
  | ⟨2, _⟩ => exact (nary_result_ne (xs := ![x, a, b]) (y := y) (f := f) (hxs := hxs) (hy := hy) (F := after ops V) hb).symm
end Snoc

/-- The index column: the A-end indices of the four million edges, then their B-end indices. -/
def idx8 (a b : (⟨1, ![4000000]⟩ : Shape).Idx → BitVec 32) : (⟨2, ![8000000, 1]⟩ : Shape).Idx → BitVec 32 :=
  fun j => if h : (j 0).val < 4000000 then a (ix1 ⟨(j 0).val, h⟩)
    else b (ix1 ⟨(j 0).val - 4000000, by have := show (j 0).val < 8000000 from (j 0).isLt; omega⟩)

/-- The update rows: row e < 4000000 is edge e's column of the first folded array, row 4000000 + e edge e's column
    of the second; edge e sits at (e / 128, e % 128) of the folded edge axis. -/
def upd8 (P Q : (⟨3, ![3, 31744, 128]⟩ : Shape).Idx → EReal) : (⟨2, ![8000000, 3]⟩ : Shape).Idx → EReal :=
  fun j => if h : (j 0).val < 4000000
    then P (ix3 (j 1) ⟨(j 0).val / 128, by omega⟩ ⟨(j 0).val % 128, Nat.mod_lt _ (by norm_num)⟩)
    else Q (ix3 (j 1) ⟨((j 0).val - 4000000) / 128, by have := show (j 0).val < 8000000 from (j 0).isLt; omega⟩
      ⟨((j 0).val - 4000000) % 128, Nat.mod_lt _ (by norm_num)⟩)

/-- The scatter's operand is the zero table. -/
theorem zero_operand :
    (broadcastInDim S1000000x3 ![] bcast_S_S1000000x3 (constant (F := Ideal) S_ .f32 0x00000000#32) : S1000000x3.Idx → EReal)
      = fun _ => 0 := by
  funext j
  exact Ideal.ofBits_zero_f32

/-- A folded [3, 31744, 128] array flattened to [3, 4063232], cut to the first 4000000 columns and transposed. -/
abbrev piece (P : S3x31744x128.Idx → EReal) : S4000000x3.Idx → EReal :=
  transpose S4000000x3 [1, 0]
    (extractStridedSlice S3x4000000 ![0, 0]
      (fun i => shapeCast S3x4063232 P shapeCasts_S3x31744x128_S3x4063232 i)
      slices_S3x4063232_S3x4000000_0_0)
    transposes_S3x4000000_S4000000x3_1_0

/-- Row e, column k of such a piece is entry (k, e / 128, e % 128) of the folded array: position e of row k of the
    flattened array is 128 * (e / 128) + e % 128. -/
theorem piece_apply (P : S3x31744x128.Idx → EReal) (e : Fin 4000000) (k : Fin 3) :
    piece P (ix2 e k)
      = P (ix3 k ⟨e.val / 128, by omega⟩ ⟨e.val % 128, Nat.mod_lt _ (by norm_num)⟩) := by
  unfold piece
  rw [transpose_ix2_apply, slice2_axis1_eq]
  refine shapeCast_apply _ _ _ _ ?_
  rw [Shape.rowMajor_val_three, Shape.rowMajor_val_two]
  show (k.val * 31744 + e.val / 128) * 128 + e.val % 128 = k.val * 4063232 + (0 + e.val)
  omega

theorem idx8_eq (a b : S4000000.Idx → BitVec 32) :
    broadcastInDim S8000000x1 ![0] bcast_S8000000_S8000000x1_0
      (concatenate S8000000 0 [⟨S4000000, a⟩, ⟨S4000000, b⟩] concatenates_S4000000_S4000000_S8000000_d0)
    = idx8 a b := by
  funext j
  have hj : (j 0).val < 8000000 := (j 0).isLt
  rw [broadcastInDim_apply _ _ _ j (ix1 ⟨(j 0).val, hj⟩) (fun ax => match ax with | ⟨0, _⟩ => rfl)]
  unfold idx8
  by_cases h : (j 0).val < 4000000
  · rw [dif_pos h]
    exact concatenate_pair_apply_left (t := S8000000) (0 : Fin 1) a b concatenates_S4000000_S4000000_S8000000_d0
      (ix1 ⟨(j 0).val, hj⟩) rfl (ix1 ⟨(j 0).val, h⟩) (fun bx => match bx with | ⟨0, _⟩ => rfl)
  · rw [dif_neg h]
    exact concatenate_pair_apply_right (t := S8000000) (0 : Fin 1) a b concatenates_S4000000_S4000000_S8000000_d0
      (ix1 ⟨(j 0).val, hj⟩) rfl rfl (ix1 ⟨(j 0).val - 4000000, by omega⟩)
      (fun bx hb => match bx, hb with | ⟨0, _⟩, hb => absurd rfl hb)
      (by show (j 0).val - 4000000 + 4000000 = (j 0).val; omega)

theorem upd8_eq (P Q : S3x31744x128.Idx → EReal) :
    concatenate S8000000x3 0 [⟨S4000000x3, piece P⟩, ⟨S4000000x3, piece Q⟩] concatenates_S4000000x3_S4000000x3_S8000000x3_d0
    = upd8 P Q := by
  funext j
  have hj : (j 0).val < 8000000 := (j 0).isLt
  unfold upd8
  by_cases h : (j 0).val < 4000000
  · rw [dif_pos h,
      concatenate_pair_apply_left (0 : Fin 2) (piece P) (piece Q) _ j rfl (ix2 ⟨(j 0).val, h⟩ (j 1))
        (fun bx => match bx with | ⟨0, _⟩ => rfl | ⟨1, _⟩ => rfl)]
    exact piece_apply P _ _
  · rw [dif_neg h,
      concatenate_pair_apply_right (0 : Fin 2) (piece P) (piece Q) _ j rfl rfl (ix2 ⟨(j 0).val - 4000000, by omega⟩ (j 1))
        (fun bx hb => match bx, hb with | ⟨0, _⟩, hb => absurd rfl hb | ⟨1, _⟩, _ => rfl)
        (by show (j 0).val - 4000000 + 4000000 = (j 0).val; omega)]
    exact piece_apply Q _ _

variable (W : Valuation Cert.KernelIdeal.τ Cert.KernelIdeal.sig (Elt Ideal))

theorem v37_eq : StableHlo.after hostOps1 W (Proc.devRef .tc main_v37)
    = (fun i => Ideal.hostScatterAdd scatter_S1000000x3_S8000000x1_S8000000x3_1_0_0_1 (fun _ => 0)
        (idx8 (W (Proc.devRef .tc main_v1)) (W (Proc.devRef .tc main_v3)))
        (upd8 (W (Proc.devRef .tc main_v26_0)) (W (Proc.devRef .tc main_v26_1))) i) := by
  after_results
  exact congr (congr (congrArg (Ideal.hostScatterAdd scatter_S1000000x3_S8000000x1_S8000000x3_1_0_0_1) zero_operand)
    (idx8_eq (W (Proc.devRef .tc main_v1)) (W (Proc.devRef .tc main_v3))))
    (upd8_eq (W (Proc.devRef .tc main_v26_0)) (W (Proc.devRef .tc main_v26_1)))

theorem keeps (b : Ref sig .tc) (hb : b = main_arg0 ∨ b = main_arg1 ∨ b = main_arg2 ∨ b = main_arg3 ∨ b = main_arg4
      ∨ b = main_arg5 ∨ b = main_arg6 ∨ b = main_arg7 ∨ b = main_arg8) :
    StableHlo.after hostOps1 W (Proc.devRef .tc b) = W (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes,
    StableHlo.ternary_writes, StableHlo.reshape_writes, StableHlo.nary_writes, Finset.mem_singleton]
  rcases hb with h | h | h | h | h | h | h | h | h <;> subst h <;>
    (repeat' apply And.intro) <;> exact StableHlo.devRef_ne_of_ne (by decide)

/-- One column of the third result: column `o` of the displacement table, as a vector, times a one-entry array
    broadcast to every node, as a one-column array. -/
abbrev col (pred : S1000000x3.Idx → EReal) (s : S1.Idx → EReal) (o : Nat) (hsl : S1000000x3.Slices ![0, o] S1000000x1) :
    S1000000x1.Idx → EReal :=
  broadcastInDim S1000000x1 ![0] bcast_S1000000_S1000000x1_0
    (mulf (F := Ideal) (φ := .f32)
      (fun i => shapeCast S1000000 (extractStridedSlice S1000000x1 ![0, o] pred hsl) shapeCasts_S1000000x1_S1000000 i)
      (broadcastInDim S1000000 ![] bcast_S_S1000000 (fun i => shapeCast S_ s shapeCasts_S1_S_ i)))

/-- Row i of that column is entry (i, c) of the table times the array's one entry. -/
theorem col_apply (pred : S1000000x3.Idx → EReal) (s : S1.Idx → EReal) (c : Fin 3)
    (hsl : S1000000x3.Slices ![0, c.val] S1000000x1) (i : Fin 1000000) :
    col pred s c.val hsl (ix2 i 0) = pred (ix2 i c) * s (ix1 0) := by
  unfold col
  rw [broadcastInDim_apply _ _ _ (ix2 i 0) (ix1 i) (fun ax => match ax with | ⟨0, _⟩ => rfl), mulf_apply]
  refine congr (congrArg HMul.hMul ?_) ?_
  · refine (shapeCast_apply _ _ (ix1 i) (ix2 i 0) ?_).trans ?_
    · rw [Shape.rowMajor_val_two, Shape.rowMajor_val_one]
      show i.val * 1 + 0 = i.val
      omega
    · exact slice2_axis1_apply c.val pred hsl i 0 c rfl
  · rw [broadcastInDim_apply _ _ _ (ix1 i) ix0 (fun ax => ax.elim0)]
    refine (shapeCast_dropUnit_apply _ s _ ix0).trans ?_
    exact congrArg s (funext fun ax => match ax with | ⟨0, _⟩ => rfl)

/-- Three one-column arrays side by side: entry (i, c) is row i of the c-th. -/
theorem cat3_apply (A B C : S1000000x1.Idx → EReal) (i : Fin 1000000) (c : Fin 3) :
    concatenate S1000000x3 1 [⟨S1000000x1, A⟩, ⟨S1000000x1, B⟩, ⟨S1000000x1, C⟩]
        concatenates_S1000000x1_S1000000x1_S1000000x1_S1000000x3_d1 (ix2 i c)
      = (![A (ix2 i 0), B (ix2 i 0), C (ix2 i 0)] : Fin 3 → EReal) c :=
  match c with
  | ⟨0, _⟩ => concatenate_apply_piece (t := S1000000x3) (1 : Fin 2) [⟨S1000000x1, A⟩, ⟨S1000000x1, B⟩, ⟨S1000000x1, C⟩]
      concatenates_S1000000x1_S1000000x1_S1000000x1_S1000000x3_d1 (ix2 i ⟨0, by decide⟩) 0 (show (0 : Nat) < 3 by decide) S1000000x1 A rfl rfl 0 rfl (ix2 i 0)
      (fun bx hb => match bx, hb with | ⟨0, _⟩, _ => rfl | ⟨1, _⟩, hb => absurd rfl hb) rfl
  | ⟨1, _⟩ => concatenate_apply_piece (t := S1000000x3) (1 : Fin 2) [⟨S1000000x1, A⟩, ⟨S1000000x1, B⟩, ⟨S1000000x1, C⟩]
      concatenates_S1000000x1_S1000000x1_S1000000x1_S1000000x3_d1 (ix2 i ⟨1, by decide⟩) 1 (show (1 : Nat) < 3 by decide) S1000000x1 B rfl rfl 1 rfl (ix2 i 0)
      (fun bx hb => match bx, hb with | ⟨0, _⟩, _ => rfl | ⟨1, _⟩, hb => absurd rfl hb) rfl
  | ⟨2, _⟩ => concatenate_apply_piece (t := S1000000x3) (1 : Fin 2) [⟨S1000000x1, A⟩, ⟨S1000000x1, B⟩, ⟨S1000000x1, C⟩]
      concatenates_S1000000x1_S1000000x1_S1000000x1_S1000000x3_d1 (ix2 i ⟨2, by decide⟩) 2 (show (2 : Nat) < 3 by decide) S1000000x1 C rfl rfl 2 rfl (ix2 i 0)
      (fun bx hb => match bx, hb with | ⟨0, _⟩, _ => rfl | ⟨1, _⟩, hb => absurd rfl hb) rfl

/-- The three scaled columns side by side are the scaled table. -/
theorem g2_apply (pred : S1000000x3.Idx → EReal) (u th : S1.Idx → EReal) (i : Fin 1000000) (c : Fin 3) :
    (![col pred u 0 slices_S1000000x3_S1000000x1_0_0 (ix2 i 0), col pred u 1 slices_S1000000x3_S1000000x1_0_1 (ix2 i 0),
        col pred th 2 slices_S1000000x3_S1000000x1_0_2 (ix2 i 0)] : Fin 3 → EReal) c = G2 pred u th (ix2 i c) :=
  match c with
  | ⟨0, _⟩ => col_apply pred u 0 slices_S1000000x3_S1000000x1_0_0 i
  | ⟨1, _⟩ => col_apply pred u 1 slices_S1000000x3_S1000000x1_0_1 i
  | ⟨2, _⟩ => col_apply pred th 2 slices_S1000000x3_S1000000x1_0_2 i

theorem v53_eq : StableHlo.after hostOps1 W (Proc.devRef .tc main_v53)
    = col (W (Proc.devRef .tc main_arg0)) (W (Proc.devRef .tc main_arg7)) 0 slices_S1000000x3_S1000000x1_0_0 := by
  after_results_simp <;> rfl

theorem v54_eq : StableHlo.after hostOps1 W (Proc.devRef .tc main_v54)
    = col (W (Proc.devRef .tc main_arg0)) (W (Proc.devRef .tc main_arg7)) 1 slices_S1000000x3_S1000000x1_0_1 := by
  after_results_simp <;> rfl

theorem v55_eq : StableHlo.after hostOps1 W (Proc.devRef .tc main_v55)
    = col (W (Proc.devRef .tc main_arg0)) (W (Proc.devRef .tc main_arg8)) 2 slices_S1000000x3_S1000000x1_0_2 := by
  after_results_simp <;> rfl

theorem v56_eq : StableHlo.after hostOps1 W (Proc.devRef .tc main_v56)
    = G2 (W (Proc.devRef .tc main_arg0)) (W (Proc.devRef .tc main_arg7)) (W (Proc.devRef .tc main_arg8)) := by
  refine (after_last_nary3 hostOps1 hostOps1.dropLast W _ _ _ rfl (by decide) (by decide) (by decide)).trans ?_
  rw [v53_eq W, v54_eq W, v55_eq W]
  funext j
  rw [eq_ix2 j]
  exact (cat3_apply _ _ _ (j 0) (j 1)).trans (g2_apply _ _ _ (j 0) (j 1))

end Cert.KernelIdeal.TailValue

end
-- ==== Proof.LibScatterRows.lean ====
import Idealize.ShloMosaic.PureOps
import Idealize.ShloMosaic.PureOps.Ideal
import Idealize.ShloMosaic.Lib.ValueIdx
import Mathlib.Algebra.BigOperators.Fin

/-!
  The accumulating scatter of whole rows, over extended reals.

  An operand of N rows and C columns receives M update rows; a column of M signed 32-bit words says, for each
  update row, which operand row it is added to. Update row e with word t goes, column by column, to operand row t
  when 0 ≤ t < N and nowhere otherwise. Hence every result element (n, k) is the operand element plus the sum,
  over the update rows e whose word is n, of the update element (e, k). Because that sum runs over the list of
  update rows, a list that is the concatenation of two lists gives the sum of the two parts' sums.
-/

noncomputable section

open scoped BigOperators

namespace Idealize.ShloMosaic.ScatterRows

open Idealize.ShloMosaic Idealize.ShloMosaic.ValueIdx

/-- The dimension numbers of a row scatter: the updates' second axis is the window, it goes to the operand's
    second axis (the operand's first axis is the inserted one), the one component of each start index names a
    position on the operand's first axis, and the index vector lies along the index array's second axis. -/
structure IsRowScatter {N M C : Nat} (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

variable {N M C : Nat}

/-- On the operand's row axis the window of update element (e, k') starts at the signed word in row e of the
    index column. -/
theorem start_zero (d : ScatterDims ⟨2, ![N, C]⟩ ⟨2, ![M, 1]⟩ ⟨2, ![M, C]⟩) (hd : IsRowScatter d)
    (j : (⟨2, ![M, C]⟩ : Shape).Idx) (idx : (⟨2, ![M, 1]⟩ : Shape).Idx → BitVec 32) :
    d.start j idx 0 = (idx (ix2 (j 0) 0)).toInt := by
  obtain ⟨uw, iw, sd, iv, wf⟩ := d
  obtain ⟨h1, h2, h3, h4⟩ := hd
  simp only at h1 h2 h3 h4
  subst h1 h2 h3 h4
  unfold ScatterDims.start
  rw [dif_pos (List.mem_singleton.2 rfl)]
  congr 2
  funext b
  match b with
  | ⟨0, _⟩ => rfl
  | ⟨1, _⟩ => rfl

/-- On the operand's column axis no start index is read: the window starts at zero. -/
theorem start_one (d : ScatterDims ⟨2, ![N, C]⟩ ⟨2, ![M, 1]⟩ ⟨2, ![M, C]⟩) (hd : IsRowScatter d)
    (j : (⟨2, ![M, C]⟩ : Shape).Idx) (idx : (⟨2, ![M, 1]⟩ : Shape).Idx → BitVec 32) :
    d.start j idx 1 = 0 := by
  obtain ⟨uw, iw, sd, iv, wf⟩ := d
  obtain ⟨h1, h2, h3, h4⟩ := hd
  simp only at h1 h2 h3 h4
  subst h1 h2 h3 h4
  unfold ScatterDims.start
  rw [dif_neg (by simp)]

/-- The operand's row axis is inserted: the window coordinate there is zero. -/
theorem window_zero (d : ScatterDims ⟨2, ![N, C]⟩ ⟨2, ![M, 1]⟩ ⟨2, ![M, C]⟩) (hd : IsRowScatter d)
    (j : (⟨2, ![M, C]⟩ : Shape).Idx) : d.window j 0 = 0 := by
  obtain ⟨uw, iw, sd, iv, wf⟩ := d
  obtain ⟨h1, h2, h3, h4⟩ := hd
  simp only at h1 h2 h3 h4
  subst h1 h2 h3 h4
  rfl

/-- On the operand's column axis the window coordinate is the update element's column. -/
theorem window_one (d : ScatterDims ⟨2, ![N, C]⟩ ⟨2, ![M, 1]⟩ ⟨2, ![M, C]⟩) (hd : IsRowScatter d)
    (j : (⟨2, ![M, C]⟩ : Shape).Idx) : d.window j 1 = (j 1).val := by
  obtain ⟨uw, iw, sd, iv, wf⟩ := d
  obtain ⟨h1, h2, h3, h4⟩ := hd
  simp only at h1 h2 h3 h4
  subst h1 h2 h3 h4
  rfl

/-- Update element (e, k') lands on operand element (n, k) exactly when the columns agree and the signed word in
    row e of the index column is n. (A word that is negative or at least N names no row: the update is dropped,
    and it equals no n.) -/
theorem resultIdx?_eq_some_iff (d : ScatterDims ⟨2, ![N, C]⟩ ⟨2, ![M, 1]⟩ ⟨2, ![M, C]⟩) (hd : IsRowScatter d)
    (idx : (⟨2, ![M, 1]⟩ : Shape).Idx → BitVec 32) (e : Fin M) (k' : Fin C) (n : Fin N) (k : Fin C) :
    d.resultIdx? (ix2 e k') idx = some (ix2 n k) ↔ k' = k ∧ (idx (ix2 e 0)).toInt = (n.val : ℤ) := by
  have hs0 : d.start (ix2 e k') idx 0 = (idx (ix2 e 0)).toInt := start_zero d hd (ix2 e k') idx
  have hs1 : d.start (ix2 e k') idx 1 = 0 := start_one d hd (ix2 e k') idx
  have hw0 : d.window (ix2 e k') 0 = 0 := window_zero d hd (ix2 e k')
  have hw1 : d.window (ix2 e k') 1 = k'.val := window_one d hd (ix2 e k')
  unfold ScatterDims.resultIdx?
  split
  · rename_i h
    constructor
    · intro hi
      have hi' := Option.some.inj hi
      have h0 : (d.start (ix2 e k') idx 0 + ((d.window (ix2 e k') 0 : ℕ) : ℤ)).toNat = n.val :=
        congrArg Fin.val (congrFun hi' 0)
      have h1 : (d.start (ix2 e k') idx 1 + ((d.window (ix2 e k') 1 : ℕ) : ℤ)).toNat = k.val :=
        congrArg Fin.val (congrFun hi' 1)
      have hp : 0 ≤ d.start (ix2 e k') idx 0 + ((d.window (ix2 e k') 0 : ℕ) : ℤ) := (h 0).1
      rw [hs0, hw0] at h0 hp
      rw [hs1, hw1] at h1
      refine ⟨Fin.ext ?_, ?_⟩ <;> omega
    · rintro ⟨rfl, ht⟩
      congr 1
      funext a
      match a with
      | ⟨0, _⟩ =>
        refine Fin.ext ?_
        show (d.start (ix2 e k') idx 0 + ((d.window (ix2 e k') 0 : ℕ) : ℤ)).toNat = n.val
        rw [hs0, hw0, ht]; omega
      | ⟨1, _⟩ =>
        refine Fin.ext ?_
        show (d.start (ix2 e k') idx 1 + ((d.window (ix2 e k') 1 : ℕ) : ℤ)).toNat = k'.val
        rw [hs1, hw1]; omega
  · rename_i h
    constructor
    · intro hi; cases hi
    · rintro ⟨rfl, ht⟩
      exfalso
      apply h
      intro a
      match a with
      | ⟨0, _⟩ =>
        show 0 ≤ d.start (ix2 e k') idx 0 + ((d.window (ix2 e k') 0 : ℕ) : ℤ) ∧
          d.start (ix2 e k') idx 0 + ((d.window (ix2 e k') 0 : ℕ) : ℤ) < ((N : ℕ) : ℤ)
        rw [hs0, hw0, ht]; have := n.isLt; omega
      | ⟨1, _⟩ =>
        show 0 ≤ d.start (ix2 e k') idx 1 + ((d.window (ix2 e k') 1 : ℕ) : ℤ) ∧
          d.start (ix2 e k') idx 1 + ((d.window (ix2 e k') 1 : ℕ) : ℤ) < ((C : ℕ) : ℤ)
        rw [hs1, hw1]; have := k'.isLt; omega

/-- A row scatter that accumulates, read at one element: the operand's element (n, k) plus the sum, over the
    update rows e whose signed index word is n, of the update element (e, k). -/
theorem hostScatterAdd_rows (d : ScatterDims ⟨2, ![N, C]⟩ ⟨2, ![M, 1]⟩ ⟨2, ![M, C]⟩) (hd : IsRowScatter d)
    (x : (⟨2, ![N, C]⟩ : Shape).Idx → EReal) (idx : (⟨2, ![M, 1]⟩ : Shape).Idx → BitVec 32)
    (upd : (⟨2, ![M, C]⟩ : Shape).Idx → EReal) (n : Fin N) (k : Fin C) :
    Ideal.hostScatterAdd d x idx upd (ix2 n k)
      = x (ix2 n k) + ∑ e : Fin M, if (idx (ix2 e 0)).toInt = (n.val : ℤ) then upd (ix2 e k) else 0 := by
  unfold Ideal.hostScatterAdd
  congr 1
  rw [Finset.sum_filter, sum_idx2]
  refine Finset.sum_congr rfl fun e _ => ?_
  by_cases ht : (idx (ix2 e 0)).toInt = (n.val : ℤ)
  · rw [if_pos ht, Finset.sum_eq_single k]
    · rw [if_pos ((resultIdx?_eq_some_iff d hd idx e k n k).2 ⟨rfl, ht⟩)]
    · intro k' _ hk
      rw [if_neg fun hh => hk ((resultIdx?_eq_some_iff d hd idx e k' n k).1 hh).1]
    · intro h; exact absurd (Finset.mem_univ k) h
  · rw [if_neg ht]
    exact Finset.sum_eq_zero fun k' _ =>
      if_neg fun hh => ht ((resultIdx?_eq_some_iff d hd idx e k' n k).1 hh).2

/-- Scattering into zeros the concatenation of two lists of update rows (index words and update rows alike: the
    first M1 rows are the first list, the other M2 the second) is the sum of scattering each list into zeros:
    the sum over the rows of the long list is the sum over its first part plus the sum over its second. -/
theorem hostScatterAdd_rows_split {N M M1 M2 C : Nat} (hM : M = M1 + M2)
    (d : ScatterDims ⟨2, ![N, C]⟩ ⟨2, ![M, 1]⟩ ⟨2, ![M, C]⟩)
    (d1 : ScatterDims ⟨2, ![N, C]⟩ ⟨2, ![M1, 1]⟩ ⟨2, ![M1, C]⟩)
    (d2 : ScatterDims ⟨2, ![N, C]⟩ ⟨2, ![M2, 1]⟩ ⟨2, ![M2, C]⟩)
    (hd : IsRowScatter d) (hd1 : IsRowScatter d1) (hd2 : IsRowScatter d2)
    (idx : (⟨2, ![M, 1]⟩ : Shape).Idx → BitVec 32) (idx1 : (⟨2, ![M1, 1]⟩ : Shape).Idx → BitVec 32)
    (idx2 : (⟨2, ![M2, 1]⟩ : Shape).Idx → BitVec 32)
    (upd : (⟨2, ![M, C]⟩ : Shape).Idx → EReal) (upd1 : (⟨2, ![M1, C]⟩ : Shape).Idx → EReal)
    (upd2 : (⟨2, ![M2, C]⟩ : Shape).Idx → EReal)
    (hi1 : ∀ (e : Fin M) (h : e.val < M1), idx (ix2 e 0) = idx1 (ix2 ⟨e.val, h⟩ 0))
    (hi2 : ∀ (e : Fin M) (h : M1 ≤ e.val),
      idx (ix2 e 0) = idx2 (ix2 ⟨e.val - M1, by have := e.isLt; omega⟩ 0))
    (hu1 : ∀ (e : Fin M) (h : e.val < M1) (k : Fin C), upd (ix2 e k) = upd1 (ix2 ⟨e.val, h⟩ k))
    (hu2 : ∀ (e : Fin M) (h : M1 ≤ e.val) (k : Fin C),
      upd (ix2 e k) = upd2 (ix2 ⟨e.val - M1, by have := e.isLt; omega⟩ k))
    (i : (⟨2, ![N, C]⟩ : Shape).Idx) :
    Ideal.hostScatterAdd d (fun _ => 0) idx upd i
      = Ideal.hostScatterAdd d1 (fun _ => 0) idx1 upd1 i + Ideal.hostScatterAdd d2 (fun _ => 0) idx2 upd2 i := by
  subst hM
  obtain ⟨n, k, rfl⟩ : ∃ (n : Fin N) (k : Fin C), i = ix2 n k := ⟨i 0, i 1, eq_ix2 i⟩
  rw [hostScatterAdd_rows d hd, hostScatterAdd_rows d1 hd1, hostScatterAdd_rows d2 hd2, zero_add, zero_add,
    zero_add, Fin.sum_univ_add]
  congr 1
  · refine Finset.sum_congr rfl fun e _ => ?_
    rw [hi1 (Fin.castAdd M2 e) e.isLt, hu1 (Fin.castAdd M2 e) e.isLt k]
    rfl
  · refine Finset.sum_congr rfl fun e _ => ?_
    have hle : M1 ≤ (Fin.natAdd M1 e).val := Nat.le_add_right M1 e.val
    have he : ∀ h, (⟨(Fin.natAdd M1 e).val - M1, h⟩ : Fin M2) = e :=
      fun _ => Fin.ext (Nat.add_sub_cancel_left M1 e.val)
    rw [hi2 _ hle, hu2 _ hle k, he]

/-- The same at fixed sizes: a million rows of three columns receive eight million update rows,
    the first four million and the last four million scattered apart and the two results added. -/
theorem rows_split_8M
    (d : ScatterDims ⟨2, ![1000000, 3]⟩ ⟨2, ![8000000, 1]⟩ ⟨2, ![8000000, 3]⟩)
    (d' : ScatterDims ⟨2, ![1000000, 3]⟩ ⟨2, ![4000000, 1]⟩ ⟨2, ![4000000, 3]⟩)
    (hd : IsRowScatter d) (hd' : IsRowScatter d')
    (idx : (⟨2, ![8000000, 1]⟩ : Shape).Idx → BitVec 32)
    (idx1 idx2 : (⟨2, ![4000000, 1]⟩ : Shape).Idx → BitVec 32)
    (upd : (⟨2, ![8000000, 3]⟩ : Shape).Idx → EReal)
    (upd1 upd2 : (⟨2, ![4000000, 3]⟩ : Shape).Idx → EReal)
    (hi1 : ∀ (e : Fin 8000000) (h : e.val < 4000000), idx (ix2 e 0) = idx1 (ix2 ⟨e.val, h⟩ 0))
    (hi2 : ∀ (e : Fin 8000000) (h : 4000000 ≤ e.val),
      idx (ix2 e 0) = idx2 (ix2 ⟨e.val - 4000000, by have := e.isLt; omega⟩ 0))
    (hu1 : ∀ (e : Fin 8000000) (h : e.val < 4000000) (k : Fin 3), upd (ix2 e k) = upd1 (ix2 ⟨e.val, h⟩ k))
    (hu2 : ∀ (e : Fin 8000000) (h : 4000000 ≤ e.val) (k : Fin 3),
      upd (ix2 e k) = upd2 (ix2 ⟨e.val - 4000000, by have := e.isLt; omega⟩ k))
    (i : (⟨2, ![1000000, 3]⟩ : Shape).Idx) :
    Ideal.hostScatterAdd d (fun _ => 0) idx upd i
      = Ideal.hostScatterAdd d' (fun _ => 0) idx1 upd1 i + Ideal.hostScatterAdd d' (fun _ => 0) idx2 upd2 i :=
  hostScatterAdd_rows_split (M1 := 4000000) (M2 := 4000000) (by norm_num) d d' d' hd hd' hd'
    idx idx1 idx2 upd upd1 upd2 hi1 hi2 hu1 hu2 i

end Idealize.ShloMosaic.ScatterRows
-- ==== Proof.SpecLemmas.lean ====
/-
  Small facts about the specification's definitions: a padded, folded array read where an edge
  sits gives back the edge's own entry, so the lane that edge e occupies reads exactly what
  edge e reads; and the specification's scatter is a row scatter.
-/
import proofs.«429318_j42734924595225_2_alg».proof.Proof.Spec
import proofs.«429318_j42734924595225_2_alg».proof.Proof.LibScatterRows

noncomputable section

namespace Cert.Beam

open Idealize.ShloMosaic Idealize.ShloMosaic.ValueIdx Idealize.ShloMosaic.ScatterRows

/-- Edge e sits in row e / 128, lane e % 128 of the folded edge axis. -/
def rowOfEdge (e : Fin 4000000) : Fin 31744 := ⟨e.val / 128, by have := e.isLt; omega⟩
def laneOfEdge (e : Fin 4000000) : Fin 128 := ⟨e.val % 128, Nat.mod_lt _ (by norm_num)⟩

/-- Below the padding the padded array is the array. -/
theorem padRows_edge (X : Fin 3 → Fin 4000000 → EReal) (k : Fin 3) (e : Fin 4000000) :
    padRows X (ix3 k (rowOfEdge e) (laneOfEdge e)) = X k e := by
  have he := e.isLt
  have h : (rowOfEdge e).val * 128 + (laneOfEdge e).val = e.val := by
    show e.val / 128 * 128 + e.val % 128 = e.val
    omega
  unfold padRows
  have hlt : ((ix3 k (rowOfEdge e) (laneOfEdge e) : SP.Idx) 1).val * 128 + ((ix3 k (rowOfEdge e) (laneOfEdge e) : SP.Idx) 2).val < 4000000 := by
    show (rowOfEdge e).val * 128 + (laneOfEdge e).val < 4000000
    omega
  rw [dif_pos hlt]
  show X k ⟨(rowOfEdge e).val * 128 + (laneOfEdge e).val, _⟩ = X k e
  congr 1
  exact Fin.ext h

/-- The lane edge e occupies reads, off the five padded arrays, exactly what edge e reads. -/
theorem laneIn_edge (pred coords : SN3.Idx → EReal) (conn : SE2.Idx → BitVec 32) (E A I : SE.Idx → EReal) (e : Fin 4000000) :
    laneIn (padRows (gath coords conn 0)) (padRows (gath coords conn 1)) (padRows (gath pred conn 0)) (padRows (gath pred conn 1))
      (padRows (eai E A I)) (rowOfEdge e) (laneOfEdge e) = edgeIn pred coords conn E A I e := by
  simp only [laneIn, edgeIn, padRows_edge]

/-- The specification's scatter sends update row e whole to the operand row its index names. -/
theorem dSc_rows : IsRowScatter dSc := ⟨rfl, rfl, rfl, rfl⟩

end Cert.Beam

end
-- ==== Proof.KernelSide.lean ====
/-
  The kernel's program at the extended reals, read end to end. The host operations before the
  region gather the node rows each edge names, transpose, pad the edge axis with zeros and fold it
  to [3, 31744, 128]; the region writes, lane by lane, the beam force each edge puts on its two
  end nodes; the host operations after it unfold the two force arrays, drop the padding, stack the
  A-forces over the B-forces and add every row at the node its index names. Under the index range
  a sum over the stacked rows is the sum over the A-rows plus the sum over the B-rows, which is the
  specification's first result; the third result is the displacement table scaled column by column;
  the arguments are left as launched.
-/
import proofs.«429318_j42734924595225_2_alg».proof.Proof.FrameKI
import proofs.«429318_j42734924595225_2_alg».proof.Proof.KernelArrays
import proofs.«429318_j42734924595225_2_alg».proof.Proof.PrefixValue
import proofs.«429318_j42734924595225_2_alg».proof.Proof.TailValue
import proofs.«429318_j42734924595225_2_alg».proof.Proof.SpecLemmas
import proofs.«429318_j42734924595225_2_alg».proof.Proof.LibScatterRows
import Idealize.ShloMosaic.Lib.Pipeline.FrameSuffix
import Idealize.ShloMosaic.Lib.Pipeline.Value
import Idealize.ShloMosaic.Lib.ValueIdx

set_option maxRecDepth 16384

noncomputable section

namespace Cert.KernelIdeal.Side
open Idealize.ShloMosaic Idealize.ShloMosaic.TcCoe Idealize.ShloMosaic.ValueIdx Idealize.ShloMosaic.ScatterRows
open Idealize.SL.Sem
open Idealize.ShloMosaic.Pipeline (Dat Cfg Window)
open Cert.KernelIdeal Cert.KernelIdeal.Gen Cert.KernelIdeal.Hand Cert.KernelIdeal.Arrays Cert.Beam StableHlo

variable (m : (ℓ : Loc nD τ sig) → Buf (Elt Ideal) ℓ)

/-- What the operations after the region start from: the region's arrays as it leaves them, every other buffer as it found it. -/
abbrev Wt (c : Dev nD) : Valuation τ sig (Elt Ideal) :=
  Pipeline.withArrays (cfgs 0).spec c (V0 m c) (fun w => (dats m 0 c).arrAt w (cfgs 0).N)

theorem tail_eq (c : Dev nD) (b : Ref sig .tc) :
    Pipeline.afterTail₀ cfgs (dats m) 0 (V0 m) [hostOps1] c b = StableHlo.after hostOps1 (Wt m c) (Proc.devRef .tc b) := by
  unfold Pipeline.afterTail₀
  simp only [List.flatten_cons, List.flatten_nil, List.append_nil]

theorem Wt_ne (c : Dev nD) (b : Ref sig .tc) (hb : ∀ w, Pipeline.arrRef spec0 w ≠ b) :
    Wt m c (Proc.devRef .tc b) = V0 m c (Proc.devRef .tc b) :=
  Pipeline.withArrays_of_ne _ c _ _ b hb

theorem Wt_arr (c : Dev nD) (w : Fin 7) :
    Wt m c (Proc.devRef .tc (Pipeline.arrRef spec0 w)) = (dats m 0 c).arrAt w cfg0.N :=
  Pipeline.withArrays_arr _ launch0.win.arr_inj c _ _ w

/-- The argument arrays on core c. -/
abbrev aPred (c : Dev nD) : SN3.Idx → EReal := m ((c.tc : Thread nD τ).loc main_arg0)
abbrev aConn (c : Dev nD) : SE2.Idx → BitVec 32 := m ((c.tc : Thread nD τ).loc main_arg1)
abbrev aCoords (c : Dev nD) : SN3.Idx → EReal := m ((c.tc : Thread nD τ).loc main_arg2)
abbrev aE (c : Dev nD) : SE.Idx → EReal := m ((c.tc : Thread nD τ).loc main_arg3)
abbrev aA (c : Dev nD) : SE.Idx → EReal := m ((c.tc : Thread nD τ).loc main_arg4)
abbrev aI (c : Dev nD) : SE.Idx → EReal := m ((c.tc : Thread nD τ).loc main_arg5)

/-- The two index vectors the tail reuses are the edge list's two columns. -/
theorem v1_val (c : Dev nD) : Wt m c (Proc.devRef .tc main_v1) = (fun i => aConn m c (ix2 (i 0) 0)) :=
  (Wt_ne m c main_v1 (by intro w; fin_cases w <;> decide)).trans (PrefixValue.v1_eq (fun b => m (c, b)))
theorem v3_val (c : Dev nD) : Wt m c (Proc.devRef .tc main_v3) = (fun i => aConn m c (ix2 (i 0) 1)) :=
  (Wt_ne m c main_v3 (by intro w; fin_cases w <;> decide)).trans (PrefixValue.v3_eq (fun b => m (c, b)))

/-- The region's first result array: the A-forces of the edges, lane by lane, over the padded gathers. -/
theorem out5_val (c : Dev nD) (h : InRange (aConn m c)) :
    Wt m c (Proc.devRef .tc main_v26_0)
      = laneA (padRows (gath (aCoords m c) (aConn m c) 0)) (padRows (gath (aCoords m c) (aConn m c) 1))
          (padRows (gath (aPred m c) (aConn m c) 0)) (padRows (gath (aPred m c) (aConn m c) 1)) (padRows (eai (aE m c) (aA m c) (aI m c))) := by
  have hv17 : V m c main_v17 = padRows (gath (aCoords m c) (aConn m c) 0) := PrefixValue.v17_eq (fun b => m (c, b)) h
  have hv19 : V m c main_v19 = padRows (gath (aCoords m c) (aConn m c) 1) := PrefixValue.v19_eq (fun b => m (c, b)) h
  have hv21 : V m c main_v21 = padRows (gath (aPred m c) (aConn m c) 0) := PrefixValue.v21_eq (fun b => m (c, b)) h
  have hv23 : V m c main_v23 = padRows (gath (aPred m c) (aConn m c) 1) := PrefixValue.v23_eq (fun b => m (c, b)) h
  have hv25 : V m c main_v25 = padRows (eai (aE m c) (aA m c) (aI m c)) := PrefixValue.v25_eq (fun b => m (c, b))
  refine (Wt_arr m c 5).trans ?_
  refine (final5_of c (dats m 0 c) (V m c main_v17) (V m c main_v19) (V m c main_v21) (V m c main_v23) (V m c main_v25)
    (fun t => (after0_5 m c t).trans (out5_blk _ _ _ _ _))).trans ?_
  rw [hv17, hv19, hv21, hv23, hv25]

theorem out6_val (c : Dev nD) (h : InRange (aConn m c)) :
    Wt m c (Proc.devRef .tc main_v26_1)
      = laneB (padRows (gath (aCoords m c) (aConn m c) 0)) (padRows (gath (aCoords m c) (aConn m c) 1))
          (padRows (gath (aPred m c) (aConn m c) 0)) (padRows (gath (aPred m c) (aConn m c) 1)) (padRows (eai (aE m c) (aA m c) (aI m c))) := by
  have hv17 : V m c main_v17 = padRows (gath (aCoords m c) (aConn m c) 0) := PrefixValue.v17_eq (fun b => m (c, b)) h
  have hv19 : V m c main_v19 = padRows (gath (aCoords m c) (aConn m c) 1) := PrefixValue.v19_eq (fun b => m (c, b)) h
  have hv21 : V m c main_v21 = padRows (gath (aPred m c) (aConn m c) 0) := PrefixValue.v21_eq (fun b => m (c, b)) h
  have hv23 : V m c main_v23 = padRows (gath (aPred m c) (aConn m c) 1) := PrefixValue.v23_eq (fun b => m (c, b)) h
  have hv25 : V m c main_v25 = padRows (eai (aE m c) (aA m c) (aI m c)) := PrefixValue.v25_eq (fun b => m (c, b))
  refine (Wt_arr m c 6).trans ?_
  refine (final6_of c (dats m 0 c) (V m c main_v17) (V m c main_v19) (V m c main_v21) (V m c main_v23) (V m c main_v25)
    (fun t => (after0_6 m c t).trans (out6_blk _ _ _ _ _))).trans ?_
  rw [hv17, hv19, hv21, hv23, hv25]

/-- THE FIRST RESULT of the kernel's program is the specification's. -/
theorem v37_val (c : Dev nD) (h : InRange (aConn m c)) :
    Pipeline.afterTail₀ cfgs (dats m) 0 (V0 m) [hostOps1] c main_v37
      = G0 (aPred m c) (aCoords m c) (aConn m c) (aE m c) (aA m c) (aI m c) := by
  rw [tail_eq, TailValue.v37_eq, v1_val, v3_val, out5_val m c h, out6_val m c h]
  funext i
  refine (rows_split_8M _ dSc ⟨rfl, rfl, rfl, rfl⟩ dSc_rows _ (nodeIdx (aConn m c) 0) (nodeIdx (aConn m c) 1) _
    (UA (aPred m c) (aCoords m c) (aConn m c) (aE m c) (aA m c) (aI m c)) (UB (aPred m c) (aCoords m c) (aConn m c) (aE m c) (aA m c) (aI m c))
    ?_ ?_ ?_ ?_ i).trans rfl
  · intro e he
    unfold TailValue.idx8
    rw [dif_pos (show ((ix2 e (0 : Fin 1) : (⟨2, ![8000000, 1]⟩ : Shape).Idx) 0).val < 4000000 from he)]
    rfl
  · intro e he
    unfold TailValue.idx8
    rw [dif_neg (show ¬ ((ix2 e (0 : Fin 1) : (⟨2, ![8000000, 1]⟩ : Shape).Idx) 0).val < 4000000 from Nat.not_lt.mpr he)]
    rfl
  · intro e he k
    unfold TailValue.upd8
    rw [dif_pos (show ((ix2 e k : (⟨2, ![8000000, 3]⟩ : Shape).Idx) 0).val < 4000000 from he)]
    exact congrArg (fun x : EdgeIn => x.fA k) (laneIn_edge (aPred m c) (aCoords m c) (aConn m c) (aE m c) (aA m c) (aI m c) ⟨e.val, he⟩)
  · intro e he k
    unfold TailValue.upd8
    rw [dif_neg (show ¬ ((ix2 e k : (⟨2, ![8000000, 3]⟩ : Shape).Idx) 0).val < 4000000 from Nat.not_lt.mpr he)]
    exact congrArg (fun x : EdgeIn => x.fB k) (laneIn_edge (aPred m c) (aCoords m c) (aConn m c) (aE m c) (aA m c) (aI m c) ⟨e.val - 4000000, by have := e.isLt; omega⟩)

/-- The tail and the prefix leave every argument array as launched. -/
theorem arg0_val (c : Dev nD) :
    Pipeline.afterTail₀ cfgs (dats m) 0 (V0 m) [hostOps1] c main_arg0 = m ((c.tc : Thread nD τ).loc main_arg0) := by
  rw [tail_eq, TailValue.keeps (Wt m c) main_arg0 (by simp), Wt_ne m c main_arg0 (by intro w; fin_cases w <;> decide)]
  exact V_main_arg0 m c

theorem arg1_val (c : Dev nD) :
    Pipeline.afterTail₀ cfgs (dats m) 0 (V0 m) [hostOps1] c main_arg1 = m ((c.tc : Thread nD τ).loc main_arg1) := by
  rw [tail_eq, TailValue.keeps (Wt m c) main_arg1 (by simp), Wt_ne m c main_arg1 (by intro w; fin_cases w <;> decide)]
  exact V_main_arg1 m c

theorem arg2_val (c : Dev nD) :
    Pipeline.afterTail₀ cfgs (dats m) 0 (V0 m) [hostOps1] c main_arg2 = m ((c.tc : Thread nD τ).loc main_arg2) := by
  rw [tail_eq, TailValue.keeps (Wt m c) main_arg2 (by simp), Wt_ne m c main_arg2 (by intro w; fin_cases w <;> decide)]
  exact V_main_arg2 m c

theorem arg3_val (c : Dev nD) :
    Pipeline.afterTail₀ cfgs (dats m) 0 (V0 m) [hostOps1] c main_arg3 = m ((c.tc : Thread nD τ).loc main_arg3) := by
  rw [tail_eq, TailValue.keeps (Wt m c) main_arg3 (by simp), Wt_ne m c main_arg3 (by intro w; fin_cases w <;> decide)]
  exact V_main_arg3 m c

theorem arg4_val (c : Dev nD) :
    Pipeline.afterTail₀ cfgs (dats m) 0 (V0 m) [hostOps1] c main_arg4 = m ((c.tc : Thread nD τ).loc main_arg4) := by
  rw [tail_eq, TailValue.keeps (Wt m c) main_arg4 (by simp), Wt_ne m c main_arg4 (by intro w; fin_cases w <;> decide)]
  exact V_main_arg4 m c

theorem arg5_val (c : Dev nD) :
    Pipeline.afterTail₀ cfgs (dats m) 0 (V0 m) [hostOps1] c main_arg5 = m ((c.tc : Thread nD τ).loc main_arg5) := by
  rw [tail_eq, TailValue.keeps (Wt m c) main_arg5 (by simp), Wt_ne m c main_arg5 (by intro w; fin_cases w <;> decide)]
  exact V_main_arg5 m c

theorem arg6_val (c : Dev nD) :
    Pipeline.afterTail₀ cfgs (dats m) 0 (V0 m) [hostOps1] c main_arg6 = m ((c.tc : Thread nD τ).loc main_arg6) := by
  rw [tail_eq, TailValue.keeps (Wt m c) main_arg6 (by simp), Wt_ne m c main_arg6 (by intro w; fin_cases w <;> decide)]
  exact V_main_arg6 m c

theorem arg7_val (c : Dev nD) :
    Pipeline.afterTail₀ cfgs (dats m) 0 (V0 m) [hostOps1] c main_arg7 = m ((c.tc : Thread nD τ).loc main_arg7) := by
  rw [tail_eq, TailValue.keeps (Wt m c) main_arg7 (by simp), Wt_ne m c main_arg7 (by intro w; fin_cases w <;> decide)]
  exact V_main_arg7 m c

theorem arg8_val (c : Dev nD) :
    Pipeline.afterTail₀ cfgs (dats m) 0 (V0 m) [hostOps1] c main_arg8 = m ((c.tc : Thread nD τ).loc main_arg8) := by
  rw [tail_eq, TailValue.keeps (Wt m c) main_arg8 (by simp), Wt_ne m c main_arg8 (by intro w; fin_cases w <;> decide)]
  exact V_main_arg8 m c

/-- THE THIRD RESULT of the kernel's program is the specification's. -/
theorem v56_val (c : Dev nD) :
    Pipeline.afterTail₀ cfgs (dats m) 0 (V0 m) [hostOps1] c main_v56
      = G2 (aPred m c) (m ((c.tc : Thread nD τ).loc main_arg7)) (m ((c.tc : Thread nD τ).loc main_arg8)) := by
  rw [tail_eq, TailValue.v56_eq (Wt m c),
    Wt_ne m c main_arg0 (by intro w; fin_cases w <;> decide), Wt_ne m c main_arg7 (by intro w; fin_cases w <;> decide),
    Wt_ne m c main_arg8 (by intro w; fin_cases w <;> decide)]
  have e0 := V_main_arg0 m c
  have e7 := V_main_arg7 m c
  have e8 := V_main_arg8 m c
  rw [show V0 m c (Proc.devRef .tc main_arg0) = m ((c.tc : Thread nD τ).loc main_arg0) from e0,
    show V0 m c (Proc.devRef .tc main_arg7) = m ((c.tc : Thread nD τ).loc main_arg7) from e7,
    show V0 m c (Proc.devRef .tc main_arg8) = m ((c.tc : Thread nD τ).loc main_arg8) from e8]

/-- THE KERNEL'S RUN at the ideal instance, read: under the index range every weakly fair execution ends with the
    three results at the specification's functions of the arguments, the arguments unchanged. -/
theorem kernel_run (ρ : Dev nD → PrngReg) (hpre : ∀ c, InRange (aConn m c)) :
    θ_run defs (onTc (τ := τ) (main (F := Ideal))) ⟨m, fun _ => 0, ρ⟩ (fun r => ∀ c : Dev nD,
      r.2.mem ((c.tc : Thread nD τ).loc main_v37) = G0 (aPred m c) (aCoords m c) (aConn m c) (aE m c) (aA m c) (aI m c)
      ∧ r.2.mem ((c.tc : Thread nD τ).loc main_arg6) = m ((c.tc : Thread nD τ).loc main_arg6)
      ∧ r.2.mem ((c.tc : Thread nD τ).loc main_v56) = G2 (aPred m c) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v37 (Pipeline.mem_restRefs_of main_v37 (by decide) (by decide))).trans (v37_val m c (hpre c)),
      ((h c).2 main_arg6 (Pipeline.mem_restRefs_of main_arg6 (by decide) (by decide))).trans (arg6_val m c),
      ((h c).2 main_v56 (Pipeline.mem_restRefs_of main_v56 (by decide) (by decide))).trans (v56_val m c),
      ((h c).2 main_arg0 (Pipeline.mem_restRefs_of main_arg0 (by decide) (by decide))).trans (arg0_val m c),
      ((h c).2 main_arg1 (Pipeline.mem_restRefs_of main_arg1 (by decide) (by decide))).trans (arg1_val m c),
      ((h c).2 main_arg2 (Pipeline.mem_restRefs_of main_arg2 (by decide) (by decide))).trans (arg2_val m c),
      ((h c).2 main_arg3 (Pipeline.mem_restRefs_of main_arg3 (by decide) (by decide))).trans (arg3_val m c),
      ((h c).2 main_arg4 (Pipeline.mem_restRefs_of main_arg4 (by decide) (by decide))).trans (arg4_val m c),
      ((h c).2 main_arg5 (Pipeline.mem_restRefs_of main_arg5 (by decide) (by decide))).trans (arg5_val m c),
      ((h c).2 main_arg6 (Pipeline.mem_restRefs_of main_arg6 (by decide) (by decide))).trans (arg6_val m c),
      ((h c).2 main_arg7 (Pipeline.mem_restRefs_of main_arg7 (by decide) (by decide))).trans (arg7_val m c),
      ((h c).2 main_arg8 (Pipeline.mem_restRefs_of main_arg8 (by decide) (by decide))).trans (arg8_val m c)⟩)
    (run_main m ρ)

end Cert.KernelIdeal.Side

end
-- ==== Proof.LibHostIndex.lean ====
/-
  Host layout operations read at one index — a column cut out of a table, a vector laid out as a column, columns laid
  side by side, a row gather and an entry gather (start indices read signed and clamped into the table), a one-entry
  vector spread as a scalar — and the index words a gather meets: a node index that is a row number is left alone by the
  wrap-around of negative indices and by the clamp. Last, two accumulating scatters compared operand by operand, the
  sums inside them never opened.
-/
import Idealize.ShloMosaic.PureOps
import Idealize.ShloMosaic.PureOps.Ideal
import Idealize.ShloMosaic.Lib.ValueIdx
import Idealize.ShloMosaic.Lib.ValueLayout
import Idealize.ShloMosaic.Lib.Pipeline.Value

namespace Cert.HostIndex

open Idealize.ShloMosaic Idealize.ShloMosaic.ValueIdx

section Layout
variable {α : Type}

/-- Column k of an [n, m] table, cut out as an [n, 1] column and flattened to a vector, read at e. -/
theorem col_apply {n m : Nat} (k : Nat) (X : (⟨2, ![n, m]⟩ : Shape).Idx → α)
    (hs : (⟨2, ![n, m]⟩ : Shape).Slices ![0, k] ⟨2, ![n, 1]⟩)
    (hc : (⟨2, ![n, 1]⟩ : Shape).ShapeCasts ⟨1, ![n]⟩) (e : Fin n) (kk : Fin m) (hk : kk.val = k) :
    shapeCast ⟨1, ![n]⟩ (extractStridedSlice ⟨2, ![n, 1]⟩ ![0, k] X hs) hc (ix1 e) = X (ix2 e kk) := by
  refine (shapeCast_apply _ hc (ix1 e) (ix2 e (0 : Fin 1)) ?_).trans ?_
  · rw [Shape.rowMajor_val_two, Shape.rowMajor_val_one]
    show e.val * 1 + 0 = e.val
    omega
  · exact slice2_axis1_apply k X hs e 0 kk (by simp [hk])

/-- A vector laid out as a one-column table reads the vector's entry in every row. -/
theorem bcol_apply {n : Nat} (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) := by
  refine broadcastInDim_apply _ h v _ (ix1 e) (fun a => ?_)
  match a with
  | ⟨0, _⟩ =>
    show e.val = if n = 1 then 0 else e.val
    split
    · next h1 => have := e.isLt; omega
    · rfl

/-- Three one-column tables side by side: entry (e, k) is column k's entry in row e. -/
theorem concat3_apply {n : Nat} (x0 x1 x2 : (⟨2, ![n, 1]⟩ : Shape).Idx → α)
    (h : Shape.Concatenates [(⟨2, ![n, 1]⟩ : Shape), ⟨2, ![n, 1]⟩, ⟨2, ![n, 1]⟩] ⟨2, ![n, 3]⟩ 1) (e : Fin n) (k : Fin 3) :
    concatenate ⟨2, ![n, 3]⟩ 1 [⟨⟨2, ![n, 1]⟩, x0⟩, ⟨⟨2, ![n, 1]⟩, x1⟩, ⟨⟨2, ![n, 1]⟩, x2⟩] h (ix2 e k)
      = (![x0 (ix2 e 0), x1 (ix2 e 0), x2 (ix2 e 0)] : Fin 3 → α) k := by
  have hi : ∀ b : Fin 2, b.cast (rfl : (2 : Nat) = 2) ≠ (1 : Fin 2) →
      ((ix2 e (0 : Fin 1) : (⟨2, ![n, 1]⟩ : Shape).Idx) b).val = ((ix2 e k : (⟨2, ![n, 3]⟩ : Shape).Idx) (b.cast rfl)).val := by
    intro b hb
    match b with
    | ⟨0, _⟩ => rfl
    | ⟨1, _⟩ => exact absurd rfl hb
  match k with
  | ⟨0, _⟩ =>
    exact concatenate_apply_piece (t := ⟨2, ![n, 3]⟩) (1 : Fin 2) [⟨⟨2, ![n, 1]⟩, x0⟩, ⟨⟨2, ![n, 1]⟩, x1⟩, ⟨⟨2, ![n, 1]⟩, x2⟩] h _ 0 (by simp) ⟨2, ![n, 1]⟩ x0 rfl rfl 0 rfl (ix2 e 0) hi rfl
  | ⟨1, _⟩ =>
    exact concatenate_apply_piece (t := ⟨2, ![n, 3]⟩) (1 : Fin 2) [⟨⟨2, ![n, 1]⟩, x0⟩, ⟨⟨2, ![n, 1]⟩, x1⟩, ⟨⟨2, ![n, 1]⟩, x2⟩] h _ 1 (by simp) ⟨2, ![n, 1]⟩ x1 rfl rfl 1 rfl (ix2 e 0) hi rfl
  | ⟨2, _⟩ =>
    exact concatenate_apply_piece (t := ⟨2, ![n, 3]⟩) (1 : Fin 2) [⟨⟨2, ![n, 1]⟩, x0⟩, ⟨⟨2, ![n, 1]⟩, x1⟩, ⟨⟨2, ![n, 1]⟩, x2⟩] h _ 2 (by simp) ⟨2, ![n, 1]⟩ x2 rfl rfl 2 rfl (ix2 e 0) hi rfl

/-- Two one-column tables side by side: entry (e, 0) is the first column's, (e, 1) the second's. -/
theorem concat2_apply {n : Nat} (x0 x1 : (⟨2, ![n, 1]⟩ : Shape).Idx → α)
    (h : Shape.Concatenates [(⟨2, ![n, 1]⟩ : Shape), ⟨2, ![n, 1]⟩] ⟨2, ![n, 2]⟩ 1) (e : Fin n) (k : Fin 2) :
    concatenate ⟨2, ![n, 2]⟩ 1 [⟨⟨2, ![n, 1]⟩, x0⟩, ⟨⟨2, ![n, 1]⟩, x1⟩] h (ix2 e k)
      = (![x0 (ix2 e 0), x1 (ix2 e 0)] : Fin 2 → α) k := by
  have hi : ∀ b : Fin 2, b.cast (rfl : (2 : Nat) = 2) ≠ (1 : Fin 2) →
      ((ix2 e (0 : Fin 1) : (⟨2, ![n, 1]⟩ : Shape).Idx) b).val = ((ix2 e k : (⟨2, ![n, 2]⟩ : Shape).Idx) (b.cast rfl)).val := by
    intro b hb
    match b with
    | ⟨0, _⟩ => rfl
    | ⟨1, _⟩ => exact absurd rfl hb
  match k with
  | ⟨0, _⟩ =>
    exact concatenate_apply_piece (t := ⟨2, ![n, 2]⟩) (1 : Fin 2) [⟨⟨2, ![n, 1]⟩, x0⟩, ⟨⟨2, ![n, 1]⟩, x1⟩] h _ 0 (by simp) ⟨2, ![n, 1]⟩ x0 rfl rfl 0 rfl (ix2 e 0) hi rfl
  | ⟨1, _⟩ =>
    exact concatenate_apply_piece (t := ⟨2, ![n, 2]⟩) (1 : Fin 2) [⟨⟨2, ![n, 1]⟩, x0⟩, ⟨⟨2, ![n, 1]⟩, x1⟩] h _ 1 (by simp) ⟨2, ![n, 1]⟩ x1 rfl rfl 1 rfl (ix2 e 0) hi rfl

/-- The three columns of such a table, one by one. -/
theorem concat3_apply0 {n : Nat} (x0 x1 x2 : (⟨2, ![n, 1]⟩ : Shape).Idx → α)
    (h : Shape.Concatenates [(⟨2, ![n, 1]⟩ : Shape), ⟨2, ![n, 1]⟩, ⟨2, ![n, 1]⟩] ⟨2, ![n, 3]⟩ 1) (e : Fin n) :
    concatenate ⟨2, ![n, 3]⟩ 1 [⟨⟨2, ![n, 1]⟩, x0⟩, ⟨⟨2, ![n, 1]⟩, x1⟩, ⟨⟨2, ![n, 1]⟩, x2⟩] h (ix2 e 0)
      = x0 (ix2 e 0) := concat3_apply x0 x1 x2 h e 0
theorem concat3_apply1 {n : Nat} (x0 x1 x2 : (⟨2, ![n, 1]⟩ : Shape).Idx → α)
    (h : Shape.Concatenates [(⟨2, ![n, 1]⟩ : Shape), ⟨2, ![n, 1]⟩, ⟨2, ![n, 1]⟩] ⟨2, ![n, 3]⟩ 1) (e : Fin n) :
    concatenate ⟨2, ![n, 3]⟩ 1 [⟨⟨2, ![n, 1]⟩, x0⟩, ⟨⟨2, ![n, 1]⟩, x1⟩, ⟨⟨2, ![n, 1]⟩, x2⟩] h (ix2 e 1)
      = x1 (ix2 e 0) := concat3_apply x0 x1 x2 h e 1
theorem concat3_apply2 {n : Nat} (x0 x1 x2 : (⟨2, ![n, 1]⟩ : Shape).Idx → α)
    (h : Shape.Concatenates [(⟨2, ![n, 1]⟩ : Shape), ⟨2, ![n, 1]⟩, ⟨2, ![n, 1]⟩] ⟨2, ![n, 3]⟩ 1) (e : Fin n) :
    concatenate ⟨2, ![n, 3]⟩ 1 [⟨⟨2, ![n, 1]⟩, x0⟩, ⟨⟨2, ![n, 1]⟩, x1⟩, ⟨⟨2, ![n, 1]⟩, x2⟩] h (ix2 e 2)
      = x2 (ix2 e 0) := concat3_apply x0 x1 x2 h e 2

/-- The two columns of a two-column table, one by one. -/
theorem concat2_apply0 {n : Nat} (x0 x1 : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x0⟩, ⟨⟨2, ![n, 1]⟩, x1⟩] h (ix2 e 0) = x0 (ix2 e 0) :=
  concat2_apply x0 x1 h e 0
theorem concat2_apply1 {n : Nat} (x0 x1 : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x0⟩, ⟨⟨2, ![n, 1]⟩, x1⟩] h (ix2 e 1) = x1 (ix2 e 0) :=
  concat2_apply x0 x1 h e 1

end Layout

section Gather
variable {α : Type}

/-- Dimension numbers of a ROW gather: operand [N, 3], one start index per result row (its row number),
    the whole row of three kept. -/
abbrev rowDims (N n : Nat)
    (wf : GatherDims.WF ⟨2, ![N, 3]⟩ ⟨2, ![n, 1]⟩ ⟨2, ![n, 3]⟩ [1] [0] [] [0] [] 1 ![1, 3]) :
    GatherDims ⟨2, ![N, 3]⟩ ⟨2, ![n, 1]⟩ ⟨2, ![n, 3]⟩ where
  offsetDims := [1]
  collapsedSliceDims := [0]
  operandBatchingDims := []
  startIndicesBatchingDims := []
  startIndexMap := [0]
  indexVectorDim := 1
  sliceSizes := ![1, 3]
  wf := wf

/-- The row gather at (e, k): the table at the row the start index names (read signed, clamped into the
    table), column k. -/
theorem gather_row_apply {N n w : Nat} (hN : 0 < N)
    (wf : GatherDims.WF ⟨2, ![N, 3]⟩ ⟨2, ![n, 1]⟩ ⟨2, ![n, 3]⟩ [1] [0] [] [0] [] 1 ![1, 3])
    (T : (⟨2, ![N, 3]⟩ : Shape).Idx → α) (idx : IVec ⟨2, ![n, 1]⟩ w) (e : Fin n) (k : Fin 3) :
    Host.gather (rowDims N n wf) T idx (ix2 e k)
      = T (ix2 ⟨min (idx (ix2 e 0)).toInt.toNat (N - 1), by omega⟩ k) := by
  unfold Host.gather
  congr 1
  funext a
  refine Fin.ext ?_
  match a with
  | ⟨0, _⟩ =>
    show (rowDims N n wf).start (ix2 e k) idx 0 + (rowDims N n wf).batchCoord (ix2 e k) 0
      + (rowDims N n wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N n wf).startIndexMap from List.mem_singleton.mpr rfl)]
    have hsi : (rowDims N n wf).siIdx (ix2 e k) ⟨List.idxOf (0 : Fin 2) (rowDims N n wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N n wf).start (ix2 e k) idx 1 + (rowDims N n wf).batchCoord (ix2 e k) 1
      + (rowDims N n wf).offCoord (ix2 e k) 1 = k.val
    have h1 : (rowDims N n wf).start (ix2 e k) idx 1 = 0 := by
      unfold GatherDims.start
      exact dif_neg (fun h => Nat.one_ne_zero (congrArg Fin.val (List.mem_singleton.mp h)))
    have h2 : (rowDims N n wf).offCoord (ix2 e k) 1 = k.val := by
      unfold GatherDims.offCoord
      rw [dif_pos ((GatherDims.mem_sKept _ _).mpr
        ⟨fun h => Nat.one_ne_zero (congrArg Fin.val (List.mem_singleton.mp h)), List.not_mem_nil⟩)]
      rfl
    rw [h1, GatherDims.batchCoord_eq_zero _ _ _ List.not_mem_nil, h2]
    omega

/-- Dimension numbers of an ENTRY gather: operand [N, 3], a (row, column) pair of start indices per result
    entry, both axes collapsed. -/
abbrev eltDims (N n : Nat)
    (wf : GatherDims.WF ⟨2, ![N, 3]⟩ ⟨2, ![n, 2]⟩ ⟨1, ![n]⟩ [] [0, 1] [] [0, 1] [] 1 ![1, 1]) :
    GatherDims ⟨2, ![N, 3]⟩ ⟨2, ![n, 2]⟩ ⟨1, ![n]⟩ where
  offsetDims := []
  collapsedSliceDims := [0, 1]
  operandBatchingDims := []
  startIndicesBatchingDims := []
  startIndexMap := [0, 1]
  indexVectorDim := 1
  sliceSizes := ![1, 1]
  wf := wf

/-- The entry gather at e: the table at the (row, column) the two start indices name, each read signed
    and clamped into its axis. -/
theorem gather_elt_apply {N n w : Nat} (hN : 0 < N)
    (wf : GatherDims.WF ⟨2, ![N, 3]⟩ ⟨2, ![n, 2]⟩ ⟨1, ![n]⟩ [] [0, 1] [] [0, 1] [] 1 ![1, 1])
    (T : (⟨2, ![N, 3]⟩ : Shape).Idx → α) (idx : IVec ⟨2, ![n, 2]⟩ w) (e : Fin n) :
    Host.gather (eltDims N n wf) T idx (ix1 e)
      = T (ix2 ⟨min (idx (ix2 e 0)).toInt.toNat (N - 1), by omega⟩
               ⟨min (idx (ix2 e 1)).toInt.toNat (3 - 1), by omega⟩) := by
  unfold Host.gather
  congr 1
  funext a
  refine Fin.ext ?_
  match a with
  | ⟨0, _⟩ =>
    show (eltDims N n wf).start (ix1 e) idx 0 + (eltDims N n wf).batchCoord (ix1 e) 0
      + (eltDims N n wf).offCoord (ix1 e) 0 = _
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (show (0 : Fin 2) ∈ (eltDims N n wf).startIndexMap from List.mem_cons_self ..)]
    have hsi : (eltDims N n wf).siIdx (ix1 e) ⟨List.idxOf (0 : Fin 2) (eltDims N n wf).startIndexMap,
        List.idxOf_lt_length_iff.2 (List.mem_cons_self ..)⟩ = ix2 e 0 := by
      funext b; refine Fin.ext ?_
      match b with
      | ⟨0, _⟩ => rfl
      | ⟨1, _⟩ => rfl
    rw [hsi]
    rfl
  | ⟨1, _⟩ =>
    have hm : (1 : Fin 2) ∈ (eltDims N n wf).startIndexMap := List.mem_cons_of_mem _ (List.mem_singleton.mpr rfl)
    show (eltDims N n wf).start (ix1 e) idx 1 + (eltDims N n wf).batchCoord (ix1 e) 1
      + (eltDims N n wf).offCoord (ix1 e) 1 = _
    rw [GatherDims.batchCoord_eq_zero _ _ _ List.not_mem_nil,
      GatherDims.offCoord_eq_zero _ _ _ (fun h => ((GatherDims.mem_sKept _ _).mp h).1
        (List.mem_cons_of_mem _ (List.mem_singleton.mpr rfl)))]
    simp only [Nat.add_zero]
    unfold GatherDims.start
    rw [dif_pos hm]
    have hsi : (eltDims N n wf).siIdx (ix1 e) ⟨List.idxOf (1 : Fin 2) (eltDims N n wf).startIndexMap,
        List.idxOf_lt_length_iff.2 hm⟩ = ix2 e 1 := by
      funext b; refine Fin.ext ?_
      match b with
      | ⟨0, _⟩ => rfl
      | ⟨1, _⟩ => rfl
    rw [hsi]
    rfl

end Gather

section Words

/-- A node index that is a row number (read signed, in [0, 1000000)) is not negative, so the wrap-around of
    negative indices leaves it alone. -/
theorem wrap_of_inrange (w : BitVec 32) (h0 : 0 ≤ w.toInt) :
    Scalar.select (IntOp.cmpi .slt w 0#32) (IntOp.addi w 1000000#32) w = w := by
  have hc : IntOp.cmpi .slt w 0#32 = 0#1 := by
    unfold IntOp.cmpi
    have : w.slt 0#32 = false := by
      simp only [BitVec.slt, BitVec.toInt_zero, decide_eq_false_iff_not, not_lt]
      exact h0
    rw [this]; rfl
  rw [hc, select_zero]

/-- Such an index, clamped into the table's rows, is its own value (which is also its value modulo the row count). -/
theorem clamp_of_inrange (w : BitVec 32) (h0 : 0 ≤ w.toInt) (h1 : w.toInt < 1000000) :
    min w.toInt.toNat (1000000 - 1) = w.toNat % 1000000 := by
  have hlt := w.isLt
  have hti := BitVec.toInt_eq_toNat_cond w
  split at hti <;> omega

end Words

section Scalars
variable {α : Type}

/-- A one-entry vector turned into a scalar and spread over a vector reads that one entry everywhere. -/
theorem scalarOf_apply {n : Nat} (x : (⟨1, ![1]⟩ : Shape).Idx → α)
    (hsc : (⟨1, ![1]⟩ : Shape).ShapeCasts ⟨0, ![]⟩) (hb : (⟨0, ![]⟩ : Shape).BroadcastsInDim ⟨1, ![n]⟩ ![])
    (i : (⟨1, ![n]⟩ : Shape).Idx) :
    broadcastInDim ⟨1, ![n]⟩ ![] hb (shapeCast ⟨0, ![]⟩ x hsc) i = x (ix1 0) := by
  show x _ = x (ix1 0)
  exact congrArg x ((eq_ix1 _).trans (congrArg ix1 (Subsingleton.elim _ _)))

/-- The wrap-around of negative indices, read at an entry that is not negative: the entry itself. -/
theorem wrapped_apply {n : Nat} (v : (⟨1, ![n]⟩ : Shape).Idx → BitVec 32)
    (hs : (⟨0, ![]⟩ : Shape).BroadcastsInDim ⟨1, ![n]⟩ ![]) (i : (⟨1, ![n]⟩ : Shape).Idx) (h0 : 0 ≤ (v i).toInt) :
    select (cmpi .slt v (broadcastInDim ⟨1, ![n]⟩ ![] hs (constantI ⟨0, ![]⟩ 32 0#32)))
      (addi v (broadcastInDim ⟨1, ![n]⟩ ![] hs (constantI ⟨0, ![]⟩ 32 1000000#32))) v i = v i :=
  wrap_of_inrange (v i) h0

/-- Two accumulating scatters agree at every node when their operands, index columns and update rows agree. -/
theorem scatter_congr {s si su : Shape} (d : ScatterDims s si su) {w : Nat} {x x' : s.Idx → EReal}
    {idx idx' : IVec si w} {u u' : su.Idx → EReal} (hx : x = x') (hi : idx = idx') (hu : u = u') (i : s.Idx) :
    Ideal.hostScatterAdd d x idx u i = Ideal.hostScatterAdd d x' idx' u' i := by
  subst hx hi hu; rfl

/-- The sum of two accumulating scatters, node by node, once their operands, index columns and update rows
    are named: the sums inside the scatters are not touched. -/
theorem addf_scatter_eq {s si su : Shape} {φ : FTy} (d : ScatterDims s si su) {w : Nat}
    {x0 x1 : FVec Ideal s φ} {i0 i1 : IVec si w} {u0 u1 : FVec Ideal su φ}
    {x0' x1' : s.Idx → EReal} {i0' i1' : IVec si w} {u0' u1' : su.Idx → EReal}
    (h1 : x0 = x0') (h2 : i0 = i0') (h3 : u0 = u0') (h4 : x1 = x1') (h5 : i1 = i1') (h6 : u1 = u1') :
    addf (Host.scatterAdd d x0 i0 u0) (Host.scatterAdd d x1 i1 u1)
      = fun i => Ideal.hostScatterAdd d x0' i0' u0' i + Ideal.hostScatterAdd d x1' i1' u1' i := by
  subst h1 h2 h3 h4 h5 h6; rfl

end Scalars

end Cert.HostIndex
-- ==== Proof.RefValue.lean ====
/-
  The reference's two computed results, read as the specification's functions over extended reals.

  The reference gathers, for every edge, the x and z coordinates and the three displacement components of
  its two end nodes, forms the beam element's end forces edge by edge with pointwise arithmetic, and adds
  the force rows into the node table by two scatters (one by the A-ends, one by the B-ends). Read at one
  edge, every intermediate vector of that computation is one field of the specification's per-edge record;
  read at one (edge, component), the two update tables are the specification's force rows; and the two
  index columns are the edge list's two columns. So the first result is the specification's sum of two
  scatters, the sums themselves never opened. The third result is the displacement table scaled column by
  column, read entry by entry.

  A gather clamps its start indices into the table and the reference first wraps negative indices around;
  when every node index is a row number of the node table both steps leave the index alone, and the row
  read is the index's value (equally its value modulo the row count, which is how the specification names it).
-/
import proofs.«429318_j42734924595225_2_alg».proof.Proof.Gen.ReferenceIdeal.Run
import proofs.«429318_j42734924595225_2_alg».proof.Proof.Spec
import proofs.«429318_j42734924595225_2_alg».proof.Proof.LibHostIndex
import Idealize.ShloMosaic.PureOps.Ideal.Laws
import Idealize.ShloMosaic.Lib.ValueIdx

namespace Cert.ReferenceIdeal.RefValue

open Idealize.ShloMosaic Idealize.ShloMosaic.ValueIdx Cert.ReferenceIdeal Cert.ReferenceIdeal.Gen
  Cert.ReferenceIdeal.Value Cert.Beam Cert.HostIndex

/-! ## The reference's vectors, edge by edge -/

section Main
variable (V0 : Valuation τ sig (Elt Ideal))

/-- The displacement table. -/
abbrev aPred : SN3.Idx → EReal := V0 (Proc.devRef .tc main_arg0)
/-- The edge list. -/
abbrev aConn : SE2.Idx → BitVec 32 := V0 (Proc.devRef .tc main_arg1)
/-- The coordinate table. -/
abbrev aCoords : SN3.Idx → EReal := V0 (Proc.devRef .tc main_arg2)
/-- The three material vectors. -/
abbrev aE : SE.Idx → EReal := V0 (Proc.devRef .tc main_arg3)
abbrev aA : SE.Idx → EReal := V0 (Proc.devRef .tc main_arg4)
abbrev aI : SE.Idx → EReal := V0 (Proc.devRef .tc main_arg5)
/-- What edge e reads. -/
abbrev eIn (e : Fin 4000000) : EdgeIn := edgeIn (aPred V0) (aCoords V0) (aConn V0) (aE V0) (aA V0) (aI V0) e

/-- A per-edge vector of extended reals read at edge e. -/
abbrev rd (x : S4000000.Idx → EReal) (e : Fin 4000000) : EReal := x (ix1 e)

/-- Column k of the displacement rows gathered at the A-ends, as the reference cuts it out. -/
abbrev colA (k : Nat) (hs : S4000000x3.Slices ![0, k] S4000000x1) : S4000000.Idx → EReal :=
  shapeCast S4000000 (extractStridedSlice S4000000x1 ![0, k] (res_main_v85 V0) hs) shapeCasts_S4000000x1_S4000000
/-- Column k of the displacement rows gathered at the B-ends. -/
abbrev colB (k : Nat) (hs : S4000000x3.Slices ![0, k] S4000000x1) : S4000000.Idx → EReal :=
  shapeCast S4000000 (extractStridedSlice S4000000x1 ![0, k] (res_main_v92 V0) hs) shapeCasts_S4000000x1_S4000000

/-- Column 0 of the edge list: the A-end's node index. -/
theorem v1_apply (e : Fin 4000000) : res_main_v1 V0 (ix1 e) = aConn V0 (ix2 e 0) := by
  unfold res_main_v1
  exact col_apply (m := 2) 0 _ _ _ e 0 rfl

/-- Column 1 of the edge list: the B-end's node index. -/
theorem v3_apply (e : Fin 4000000) : res_main_v3 V0 (ix1 e) = aConn V0 (ix2 e 1) := by
  unfold res_main_v3
  exact col_apply (m := 2) 1 _ _ _ e 1 rfl

/-- One entry of a node table per edge: the wrapped node index of end j with a constant column k.
    With node indices in range this is the table at (the row end j names, k). -/
theorem entryAt (h : InRange (aConn V0)) (T : S1000000x3.Idx → EReal) (v : S4000000.Idx → BitVec 32) (j : Fin 2)
    (hv : ∀ e : Fin 4000000, v (ix1 e) = aConn V0 (ix2 e j)) (c : BitVec 32) (k : Fin 3)
    (hc : min c.toInt.toNat (3 - 1) = k.val) (e : Fin 4000000)
    (hs : S_.BroadcastsInDim S4000000 ![]) (hb : S4000000.BroadcastsInDim S4000000x1 ![0])
    (hcat : Shape.Concatenates [S4000000x1, S4000000x1] S4000000x2 1) :
    Host.gather gather_S1000000x3_S4000000x2_S4000000_n_01_n_n_01_1_11 T
      (concatenate S4000000x2 1
        [⟨S4000000x1, broadcastInDim S4000000x1 ![0] hb
            (select (cmpi .slt v (broadcastInDim S4000000 ![] hs (constantI S_ 32 0#32)))
              (addi v (broadcastInDim S4000000 ![] hs (constantI S_ 32 1000000#32))) v)⟩,
         ⟨S4000000x1, broadcastInDim S4000000x1 ![0] hb
            (id (broadcastInDim S4000000 ![] hs (constantI S_ 32 c)))⟩] hcat)
      (ix1 e) = gath T (aConn V0) j k e := by
  refine (gather_elt_apply (N := 1000000) (n := 4000000) (by norm_num)
    gather_S1000000x3_S4000000x2_S4000000_n_01_n_n_01_1_11.wf _ _ e).trans ?_
  refine congrArg T (congrArg₂ (ix2 (n0 := 1000000) (n1 := 3)) (Fin.ext ?_) (Fin.ext ?_))
  · -- the row: column 0 of the index table is the wrapped node index, in range, so the clamp keeps it
    show min (BitVec.toInt _).toNat (1000000 - 1) = _
    rw [concat2_apply0 _ _ hcat e, bcol_apply hb _ e 0,
      wrapped_apply v hs (ix1 e) (by rw [hv e]; exact (h e j).1), hv e]
    exact clamp_of_inrange _ (h e j).1 (h e j).2
  · -- the column: column 1 of the index table is the constant
    show min (BitVec.toInt _).toNat (3 - 1) = _
    rw [concat2_apply1 _ _ hcat e, bcol_apply hb _ e 0]
    exact hc

/-- A whole row of a node table per edge, by the wrapped node index of end j. With node indices in range
    this is the table's row that end j names. -/
theorem rowsAt (h : InRange (aConn V0)) (T : S1000000x3.Idx → EReal) (v : S4000000.Idx → BitVec 32) (j : Fin 2)
    (hv : ∀ e : Fin 4000000, v (ix1 e) = aConn V0 (ix2 e j)) (e : Fin 4000000) (k : Fin 3)
    (hs : S_.BroadcastsInDim S4000000 ![]) (hb : S4000000.BroadcastsInDim S4000000x1 ![0]) :
    Host.gather gather_S1000000x3_S4000000x1_S4000000x3_1_0_n_n_0_1_13 T
      (broadcastInDim S4000000x1 ![0] hb
        (select (cmpi .slt v (broadcastInDim S4000000 ![] hs (constantI S_ 32 0#32)))
          (addi v (broadcastInDim S4000000 ![] hs (constantI S_ 32 1000000#32))) v))
      (ix2 e k) = gath T (aConn V0) j k e := by
  refine (gather_row_apply (N := 1000000) (n := 4000000) (by norm_num)
    gather_S1000000x3_S4000000x1_S4000000x3_1_0_n_n_0_1_13.wf _ _ e k).trans ?_
  refine congrArg T (congrArg₂ (ix2 (n0 := 1000000) (n1 := 3)) (Fin.ext ?_) rfl)
  show min (BitVec.toInt _).toNat (1000000 - 1) = _
  rw [bcol_apply hb _ e 0, wrapped_apply v hs (ix1 e) (by rw [hv e]; exact (h e j).1), hv e]
  exact clamp_of_inrange _ (h e j).1 (h e j).2

/-- Bending stiffness of the section: modulus times second moment. -/
theorem v63_apply (e : Fin 4000000) : rd (res_main_v63 V0) e = (eIn V0 e).EI := rfl

variable (h : InRange (aConn V0)) (e : Fin 4000000)
include h

/-- x of node B less x of node A. -/
theorem v26_apply : rd (res_main_v26 V0) e = (eIn V0 e).dx0 :=
  congrArg₂ (fun a b : EReal => a - b)
    (entryAt V0 h (aCoords V0) (res_main_v3 V0) 1 (v3_apply V0) 0#32 0 rfl e bcast_S_S4000000
      bcast_S4000000_S4000000x1_0 concatenates_S4000000x1_S4000000x1_S4000000x2_d1)
    (entryAt V0 h (aCoords V0) (res_main_v1 V0) 0 (v1_apply V0) 0#32 0 rfl e bcast_S_S4000000
      bcast_S4000000_S4000000x1_0 concatenates_S4000000x1_S4000000x1_S4000000x2_d1)

/-- z of node B less z of node A. -/
theorem v49_apply : rd (res_main_v49 V0) e = (eIn V0 e).dz0 :=
  congrArg₂ (fun a b : EReal => a - b)
    (entryAt V0 h (aCoords V0) (res_main_v3 V0) 1 (v3_apply V0) 2#32 2 rfl e bcast_S_S4000000
      bcast_S4000000_S4000000x1_0 concatenates_S4000000x1_S4000000x1_S4000000x2_d1)
    (entryAt V0 h (aCoords V0) (res_main_v1 V0) 0 (v1_apply V0) 2#32 2 rfl e bcast_S_S4000000
      bcast_S4000000_S4000000x1_0 concatenates_S4000000x1_S4000000x1_S4000000x2_d1)

/-- The undeformed length. -/
theorem v55_apply : rd (res_main_v55 V0) e = (eIn V0 e).l0 := by
  show Ideal.sqrt (rd (res_main_v26 V0) e * rd (res_main_v26 V0) e
    + rd (res_main_v49 V0) e * rd (res_main_v49 V0) e + eps) = _
  rw [v26_apply V0 h e, v49_apply V0 h e]; rfl

/-- The direction cosine. -/
theorem v58_apply : rd (res_main_v58 V0) e = (eIn V0 e).c := by
  show Ideal.div (rd (res_main_v26 V0) e) (rd (res_main_v55 V0) e + eps) = _
  rw [v26_apply V0 h e, v55_apply V0 h e]; rfl

/-- The direction sine. -/
theorem v61_apply : rd (res_main_v61 V0) e = (eIn V0 e).s := by
  show Ideal.div (rd (res_main_v49 V0) e) (rd (res_main_v55 V0) e + eps) = _
  rw [v49_apply V0 h e, v55_apply V0 h e]; rfl

/-- Axial stiffness over length. -/
theorem v66_apply : rd (res_main_v66 V0) e = (eIn V0 e).kax := by
  show Ideal.div (rd (aE V0) e * rd (aA V0) e) (rd (res_main_v55 V0) e + eps) = _
  rw [v55_apply V0 h e]; rfl

/-- Bending stiffness over length. -/
theorem v69_apply : rd (res_main_v69 V0) e = (eIn V0 e).kbend := by
  show Ideal.div (rd (res_main_v63 V0) e) (rd (res_main_v55 V0) e + eps) = _
  rw [v63_apply V0 e, v55_apply V0 h e]; rfl

/-- Bending stiffness over length squared. -/
theorem v73_apply : rd (res_main_v73 V0) e = (eIn V0 e).ksw := by
  show Ideal.div (rd (res_main_v63 V0) e) (rd (res_main_v55 V0) e * rd (res_main_v55 V0) e + eps) = _
  rw [v63_apply V0 e, v55_apply V0 h e]; rfl

/-- Bending stiffness over length cubed. -/
theorem v78_apply : rd (res_main_v78 V0) e = (eIn V0 e).ktr := by
  show Ideal.div (rd (res_main_v63 V0) e)
    (rd (res_main_v55 V0) e * rd (res_main_v55 V0) e * rd (res_main_v55 V0) e + eps) = _
  rw [v63_apply V0 e, v55_apply V0 h e]; rfl

/-- The displacement row of node A, component k. -/
theorem v85_apply (k : Fin 3) : res_main_v85 V0 (ix2 e k) = gath (aPred V0) (aConn V0) 0 k e :=
  rowsAt V0 h (aPred V0) (res_main_v1 V0) 0 (v1_apply V0) e k bcast_S_S4000000 bcast_S4000000_S4000000x1_0

/-- The displacement row of node B, component k. -/
theorem v92_apply (k : Fin 3) : res_main_v92 V0 (ix2 e k) = gath (aPred V0) (aConn V0) 1 k e :=
  rowsAt V0 h (aPred V0) (res_main_v3 V0) 1 (v3_apply V0) e k bcast_S_S4000000 bcast_S4000000_S4000000x1_0

/-- Component k of node A's displacement row, as the reference cuts it out of the gathered rows. -/
theorem colA_apply (k : Fin 3) (kn : Nat) (hk : k.val = kn) (hs : S4000000x3.Slices ![0, kn] S4000000x1) :
    rd (colA V0 kn hs) e = gath (aPred V0) (aConn V0) 0 k e :=
  (col_apply kn _ hs _ e k hk).trans (v85_apply V0 h e k)

/-- Component k of node B's displacement row, likewise. -/
theorem colB_apply (k : Fin 3) (kn : Nat) (hk : k.val = kn) (hs : S4000000x3.Slices ![0, kn] S4000000x1) :
    rd (colB V0 kn hs) e = gath (aPred V0) (aConn V0) 1 k e :=
  (col_apply kn _ hs _ e k hk).trans (v92_apply V0 h e k)

/-- Node A's axial displacement in the element's frame. -/
theorem v99_apply : rd (res_main_v99 V0) e = (eIn V0 e).ua := by
  show rd (res_main_v58 V0) e * rd (colA V0 0 slices_S4000000x3_S4000000x1_0_0) e
    + rd (res_main_v61 V0) e * rd (colA V0 1 slices_S4000000x3_S4000000x1_0_1) e = _
  rw [v58_apply V0 h e, v61_apply V0 h e, colA_apply V0 h e 0 0 rfl, colA_apply V0 h e 1 1 rfl]; rfl

/-- Node A's transverse displacement in the element's frame. -/
theorem v107_apply : rd (res_main_v107 V0) e = (eIn V0 e).wa := by
  show -rd (res_main_v61 V0) e * rd (colA V0 0 slices_S4000000x3_S4000000x1_0_0) e
    + rd (res_main_v58 V0) e * rd (colA V0 1 slices_S4000000x3_S4000000x1_0_1) e = _
  rw [v58_apply V0 h e, v61_apply V0 h e, colA_apply V0 h e 0 0 rfl, colA_apply V0 h e 1 1 rfl]; rfl

/-- Node A's rotation, sign flipped. -/
theorem v110_apply : rd (res_main_v110 V0) e = (eIn V0 e).ta := by
  show -rd (colA V0 2 slices_S4000000x3_S4000000x1_0_2) e = _
  rw [colA_apply V0 h e 2 2 rfl]; rfl

/-- Node B's axial displacement in the element's frame. -/
theorem v117_apply : rd (res_main_v117 V0) e = (eIn V0 e).ub := by
  show rd (res_main_v58 V0) e * rd (colB V0 0 slices_S4000000x3_S4000000x1_0_0) e
    + rd (res_main_v61 V0) e * rd (colB V0 1 slices_S4000000x3_S4000000x1_0_1) e = _
  rw [v58_apply V0 h e, v61_apply V0 h e, colB_apply V0 h e 0 0 rfl, colB_apply V0 h e 1 1 rfl]; rfl

/-- Node B's transverse displacement in the element's frame. -/
theorem v125_apply : rd (res_main_v125 V0) e = (eIn V0 e).wb := by
  show -rd (res_main_v61 V0) e * rd (colB V0 0 slices_S4000000x3_S4000000x1_0_0) e
    + rd (res_main_v58 V0) e * rd (colB V0 1 slices_S4000000x3_S4000000x1_0_1) e = _
  rw [v58_apply V0 h e, v61_apply V0 h e, colB_apply V0 h e 0 0 rfl, colB_apply V0 h e 1 1 rfl]; rfl

/-- Node B's rotation, sign flipped. -/
theorem v128_apply : rd (res_main_v128 V0) e = (eIn V0 e).tb := by
  show -rd (colB V0 2 slices_S4000000x3_S4000000x1_0_2) e = _
  rw [colB_apply V0 h e 2 2 rfl]; rfl

/-- The axial end force at A. -/
theorem v130_apply : rd (res_main_v130 V0) e = (eIn V0 e).f0 := by
  show rd (res_main_v66 V0) e * (rd (res_main_v99 V0) e - rd (res_main_v117 V0) e) = _
  rw [v66_apply V0 h e, v99_apply V0 h e, v117_apply V0 h e]; rfl

/-- The axial end force at B. -/
theorem v132_apply : rd (res_main_v132 V0) e = (eIn V0 e).f3 := by
  show rd (res_main_v66 V0) e * (rd (res_main_v117 V0) e - rd (res_main_v99 V0) e) = _
  rw [v66_apply V0 h e, v99_apply V0 h e, v117_apply V0 h e]; rfl

/-- The shear end force at A. -/
theorem v141_apply : rd (res_main_v141 V0) e = (eIn V0 e).f1 := by
  show c12 * rd (res_main_v78 V0) e * (rd (res_main_v107 V0) e - rd (res_main_v125 V0) e)
    + c6 * rd (res_main_v73 V0) e * (rd (res_main_v110 V0) e + rd (res_main_v128 V0) e) = _
  rw [v78_apply V0 h e, v73_apply V0 h e, v107_apply V0 h e, v125_apply V0 h e, v110_apply V0 h e,
    v128_apply V0 h e]; rfl

/-- The shear end force at B. -/
theorem v150_apply : rd (res_main_v150 V0) e = (eIn V0 e).f4 := by
  show c12 * rd (res_main_v78 V0) e * (rd (res_main_v125 V0) e - rd (res_main_v107 V0) e)
    - c6 * rd (res_main_v73 V0) e * (rd (res_main_v110 V0) e + rd (res_main_v128 V0) e) = _
  rw [v78_apply V0 h e, v73_apply V0 h e, v107_apply V0 h e, v125_apply V0 h e, v110_apply V0 h e,
    v128_apply V0 h e]; rfl

/-! ## The two results -/

omit h e in
/-- The first result's operand: a table of zeros. -/
theorem zeroTable_eq (hb : S_.BroadcastsInDim S1000000x3 ![]) :
    broadcastInDim S1000000x3 ![] hb (constant (F := Ideal) S_ .f32 0x00000000#32) = Z := by
  funext j
  show Ideal.ofBits .f32 0x00000000#32 = 0
  exact Ideal.ofBits_zero_f32

omit h e in
/-- The first scatter's index column: the A-ends' node indices. -/
theorem idxA_eq (hb : S4000000.BroadcastsInDim S4000000x1 ![0]) :
    broadcastInDim S4000000x1 ![0] hb (res_main_v1 V0) = nodeIdx (aConn V0) 0 := by
  funext j
  obtain ⟨e, u, rfl⟩ : ∃ (e : Fin 4000000) (u : Fin 1), j = ix2 e u := ⟨j 0, j 1, eq_ix2 j⟩
  exact (bcol_apply hb _ e u).trans (v1_apply V0 e)

omit h e in
/-- The second scatter's index column: the B-ends' node indices. -/
theorem idxB_eq (hb : S4000000.BroadcastsInDim S4000000x1 ![0]) :
    broadcastInDim S4000000x1 ![0] hb (res_main_v3 V0) = nodeIdx (aConn V0) 1 := by
  funext j
  obtain ⟨e, u, rfl⟩ : ∃ (e : Fin 4000000) (u : Fin 1), j = ix2 e u := ⟨j 0, j 1, eq_ix2 j⟩
  exact (bcol_apply hb _ e u).trans (v3_apply V0 e)

omit e in
/-- The first scatter's update rows: the force each edge puts on its A-end. -/
theorem updA_eq :
    concatenate S4000000x3 1 [⟨S4000000x1, (broadcastInDim S4000000x1 ![0] bcast_S4000000_S4000000x1_0 (subf (mulf (res_main_v58 V0) (res_main_v130 V0)) (mulf (res_main_v61 V0) (res_main_v141 V0))))⟩, ⟨S4000000x1, (broadcastInDim S4000000x1 ![0] bcast_S4000000_S4000000x1_0 (addf (mulf (res_main_v61 V0) (res_main_v130 V0)) (mulf (res_main_v58 V0) (res_main_v141 V0))))⟩, ⟨S4000000x1, (broadcastInDim S4000000x1 ![0] bcast_S4000000_S4000000x1_0 (addf (mulf (mulf (broadcastInDim S4000000 ![] bcast_S_S4000000 (constant S_ .f32 0x40C00000#32)) (res_main_v73 V0)) (subf (res_main_v107 V0) (res_main_v125 V0))) (mulf (res_main_v69 V0) (addf (mulf (broadcastInDim S4000000 ![] bcast_S_S4000000 (constant S_ .f32 0x40800000#32)) (res_main_v110 V0)) (mulf (broadcastInDim S4000000 ![] bcast_S_S4000000 (constant S_ .f32 0x40000000#32)) (res_main_v128 V0))))))⟩] concatenates_S4000000x1_S4000000x1_S4000000x1_S4000000x3_d1
      = UA (aPred V0) (aCoords V0) (aConn V0) (aE V0) (aA V0) (aI V0) := by
  funext j
  obtain ⟨e, k, rfl⟩ : ∃ (e : Fin 4000000) (k : Fin 3), j = ix2 e k := ⟨j 0, j 1, eq_ix2 j⟩
  match k with
  | ⟨0, _⟩ =>
    refine (concat3_apply0 _ _ _ _ e).trans ((bcol_apply _ _ e 0).trans ?_)
    show rd (res_main_v58 V0) e * rd (res_main_v130 V0) e - rd (res_main_v61 V0) e * rd (res_main_v141 V0) e = _
    rw [v58_apply V0 h e, v130_apply V0 h e, v61_apply V0 h e, v141_apply V0 h e]; rfl
  | ⟨1, _⟩ =>
    refine (concat3_apply1 _ _ _ _ e).trans ((bcol_apply _ _ e 0).trans ?_)
    show rd (res_main_v61 V0) e * rd (res_main_v130 V0) e + rd (res_main_v58 V0) e * rd (res_main_v141 V0) e = _
    rw [v58_apply V0 h e, v130_apply V0 h e, v61_apply V0 h e, v141_apply V0 h e]; rfl
  | ⟨2, _⟩ =>
    refine (concat3_apply2 _ _ _ _ e).trans ((bcol_apply _ _ e 0).trans ?_)
    show c6 * rd (res_main_v73 V0) e * (rd (res_main_v107 V0) e - rd (res_main_v125 V0) e)
      + rd (res_main_v69 V0) e * (c4 * rd (res_main_v110 V0) e + c2 * rd (res_main_v128 V0) e) = _
    rw [v73_apply V0 h e, v107_apply V0 h e, v125_apply V0 h e, v69_apply V0 h e, v110_apply V0 h e,
      v128_apply V0 h e]; rfl

omit e in
/-- The second scatter's update rows: the force each edge puts on its B-end. -/
theorem updB_eq :
    concatenate S4000000x3 1 [⟨S4000000x1, (broadcastInDim S4000000x1 ![0] bcast_S4000000_S4000000x1_0 (subf (mulf (res_main_v58 V0) (res_main_v132 V0)) (mulf (res_main_v61 V0) (res_main_v150 V0))))⟩, ⟨S4000000x1, (broadcastInDim S4000000x1 ![0] bcast_S4000000_S4000000x1_0 (addf (mulf (res_main_v61 V0) (res_main_v132 V0)) (mulf (res_main_v58 V0) (res_main_v150 V0))))⟩, ⟨S4000000x1, (broadcastInDim S4000000x1 ![0] bcast_S4000000_S4000000x1_0 (addf (mulf (mulf (broadcastInDim S4000000 ![] bcast_S_S4000000 (constant S_ .f32 0x40C00000#32)) (res_main_v73 V0)) (subf (res_main_v107 V0) (res_main_v125 V0))) (mulf (res_main_v69 V0) (addf (mulf (broadcastInDim S4000000 ![] bcast_S_S4000000 (constant S_ .f32 0x40000000#32)) (res_main_v110 V0)) (mulf (broadcastInDim S4000000 ![] bcast_S_S4000000 (constant S_ .f32 0x40800000#32)) (res_main_v128 V0))))))⟩] concatenates_S4000000x1_S4000000x1_S4000000x1_S4000000x3_d1
      = UB (aPred V0) (aCoords V0) (aConn V0) (aE V0) (aA V0) (aI V0) := by
  funext j
  obtain ⟨e, k, rfl⟩ : ∃ (e : Fin 4000000) (k : Fin 3), j = ix2 e k := ⟨j 0, j 1, eq_ix2 j⟩
  match k with
  | ⟨0, _⟩ =>
    refine (concat3_apply0 _ _ _ _ e).trans ((bcol_apply _ _ e 0).trans ?_)
    show rd (res_main_v58 V0) e * rd (res_main_v132 V0) e - rd (res_main_v61 V0) e * rd (res_main_v150 V0) e = _
    rw [v58_apply V0 h e, v132_apply V0 h e, v61_apply V0 h e, v150_apply V0 h e]; rfl
  | ⟨1, _⟩ =>
    refine (concat3_apply1 _ _ _ _ e).trans ((bcol_apply _ _ e 0).trans ?_)
    show rd (res_main_v61 V0) e * rd (res_main_v132 V0) e + rd (res_main_v58 V0) e * rd (res_main_v150 V0) e = _
    rw [v58_apply V0 h e, v132_apply V0 h e, v61_apply V0 h e, v150_apply V0 h e]; rfl
  | ⟨2, _⟩ =>
    refine (concat3_apply2 _ _ _ _ e).trans ((bcol_apply _ _ e 0).trans ?_)
    show c6 * rd (res_main_v73 V0) e * (rd (res_main_v107 V0) e - rd (res_main_v125 V0) e)
      + rd (res_main_v69 V0) e * (c2 * rd (res_main_v110 V0) e + c4 * rd (res_main_v128 V0) e) = _
    rw [v73_apply V0 h e, v107_apply V0 h e, v125_apply V0 h e, v69_apply V0 h e, v110_apply V0 h e,
      v128_apply V0 h e]; rfl

omit h e in
/-- The reference's scatter dimension numbers are the specification's. -/
theorem scatterDims_eq : scatter_S1000000x3_S4000000x1_S4000000x3_1_0_0_1 = dSc := rfl

omit h e in
/-- THE FIRST RESULT is the specification's: at every node the A-forces of the edges that start there plus the
    B-forces of the edges that end there. The two scatters are compared operand by operand, never opened. -/
theorem out0_eq (h : InRange (V0 (Proc.devRef .tc main_arg1))) :
    Value.val5 V0 (Proc.devRef .tc main_v199)
      = G0 (V0 (Proc.devRef .tc main_arg0)) (V0 (Proc.devRef .tc main_arg2)) (V0 (Proc.devRef .tc main_arg1))
          (V0 (Proc.devRef .tc main_arg3)) (V0 (Proc.devRef .tc main_arg4)) (V0 (Proc.devRef .tc main_arg5)) := by
  refine (val5_main_v199 V0).trans ?_
  rw [scatterDims_eq]
  exact addf_scatter_eq dSc (zeroTable_eq _) (idxA_eq V0 _) (updA_eq V0 h) (zeroTable_eq _) (idxB_eq V0 _)
    (updB_eq V0 h)

omit h e in
/-- THE THIRD RESULT is the specification's: the displacement table with its first two columns times the one
    scale and its third column times the other. -/
theorem out2_eq :
    Value.val5 V0 (Proc.devRef .tc main_v218)
      = G2 (V0 (Proc.devRef .tc main_arg0)) (V0 (Proc.devRef .tc main_arg7)) (V0 (Proc.devRef .tc main_arg8)) := by
  refine (val5_main_v218 V0).trans ?_
  funext j
  obtain ⟨r, k, rfl⟩ : ∃ (r : Fin 1000000) (k : Fin 3), j = ix2 r k := ⟨j 0, j 1, eq_ix2 j⟩
  match k with
  | ⟨0, _⟩ =>
    refine (concat3_apply0 _ _ _ _ r).trans ((bcol_apply _ _ r 0).trans ?_)
    exact congrArg₂ (fun a b : EReal => a * b) (col_apply (m := 3) 0 (aPred V0) _ _ r 0 rfl)
      (scalarOf_apply (V0 (Proc.devRef .tc main_arg7)) _ _ (ix1 r))
  | ⟨1, _⟩ =>
    refine (concat3_apply1 _ _ _ _ r).trans ((bcol_apply _ _ r 0).trans ?_)
    exact congrArg₂ (fun a b : EReal => a * b) (col_apply (m := 3) 1 (aPred V0) _ _ r 1 rfl)
      (scalarOf_apply (V0 (Proc.devRef .tc main_arg7)) _ _ (ix1 r))
  | ⟨2, _⟩ =>
    refine (concat3_apply2 _ _ _ _ r).trans ((bcol_apply _ _ r 0).trans ?_)
    exact congrArg₂ (fun a b : EReal => a * b) (col_apply (m := 3) 2 (aPred V0) _ _ r 2 rfl)
      (scalarOf_apply (V0 (Proc.devRef .tc main_arg8)) _ _ (ix1 r))

end Main

end Cert.ReferenceIdeal.RefValue
-- ==== Proof.lean ====
/-
  Per-edge plane-beam forces scattered to the nodes, against the same computation in plain host
  operations.

  Both programs take a node table of displacements, an edge list, a node table of coordinates and
  three per-edge material vectors. For every edge they form, from the x and z coordinates and the
  three displacement components of its two end nodes, the element's length, direction cosines,
  stiffness coefficients and six end forces, rotated back to the global frame; then every node
  receives the sum of the forces the edges put on it. The second result is an argument passed
  through; the third scales the displacement table column by column.

  The kernel gathers whole rows, lays the edge axis out as [3, 31744, 128] (padded with zeros)
  and computes the forces in 62 blocks, then adds the A-forces and the B-forces in ONE scatter over
  the stacked rows; the reference gathers single entries, computes on flat vectors and adds two
  scatters. Edge by edge the two compute the same expression of the same gathered numbers, and a
  sum over the stacked rows is the sum over its two halves: the results are equal, entry by entry,
  as extended reals. The kernel's gather fills a row it cannot find while the reference's clamps the
  index, so the equality is claimed where every index of the edge list is a row of the node tables;
  there both read the row the index names.

  The frames of the two kernel programs are the pipeline's frame run around the region (host
  operations before and after it); the reference is host operations only and its frame is its run.
-/
import proofs.«429318_j42734924595225_2_alg».proof.Defs
import proofs.«429318_j42734924595225_2_alg».proof.Proof.Gen.Kernel
import proofs.«429318_j42734924595225_2_alg».proof.Proof.Gen.KernelIdeal
import proofs.«429318_j42734924595225_2_alg».proof.Proof.Gen.ReferenceIdeal
import proofs.«429318_j42734924595225_2_alg».proof.Proof.Gen.Pre_finite_inputs
import proofs.«429318_j42734924595225_2_alg».proof.Proof.Gen.ReferenceIdeal.Run
import proofs.«429318_j42734924595225_2_alg».proof.Proof.Spec
import proofs.«429318_j42734924595225_2_alg».proof.Proof.PreRange
import proofs.«429318_j42734924595225_2_alg».proof.Proof.FrameK
import proofs.«429318_j42734924595225_2_alg».proof.Proof.FrameKI
import proofs.«429318_j42734924595225_2_alg».proof.Proof.KernelSide
import proofs.«429318_j42734924595225_2_alg».proof.Proof.RefValue
import Idealize.ShloMosaic.Adequacy
import Idealize.ShloMosaic.Init

noncomputable section

open Idealize.ShloMosaic Idealize.ShloMosaic.TcCoe Idealize.SL.Sem Idealize.ShloMosaic.ValueIdx

namespace Cert.Proof

/-- The word-level program runs to the end and leaves its arguments as launched. -/
theorem frame_p : Cert.frame_Kernel := fun m ρ _ => Cert.Kernel.Hand.frame (F := Bits) m ρ
/-- So does the program read at the extended reals. -/
theorem frame_pi : Cert.frame_KernelIdeal := fun m ρ _ => Cert.KernelIdeal.Hand.frame (F := Ideal) m ρ
/-- The reference is host operations only: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- Under the precondition every node index is a row of the node tables, so both programs gather the same rows,
    compute the same per-edge forces and add them at the same nodes; the second result is an argument and the third
    the same scaling of the displacement table. -/
theorem algebraic : Cert.algebraic_KernelIdeal_ReferenceIdeal := by
  intro m ρ m' ρ' hpre hagree
  have hr : ∀ c, Cert.Beam.InRange (Cert.KernelIdeal.Side.aConn m c) := fun c => Cert.Beam.inRange_of_pre_kernelIdeal m hpre c
  refine ⟨_, _, _, Cert.KernelIdeal.Side.kernel_run m ρ hr, ?_⟩
  refine (θ_run Cert.ReferenceIdeal.defs _ _).mono (fun r h c => ?_) (Cert.ReferenceIdeal.Value.run (F := Ideal) m' ρ')
  obtain ⟨a0, a1, a2, a3, a4, a5, a6, a7, a8⟩ := hagree c
  obtain ⟨h0, h6, h2, hargs⟩ := h c
  refine ⟨h0.trans ?_, h6.trans a6, h2.trans ?_, hargs⟩
  · have hr' : Cert.Beam.InRange (StableHlo.launchContents m' c (Proc.devRef .tc Cert.ReferenceIdeal.main_arg1)) := by
      show Cert.Beam.InRange (m' ((c.tc : Thread Cert.ReferenceIdeal.nD Cert.ReferenceIdeal.τ).loc Cert.ReferenceIdeal.main_arg1))
      rw [a1]; exact hr c
    refine ((Cert.ReferenceIdeal.Value.val5_main_v199 (StableHlo.launchContents m' c)).symm.trans
      (Cert.ReferenceIdeal.RefValue.out0_eq (StableHlo.launchContents m' c) hr')).trans ?_
    show Cert.Beam.G0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [a0, a1, a2, a3, a4, a5]
  · refine ((Cert.ReferenceIdeal.Value.val5_main_v218 (StableHlo.launchContents m' c)).symm.trans
      (Cert.ReferenceIdeal.RefValue.out2_eq (StableHlo.launchContents m' c))).trans ?_
    show Cert.Beam.G2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [a0, a7, a8]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
